-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x256 : Shape := ⟨3, ![2048, 64, 256]⟩
abbrev S2048 : Shape := ⟨1, ![2048]⟩
abbrev S64x256x256 : Shape := ⟨3, ![64, 256, 256]⟩
abbrev S64x256 : Shape := ⟨2, ![64, 256]⟩
abbrev S_ : Shape := ⟨0, ![]⟩

class Facts : Prop where
  bcast_S_S2048x64x256 : S_.BroadcastsInDim S2048x64x256 (![] : Fin 0 → Fin S2048x64x256.rank)
  reducesTo_S2048x64x256_S_d0_1_2 : S2048x64x256.ReducesTo [0, 1, 2] S_
  h_S_ : 0 < S_.numel
  bcast_S_S64x256x256 : S_.BroadcastsInDim S64x256x256 (![] : Fin 0 → Fin S64x256x256.rank)
  reducesTo_S64x256x256_S_d0_1_2 : S64x256x256.ReducesTo [0, 1, 2] S_
  bcast_S_S64x256 : S_.BroadcastsInDim S64x256 (![] : Fin 0 → Fin S64x256.rank)
  reducesTo_S64x256_S_d0_1 : S64x256.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v15 : IVec S2048 1) (main_c_5 : IVec S_ 1) : IVec S_ 1 :=
  let main_v16 : IVec S_ 1 := (fun x v => Host.reduce IntOp.andi x v reducesTo_S2048_S_d0 h_S_) main_v15 main_c_5
  let main_v17 : IVec S_ 1 := andi main_v13 main_v16
  main_v17

def fn {F : FTy → Type} [FloatOps F] (main_arg0 : FVec F S2048x64x256 .f32) (main_arg1 : IVec S2048 32) (main_arg2 : FVec F S64x256x256 .f32) (main_arg3 : FVec F S64x256 .f32) : IVec S_ 1 :=
  let main_v0 : FVec F S2048x64x256 .f32 := Host.absf main_arg0
  let main_cst : FVec F S_ .f32 := constant S_ .f32 0x7F800000#32
  let main_v1 : FVec F S2048x64x256 .f32 := broadcastInDim S2048x64x256 ![] bcast_S_S2048x64x256 main_cst
  let main_v2 : IVec S2048x64x256 1 := cmpf .olt main_v0 main_v1
  let main_c : IVec S_ 1 := constantI S_ 1 1#1
  let main_v3 : IVec S_ 1 := (fun x v => Host.reduce IntOp.andi x v reducesTo_S2048x64x256_S_d0_1_2 h_S_) main_v2 main_c
  let main_v4 : FVec F S64x256x256 .f32 := Host.absf main_arg2
  let main_cst_0 : FVec F S_ .f32 := constant S_ .f32 0x7F800000#32
  let main_v5 : FVec F S64x256x256 .f32 := broadcastInDim S64x256x256 ![] bcast_S_S64x256x256 main_cst_0
  let main_v6 : IVec S64x256x256 1 := cmpf .olt main_v4 main_v5
  let main_c_1 : IVec S_ 1 := constantI S_ 1 1#1
  let main_v7 : IVec S_ 1 := (fun x v => Host.reduce IntOp.andi x v reducesTo_S64x256x256_S_d0_1_2 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_c_4 : IVec S_ 32 := constantI S_ 32 0#32
  let main_v14 : IVec S2048 32 := broadcastInDim S2048 ![] bcast_S_S2048 main_c_4
  let main_v15 : IVec S2048 1 := cmpi .sge main_arg1 main_v14
  let main_c_5 : IVec S_ 1 := constantI S_ 1 1#1
  fn_part1 (F := F) main_v13 main_v15 main_c_5
-- ==== Kernel.lean ====
abbrev S2048x64x256 : Shape := ⟨3, ![2048, 64, 256]⟩
abbrev S2048 : Shape := ⟨1, ![2048]⟩
abbrev S64x256x256 : Shape := ⟨3, ![64, 256, 256]⟩
abbrev S64x256 : Shape := ⟨2, ![64, 256]⟩
abbrev S_ : Shape := ⟨0, ![]⟩
abbrev S64x1x256 : Shape := ⟨3, ![64, 1, 256]⟩
abbrev S64x64x256 : Shape := ⟨3, ![64, 64, 256]⟩
abbrev S1 : Shape := ⟨1, ![1]⟩
abbrev S1x64x256 : Shape := ⟨3, ![1, 64, 256]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 14
  | .vmem => 6
  | .smem => 1
  | _ => 0

abbrev bufTy : (tb : Table) → Fin (tcTables nBuf tb) → BufTy
  | .hbm, ⟨0, _⟩ => ⟨S2048x64x256, .f32⟩
  | .hbm, ⟨1, _⟩ => ⟨S2048, .i32⟩
  | .hbm, ⟨2, _⟩ => ⟨S64x256x256, .f32⟩
  | .hbm, ⟨3, _⟩ => ⟨S64x256, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S64x256x256, .bf16⟩
  | .hbm, ⟨12, _⟩ => ⟨S64x1x256, .f32⟩
  | .hbm, ⟨13, _⟩ => ⟨S2048x64x256, .f32⟩
  | .local _ .vmem, ⟨0, _⟩ => ⟨S64x64x256, .f32⟩
  | .local _ .vmem, ⟨1, _⟩ => ⟨S64x64x256, .f32⟩
  | .local _ .vmem, ⟨2, _⟩ => ⟨S64x256x256, .bf16⟩
  | .local _ .vmem, ⟨3, _⟩ => ⟨S64x1x256, .f32⟩
  | .local _ .vmem, ⟨4, _⟩ => ⟨S64x64x256, .f32⟩
  | .local _ .vmem, ⟨5, _⟩ => ⟨S64x64x256, .f32⟩
  | .local _ .smem, ⟨0, _⟩ => ⟨S2048, .i32⟩
  | _, _ => ⟨S2048x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let c1_i32 : BitVec 32 := 1#32
  let arg6 : BitVec 32 := Scf.iv c0_i32 c1_i32 k0_t1
  let c4_i32 : BitVec 32 := 4#32
  let v2 : BitVec 32 := Scalar.muli arg6 c4_i32
  let c0_i32_1 : BitVec 32 := 0#32
  let v3 : BitVec 32 := Scalar.addi v2 c0_i32_1
  let v4 : BitVec 32 := Scalar.addi v0 v3
  let v5 : Index := Scalar.indexCast v4
  ![v5.toNat]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let c4_i32 : BitVec 32 := 4#32
  let v2 : BitVec 32 := Scalar.muli arg6 c4_i32
  let c0_i32_1 : BitVec 32 := 0#32
  let v3 : BitVec 32 := Scalar.addi v2 c0_i32_1
  let v7 : Index := Scalar.indexCast v3
  let c0 : Index := 0#32
  let c0_2 : Index := 0#32
  ![v7.toNat, 0, 0]
def k0_off3 (v6 : BitVec 32) : Fin 3 → Nat :=
  let v11 : Index := Scalar.indexCast v6
  let c0_3 : Index := 0#32
  let c0_4 : Index := 0#32
  ![v11.toNat, 0, 0]

def k0_off4 (v6 : BitVec 32) : Fin 3 → Nat :=
  let v14 : Index := Scalar.indexCast v6
  let c0_5 : Index := 0#32
  let c0_6 : Index := 0#32
  ![v14.toNat, 0, 0]

def k0_chk1 (v6 : BitVec 32) : Prop :=
  (∀ a, (k0_off3 v6) a + S1x256x256.size a ≤ S64x256x256.size a) ∧
  (∀ a, (k0_off4 v6) a + S1x1x256.size a ≤ S64x1x256.size a)
instance k0_chk1.dec : ∀ (v6 : BitVec 32), Decidable (k0_chk1 v6) := fun v6 => decidable_of_iff' _ (Iff.of_eq (k0_chk1.eq_1 v6))
theorem k0_off3_inb : ∀ (v6 : BitVec 32) (k0_hw1 : k0_chk1 v6), ∀ a, (k0_off3 v6) a + S1x256x256.size a ≤ S64x256x256.size a := fun v6 k0_hw1 => k0_hw1.1
theorem k0_off4_inb : ∀ (v6 : BitVec 32) (k0_hw1 : k0_chk1 v6), ∀ a, (k0_off4 v6) a + S1x1x256.size a ≤ S64x1x256.size a := fun v6 k0_hw1 => k0_hw1.2

def k0_off5 (k0_t1 : Fin k0_t1_loop.trips) (c0_i32_1 : BitVec 32) : Fin 3 → Nat :=
  let c0_i32 : BitVec 32 := 0#32
  let c1_i32 : BitVec 32 := 1#32
  let arg6 : BitVec 32 := Scf.iv c0_i32 c1_i32 k0_t1
  let c4_i32 : BitVec 32 := 4#32
  let v2 : BitVec 32 := Scalar.muli arg6 c4_i32
  let v3 : BitVec 32 := Scalar.addi v2 c0_i32_1
  let v20 : Index := Scalar.indexCast v3
  let c0_7 : Index := 0#32
  let c0_8 : Index := 0#32
  ![v20.toNat, 0, 0]
def k0_off6 (i : grid0.Coords) (k0_t1 : Fin k0_t1_loop.trips) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let c1_i32 : BitVec 32 := 1#32
  let arg6 : BitVec 32 := Scf.iv c0_i32 c1_i32 k0_t1
  let c4_i32 : BitVec 32 := 4#32
  let v2 : BitVec 32 := Scalar.muli arg6 c4_i32
  let c1_i32_9 : BitVec 32 := 1#32
  let v24 : BitVec 32 := Scalar.addi v2 c1_i32_9
  let v25 : BitVec 32 := Scalar.addi v0 v24
  let v26 : Index := Scalar.indexCast v25
  ![v26.toNat]
def k0_off7 (v27 : BitVec 32) : Fin 3 → Nat :=
  let v32 : Index := Scalar.indexCast v27
  let c0_12 : Index := 0#32
  let c0_13 : Index := 0#32
  ![v32.toNat, 0, 0]

def k0_off8 (v27 : BitVec 32) : Fin 3 → Nat :=
  let v35 : Index := Scalar.indexCast v27
  let c0_14 : Index := 0#32
  let c0_15 : Index := 0#32
  ![v35.toNat, 0, 0]

def k0_chk2 (v27 : BitVec 32) : Prop :=
  (∀ a, (k0_off7 v27) a + S1x256x256.size a ≤ S64x256x256.size a) ∧
  (∀ a, (k0_off8 v27) a + S1x1x256.size a ≤ S64x1x256.size a)
instance k0_chk2.dec : ∀ (v27 : BitVec 32), Decidable (k0_chk2 v27) := fun v27 => decidable_of_iff' _ (Iff.of_eq (k0_chk2.eq_1 v27))
theorem k0_off7_inb : ∀ (v27 : BitVec 32) (k0_hw2 : k0_chk2 v27), ∀ a, (k0_off7 v27) a + S1x256x256.size a ≤ S64x256x256.size a := fun v27 k0_hw2 => k0_hw2.1
theorem k0_off8_inb : ∀ (v27 : BitVec 32) (k0_hw2 : k0_chk2 v27), ∀ a, (k0_off8 v27) a + S1x1x256.size a ≤ S64x1x256.size a := fun v27 k0_hw2 => k0_hw2.2

def k0_off9 (k0_t1 : Fin k0_t1_loop.trips) (c1_i32_9 : BitVec 32) : Fin 3 → Nat :=
  let c0_i32 : BitVec 32 := 0#32
  let c1_i32 : BitVec 32 := 1#32
  let arg6 : BitVec 32 := Scf.iv c0_i32 c1_i32 k0_t1
  let c4_i32 : BitVec 32 := 4#32
  let v2 : BitVec 32 := Scalar.muli arg6 c4_i32
  let v24 : BitVec 32 := Scalar.addi v2 c1_i32_9
  let v41 : Index := Scalar.indexCast v24
  let c0_17 : Index := 0#32
  let c0_18 : Index := 0#32
  ![v41.toNat, 0, 0]
def k0_off10 (i : grid0.Coords) (k0_t1 : Fin k0_t1_loop.trips) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let c1_i32 : BitVec 32 := 1#32
  let arg6 : BitVec 32 := Scf.iv c0_i32 c1_i32 k0_t1
  let c4_i32 : BitVec 32 := 4#32
  let v2 : BitVec 32 := Scalar.muli arg6 c4_i32
  let c2_i32 : BitVec 32 := 2#32
  let v45 : BitVec 32 := Scalar.addi v2 c2_i32
  let v46 : BitVec 32 := Scalar.addi v0 v45
  let v47 : Index := Scalar.indexCast v46
  ![v47.toNat]
def k0_off11 (v48 : BitVec 32) : Fin 3 → Nat :=
  let v53 : Index := Scalar.indexCast v48
  let c0_21 : Index := 0#32
  let c0_22 : Index := 0#32
  ![v53.toNat, 0, 0]

def k0_off12 (v48 : BitVec 32) : Fin 3 → Nat :=
  let v56 : Index := Scalar.indexCast v48
  let c0_23 : Index := 0#32
  let c0_24 : Index := 0#32
  ![v56.toNat, 0, 0]

def k0_chk3 (v48 : BitVec 32) : Prop :=
  (∀ a, (k0_off11 v48) a + S1x256x256.size a ≤ S64x256x256.size a) ∧
  (∀ a, (k0_off12 v48) a + S1x1x256.size a ≤ S64x1x256.size a)
instance k0_chk3.dec : ∀ (v48 : BitVec 32), Decidable (k0_chk3 v48) := fun v48 => decidable_of_iff' _ (Iff.of_eq (k0_chk3.eq_1 v48))
theorem k0_off11_inb : ∀ (v48 : BitVec 32) (k0_hw3 : k0_chk3 v48), ∀ a, (k0_off11 v48) a + S1x256x256.size a ≤ S64x256x256.size a := fun v48 k0_hw3 => k0_hw3.1
theorem k0_off12_inb : ∀ (v48 : BitVec 32) (k0_hw3 : k0_chk3 v48), ∀ a, (k0_off12 v48) a + S1x1x256.size a ≤ S64x1x256.size a := fun v48 k0_hw3 => k0_hw3.2

def k0_off13 (k0_t1 : Fin k0_t1_loop.trips) (c2_i32 : BitVec 32) : Fin 3 → Nat :=
  let c0_i32 : BitVec 32 := 0#32
  let c1_i32 : BitVec 32 := 1#32
  let arg6 : BitVec 32 := Scf.iv c0_i32 c1_i32 k0_t1
  let c4_i32 : BitVec 32 := 4#32
  let v2 : BitVec 32 := Scalar.muli arg6 c4_i32
  let v45 : BitVec 32 := Scalar.addi v2 c2_i32
  let v62 : Index := Scalar.indexCast v45
  let c0_26 : Index := 0#32
  let c0_27 : Index := 0#32
  ![v62.toNat, 0, 0]
def k0_off14 (i : grid0.Coords) (k0_t1 : Fin k0_t1_loop.trips) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let c1_i32 : BitVec 32 := 1#32
  let arg6 : BitVec 32 := Scf.iv c0_i32 c1_i32 k0_t1
  let c4_i32 : BitVec 32 := 4#32
  let v2 : BitVec 32 := Scalar.muli arg6 c4_i32
  let c3_i32 : BitVec 32 := 3#32
  let v66 : BitVec 32 := Scalar.addi v2 c3_i32
  let v67 : BitVec 32 := Scalar.addi v0 v66
  let v68 : Index := Scalar.indexCast v67
  ![v68.toNat]
def k0_off15 (v69 : BitVec 32) : Fin 3 → Nat :=
  let v74 : Index := Scalar.indexCast v69
  let c0_30 : Index := 0#32
  let c0_31 : Index := 0#32
  ![v74.toNat, 0, 0]

def k0_off16 (v69 : BitVec 32) : Fin 3 → Nat :=
  let v77 : Index := Scalar.indexCast v69
  let c0_32 : Index := 0#32
  let c0_33 : Index := 0#32
  ![v77.toNat, 0, 0]

def k0_chk4 (v69 : BitVec 32) : Prop :=
  (∀ a, (k0_off15 v69) a + S1x256x256.size a ≤ S64x256x256.size a) ∧
  (∀ a, (k0_off16 v69) a + S1x1x256.size a ≤ S64x1x256.size a)
instance k0_chk4.dec : ∀ (v69 : BitVec 32), Decidable (k0_chk4 v69) := fun v69 => decidable_of_iff' _ (Iff.of_eq (k0_chk4.eq_1 v69))
theorem k0_off15_inb : ∀ (v69 : BitVec 32) (k0_hw4 : k0_chk4 v69), ∀ a, (k0_off15 v69) a + S1x256x256.size a ≤ S64x256x256.size a := fun v69 k0_hw4 => k0_hw4.1
theorem k0_off16_inb : ∀ (v69 : BitVec 32) (k0_hw4 : k0_chk4 v69), ∀ a, (k0_off16 v69) a + S1x1x256.size a ≤ S64x1x256.size a := fun v69 k0_hw4 => k0_hw4.2

def k0_off17 (k0_t1 : Fin k0_t1_loop.trips) : Fin 3 → Nat :=
  let c0_i32 : BitVec 32 := 0#32
  let c1_i32 : BitVec 32 := 1#32
  let arg6 : BitVec 32 := Scf.iv c0_i32 c1_i32 k0_t1
  let c4_i32 : BitVec 32 := 4#32
  let v2 : BitVec 32 := Scalar.muli arg6 c4_i32
  let c3_i32 : BitVec 32 := 3#32
  let v66 : BitVec 32 := Scalar.addi v2 c3_i32
  let v83 : Index := Scalar.indexCast v66
  let c0_35 : Index := 0#32
  let c0_36 : Index := 0#32
  ![v83.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048 : S_.BroadcastsInDim S2048 (![] : Fin 0 → Fin S2048.rank)
  bitsLt_bf16_f32 : FTy.bits .bf16 < FTy.bits .f32
  shapeCasts_S64x256_S64x1x256 : S64x256.ShapeCasts S64x1x256
  numel1_S1 : S1.numel = 1
  h_S1x64x256 : 0 < S1x64x256.numel
  shapeCasts_S1x64x256_S64x256 : S1x64x256.ShapeCasts S64x256
  h_S1x256x256 : 0 < S1x256x256.numel
  shapeCasts_S1x256x256_S256x256 : S1x256x256.ShapeCasts S256x256
  h_S1x1x256 : 0 < S1x1x256.numel
  shapeCasts_S1x1x256_S1x256 : S1x1x256.ShapeCasts S1x256
  broadcasts_S1x256_S64x256 : S1x256.Broadcasts S64x256
  shapeCasts_S64x256_S1x64x256 : S64x256.ShapeCasts S1x64x256
  dot_S64x256_S256x256_S64x256_1_1_0_0_n_n_wf : DotDims.WF S64x256 S256x256 S64x256 [1] [1] [0] [0] [] []
  hrank0 : 0 < grid0.rank
  k0_t1_ok : k0_t1_loop.OK
  k0_off1_inb : ∀ (i : grid0.Coords) (k0_t1 : Fin k0_t1_loop.trips), ∀ a, (k0_off1 i k0_t1) a + S1.size a ≤ S2048.size a
  k0_off2_inb : ∀ k0_t1 : Fin k0_t1_loop.trips, ∀ a, (k0_off2 k0_t1) a + S1x64x256.size a ≤ S64x64x256.size a
  k0_off5_inb : ∀ k0_t1 : Fin k0_t1_loop.trips, ∀ (r : Fin 2), ∀ a, (k0_off5 k0_t1 (BitVec.ofNat 32 r.val)) a + S1x64x256.size a ≤ S64x64x256.size a
  k0_off6_inb : ∀ (i : grid0.Coords) (k0_t1 : Fin k0_t1_loop.trips), ∀ a, (k0_off6 i k0_t1) a + S1.size a ≤ S2048.size a
  k0_off9_inb : ∀ k0_t1 : Fin k0_t1_loop.trips, ∀ (r : Fin 2), ∀ a, (k0_off9 k0_t1 (BitVec.ofNat 32 (1 + r.val))) a + S1x64x256.size a ≤ S64x64x256.size a
  k0_off10_inb : ∀ (i : grid0.Coords) (k0_t1 : Fin k0_t1_loop.trips), ∀ a, (k0_off10 i k0_t1) a + S1.size a ≤ S2048.size a
  k0_off13_inb : ∀ k0_t1 : Fin k0_t1_loop.trips, ∀ (r : Fin 2), ∀ a, (k0_off13 k0_t1 (BitVec.ofNat 32 (2 + r.val))) a + S1x64x256.size a ≤ S64x64x256.size a
  k0_off14_inb : ∀ (i : grid0.Coords) (k0_t1 : Fin k0_t1_loop.trips), ∀ a, (k0_off14 i k0_t1) a + S1.size a ≤ S2048.size a
  k0_off17_inb : ∀ k0_t1 : Fin k0_t1_loop.trips, ∀ a, (k0_off17 k0_t1) a + S1x64x256.size a ≤ S64x64x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x256.size a ≤ S2048x64x256.size a
  hwx0_0 : ∀ i : grid0.Coords, EltTy.bits .f32 = 32 ∨ (Rect.block (s := S2048x64x256) S64x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256x256.size a ≤ S64x256x256.size a
  hwx0_1 : ∀ i : grid0.Coords, EltTy.bits .bf16 = 32 ∨ (Rect.block (s := S64x256x256) S64x256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1x256.size a ≤ S64x1x256.size a
  hwx0_2 : ∀ i : grid0.Coords, EltTy.bits .f32 = 32 ∨ (Rect.block (s := S64x1x256) S64x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64x256.size a ≤ S2048x64x256.size a
  hwx0_3 : ∀ i : grid0.Coords, EltTy.bits .f32 = 32 ∨ (Rect.block (s := S2048x64x256) S64x64x256.size (cc0_transform_3 i) (hinb0_3 i)).WholeWords (EltTy.packing .f32)

variable [Facts₀]

def dot_S64x256_S256x256_S64x256_1_1_0_0_n_n : DotDims S64x256 S256x256 S64x256 where
  lhsContracting := [1]
  rhsContracting := [1]
  lhsNonContracting := [0]
  rhsNonContracting := [0]
  lhsBatch := []
  rhsBatch := []
  wf := dot_S64x256_S256x256_S64x256_1_1_0_0_n_n_wf

abbrev spec0_0 : Pipeline.WinSpec sig grid0.rank :=
  Pipeline.WinSpec.ofSpec (Memref.whole main_arg0) S64x64x256.size reads0_0 false false 2 stage0_0 sem0_0 nbuf0_0 hstage0_0

abbrev spec0_1 : Pipeline.WinSpec sig grid0.rank :=
  Pipeline.WinSpec.ofSpec (Memref.whole main_v1) S64x256x256.size reads0_1 false true 1 stage0_1 sem0_1 nbuf0_1 hstage0_1

abbrev spec0_2 : Pipeline.WinSpec sig grid0.rank :=
  Pipeline.WinSpec.ofSpec (Memref.whole main_v2) S64x1x256.size reads0_2 false true 1 stage0_2 sem0_2 nbuf0_2 hstage0_2

abbrev spec0_3 : Pipeline.WinSpec sig grid0.rank :=
  Pipeline.WinSpec.ofSpec (Memref.whole main_v3) S64x64x256.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S2048x64x256 : Shape := ⟨3, ![2048, 64, 256]⟩
abbrev S2048 : Shape := ⟨1, ![2048]⟩
abbrev S64x256x256 : Shape := ⟨3, ![64, 256, 256]⟩
abbrev S64x256 : Shape := ⟨2, ![64, 256]⟩
abbrev S_ : Shape := ⟨0, ![]⟩
abbrev S2048x1 : Shape := ⟨2, ![2048, 1]⟩
abbrev S2048x256x256 : Shape := ⟨3, ![2048, 256, 256]⟩
abbrev S2048x256 : Shape := ⟨2, ![2048, 256]⟩
abbrev S2048x1x256 : Shape := ⟨3, ![2048, 1, 256]⟩

abbrev nBuf : Space → Nat
  | .hbm => 26
  | .vmem => 0
  | .smem => 0
  | _ => 0

abbrev bufTy : (tb : Table) → Fin (tcTables nBuf tb) → BufTy
  | .hbm, ⟨0, _⟩ => ⟨S2048x64x256, .f32⟩
  | .hbm, ⟨1, _⟩ => ⟨S2048, .i32⟩
  | .hbm, ⟨2, _⟩ => ⟨S64x256x256, .f32⟩
  | .hbm, ⟨3, _⟩ => ⟨S64x256, .f32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S2048x256x256, .f32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S2048x256, .f32⟩
  | .hbm, ⟨22, _⟩ => ⟨S2048x64x256, .f32⟩
  | .hbm, ⟨23, _⟩ => ⟨S2048x1x256, .f32⟩
  | .hbm, ⟨24, _⟩ => ⟨S2048x64x256, .f32⟩
  | .hbm, ⟨25, _⟩ => ⟨S2048x64x256, .f32⟩
  | _, _ => ⟨S2048x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x256_S2048x1x256_0_2 : S2048x256.BroadcastsInDim S2048x1x256 (![0, 2] : Fin 2 → Fin S2048x1x256.rank)
  bcast_S2048x1x256_S2048x64x256_0_1_2 : S2048x1x256.BroadcastsInDim S2048x64x256 (![0, 1, 2] : Fin 3 → Fin S2048x64x256.rank)
  gather_S64x256x256_S2048x1_S2048x256x256_12_0_n_n_0_1_1256256_wf : GatherDims.WF S64x256x256 S2048x1 S2048x256x256 [1, 2] [0] [] [0] [] 1 ![1, 256, 256]
  gather_S64x256_S2048x1_S2048x256_1_0_n_n_0_1_1256_wf : GatherDims.WF S64x256 S2048x1 S2048x256 [1] [0] [] [0] [] 1 ![1, 256]
  dot_S2048x64x256_S2048x256x256_S2048x64x256_2_2_1_1_0_0_wf : DotDims.WF S2048x64x256 S2048x256x256 S2048x64x256 [2] [2] [1] [1] [0] [0]

variable [Facts₀]

def gather_S64x256x256_S2048x1_S2048x256x256_12_0_n_n_0_1_1256256 : GatherDims S64x256x256 S2048x1 S2048x256x256 where
  offsetDims := [1, 2]
  collapsedSliceDims := [0]
  operandBatchingDims := []
  startIndicesBatchingDims := []
  startIndexMap := [0]
  indexVectorDim := 1
  sliceSizes := ![1, 256, 256]
  wf := gather_S64x256x256_S2048x1_S2048x256x256_12_0_n_n_0_1_1256256_wf
def gather_S64x256_S2048x1_S2048x256_1_0_n_n_0_1_1256 : GatherDims S64x256 S2048x1 S2048x256 where
  offsetDims := [1]
  collapsedSliceDims := [0]
  operandBatchingDims := []
  startIndicesBatchingDims := []
  startIndexMap := [0]
  indexVectorDim := 1
  sliceSizes := ![1, 256]
  wf := gather_S64x256_S2048x1_S2048x256_1_0_n_n_0_1_1256_wf
def dot_S2048x64x256_S2048x256x256_S2048x64x256_2_2_1_1_0_0 : DotDims S2048x64x256 S2048x256x256 S2048x64x256 where
  lhsContracting := [2]
  rhsContracting := [2]
  lhsNonContracting := [1]
  rhsNonContracting := [1]
  lhsBatch := [0]
  rhsBatch := [0]
  wf := dot_S2048x64x256_S2048x256x256_S2048x64x256_2_2_1_1_0_0_wf

class Facts : Prop extends Facts₀ where

variable [Facts]
-- ==== Proof.KBKit.lean ====
/-
  The launch side of the kernel's run, stated once for any float instance.

  @main is three stretches of host operations — two integer constants; the clip of the index words into
  `[0, 63]`, written to the table the kernel reads in scalar memory; the experts' matrices narrowed and
  the biases laid out as `[64, 1, 256]` — and then one pipelined region on a grid of 32 points. `V` is
  what each buffer holds when the region is entered; `tbl` the table's contents there. The pipeline has
  four windows: the samples (64 per point, moving with the point), the matrices and the biases (whole,
  fetched once), and the result (64 samples per point, written back at every point). An input window's
  staging buffer holds its block at every point, fetched there or not; the frame claim's post is read off
  the region's post, the arguments being either a window's array or bypassing the region.
-/
import proofs.«421429_j32667521254078_3_alg».proof.Proof.Gen.Kernel.Launch
import proofs.«421429_j32667521254078_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the three stretches of
    host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main reduces to the region, holding the buffers at `V`: the host stretches run one after the other. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The table of clipped index words -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so every contents of it is admissible. -/
abbrev adm : (pcfg0 (F := F)).Adm := ⟨tbl m, trivial⟩
/-- The pipeline at those contents. -/
abbrev cfgM : Pipeline.Cfg sig Λ₀ := cfg0 (adm m)

/-- The table as the body is handed it: its whole buffer as a memref. -/
abbrev tbM0_0 : Memref sig .tc .smem S2048 .i32 := Memref.whole main_v0
abbrev htbM0_0 : tbM0_0.IsWhole := Memref.isWhole_whole _
/-- The table's buffer on core `c`, and it held at half the full share (read-only: the pipeline keeps the other half). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f
/-- The half of the table the region hands the body. -/
theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Each input window's current staging buffer holds its block at every point, fetched there or not (where it is not
    fetched the block index has not moved), for any proof data whose array is `V`'s and whose body leaves the block in
    place. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's -/

/-- For any proof data whose arrays are the region-entry contents, a run to the region's post, read at the argument
    arrays — the samples an input window's array, the index words, the matrices and the biases bypassing the region —
    is the frame claim's post. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-! ## The staging memrefs at a point, and the body as the pipeline calls it -/

/-- One staging buffer of the result window, through which its contents are stated. -/
abbrev VO0_3 : View sig .tc .vmem S64x64x256 .f32 := (Memref.whole cc0_stg3_0 : Memref sig .tc .vmem S64x64x256 .f32).view
abbrev ms0_0 (t : Fin (cfgM m).N) : Memref sig .tc .vmem S64x64x256 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S64x256x256 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S64x1x256 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S64x64x256 .f32 := spec0_3.stage ((cfgM m).slots t 3)
abbrev hs0_3 (t : Fin (cfgM m).N) : (ms0_3 m t).IsWhole := hstage0_3 (((cfgM m).slots t 3).cast nbuf0_3)

/-- The kernel body at point `t`, on what the pipeline calls it with. -/
abbrev bodyAt0 (a : (pcfg0 (F := F)).Adm) (t : Fin (cfg0 a).N) : Prog (TpuEff nD τ sig (Elt F) Λ₀ .tc) PUnit :=
  cc0__kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

end Cert.Kernel.Hand

end
-- ==== Proof.KBLoop.lean ====
/-
  The kernel's counted loop, gone through by its invariant.

  A trip handles four samples. For sample `u` of trip `k` it reads one word of the table of clipped index
  words, the rows `4k + u` of the point's block of samples, that word's matrix and bias row, and stores the
  product plus the bias into rows `4k + u` of the result's block. The table, the samples, the matrices and
  the biases are only read; the result's buffer is written. Every word of the table is assumed to address an
  expert inside the tables (`hw1 … hw4`: the side conditions the body assumes, of every word the table may
  hold). The invariant before trip `k`: the read buffers at their contents, the result's buffer at the
  pieces of the trips before `k` written over what it held at loop entry.
-/
import proofs.«421429_j32667521254078_3_alg».proof.Proof.Gen.Kernel.Loops

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One trip's resources: the table at half its share and the three input buffers at their contents, the result's
    buffer at any. -/
abbrev Trip_k0_t1 (c : Dev nD) (arg1 : Memref sig .tc .smem S2048 .i32) (arg2 : Memref sig .tc .vmem S64x64x256 .f32) (arg3 : Memref sig .tc .vmem S64x256x256 .bf16) (arg4 : Memref sig .tc .vmem S64x1x256 .f32) (arg5 : Memref sig .tc .vmem S64x64x256 .f32)
    (X1 : Buf (Elt F) (arg1.view.loc (c : Thread nD τ))) (X2 : BufTy.Contents (Elt F) arg2.view.ty) (X3 : BufTy.Contents (Elt F) arg3.view.ty) (X4 : BufTy.Contents (Elt F) arg4.view.ty) (f5 : BufTy.Contents (Elt F) arg5.view.ty) : sProp 𝕄G :=
  iprop((arg1.view.loc (c : Thread nD τ) ↦{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5))

/-- ONE TRIP at a symbolic `k`: run once; the four pieces it writes into the result's buffer are what the run finds. -/
@[irreducible] def trip_k0_t1 (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : Fin k0_t1_loop.trips) :
    { L5 : List (View.Piece (Elt F) S64x64x256 .f32) // ∀ (E : Set ℕ) (f5 : BufTy.Contents (Elt F) arg5.view.ty),
      Trip_k0_t1 (F := F) c arg1 arg2 arg3 arg4 arg5 X1 X2 X3 X4 f5
      ⊢ wp frame (wpE (defs₀ (F := F)) 𝒱 (c : Thread nD τ) bd) E (k0_t1_body (F := F) i arg1 harg1 arg2 harg2 arg3 harg3 arg4 harg4 arg5 harg5 v0 k ())
          (fun _ => Trip_k0_t1 (F := F) c arg1 arg2 arg3 arg4 arg5 X1 X2 X3 X4 (arg5.view.writes (Elt F) f5 L5)) } := by
  refine ⟨?_, fun E f5 => ?run⟩
  case run =>
    unfold k0_t1_body
    simp only [k0_part1_eq_skeleton, k0_part2_eq_skeleton]
    iintro ⟨HT, H2, H3, H4, H5⟩
    sl_exec (disch := first | sl_exact (hw1 _ _) | sl_exact (hw2 _ _) | sl_exact (hw3 _ _) | sl_exact (hw4 _ _))
    sl_step
    sl_close

/-- The trip's pieces (the plain projection, for the recursion below to cite). -/
abbrev tripL_k0_t1 (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : Fin k0_t1_loop.trips) : List (View.Piece (Elt F) S64x64x256 .f32) :=
  (trip_k0_t1 (F := F) 𝒱 c bd i arg1 harg1 arg2 harg2 arg3 harg3 arg4 harg4 arg5 harg5 v0 X1 X2 X3 X4 hw1 hw2 hw3 hw4 k).1

/-- Trip `k`'s pieces in front of those of the trips before it; past the last trip, those alone. -/
@[irreducible] def pcs_k0_t1Step (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : ℕ) (prev : List (View.Piece (Elt F) S64x64x256 .f32)) : List (View.Piece (Elt F) S64x64x256 .f32) :=
  if h : k < k0_t1_loop.trips then
    (tripL_k0_t1 (F := F) 𝒱 c bd i arg1 harg1 arg2 harg2 arg3 harg3 arg4 harg4 arg5 harg5 v0 X1 X2 X3 X4 hw1 hw2 hw3 hw4 ⟨k, h⟩) ++ prev
  else prev

/-- The pieces of the trips before `k`, last first. -/
def pcs_k0_t1 (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) : ℕ → List (View.Piece (Elt F) S64x64x256 .f32)
  | 0 => []
  | k + 1 => pcs_k0_t1Step 𝒱 c bd i arg1 harg1 arg2 harg2 arg3 harg3 arg4 harg4 arg5 harg5 v0 X1 X2 X3 X4 hw1 hw2 hw3 hw4 k (pcs_k0_t1 𝒱 c bd i arg1 harg1 arg2 harg2 arg3 harg3 arg4 harg4 arg5 harg5 v0 X1 X2 X3 X4 hw1 hw2 hw3 hw4 k)

theorem pcs_k0_t1_succ (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : Fin k0_t1_loop.trips) :
    pcs_k0_t1 (F := F) 𝒱 c bd i arg1 harg1 arg2 harg2 arg3 harg3 arg4 harg4 arg5 harg5 v0 X1 X2 X3 X4 hw1 hw2 hw3 hw4 (k.val + 1)
      = (tripL_k0_t1 (F := F) 𝒱 c bd i arg1 harg1 arg2 harg2 arg3 harg3 arg4 harg4 arg5 harg5 v0 X1 X2 X3 X4 hw1 hw2 hw3 hw4 k) ++ (pcs_k0_t1 (F := F) 𝒱 c bd i arg1 harg1 arg2 harg2 arg3 harg3 arg4 harg4 arg5 harg5 v0 X1 X2 X3 X4 hw1 hw2 hw3 hw4 k.val) := by
  rw [pcs_k0_t1.eq_2]; unfold pcs_k0_t1Step; exact dif_pos k.isLt

/-- THE INVARIANT before trip `k`. -/
abbrev inv_k0_t1 (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty) (G5 : BufTy.Contents (Elt F) arg5.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : ℕ) (acc : Unit) : sProp 𝕄G :=
  iprop((arg1.view.loc (c : Thread nD τ) ↦{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg5.view.loc (c : Thread nD τ) ↦[arg5.view.set]{fullShare} f) ∗ ⌜f = arg5.view.writes (Elt F) G5 (pcs_k0_t1 (F := F) 𝒱 c bd i arg1 harg1 arg2 harg2 arg3 harg3 arg4 harg4 arg5 harg5 v0 X1 X2 X3 X4 hw1 hw2 hw3 hw4 k)⌝))

set_option warn.classDefReducibility false in
/-- THE LOOP BY ITS INVARIANT: a trip takes the invariant before it to the invariant after it, the trip's pieces
    written over the earlier ones. -/
@[sl_loop] def loopInv_k0_t1 (𝒱 : Variants) (c : Dev nD) (bd : Option 𝒱.V) (E : Set ℕ) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty) (G5 : BufTy.Contents (Elt F) arg5.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) :
    LoopInvTy_k0_t1 (F := F) Unit ℕ (UR sig nD τ) ℕ 𝒱 c bd E i arg1 harg1 arg2 harg2 arg3 harg3 arg4 harg4 arg5 harg5 v0 where
  inv := inv_k0_t1 (F := F) 𝒱 c bd i arg1 harg1 arg2 harg2 arg3 harg3 arg4 harg4 arg5 harg5 v0 X1 X2 X3 X4 G5 hw1 hw2 hw3 hw4
  step k acc := by
    iintro ⟨HT, H2, H3, H4, ⟨%f5, H5, %h5⟩⟩
    iapply (wp_wand_r Idealize.ShloMosaic.frame (wpE (defs₀ (F := F)) 𝒱 (c : Thread nD τ) bd) E)
    isplitl [HT H2 H3 H4 H5]
    · iapply ((trip_k0_t1 (F := F) 𝒱 c bd i arg1 harg1 arg2 harg2 arg3 harg3 arg4 harg4 arg5 harg5 v0 X1 X2 X3 X4 hw1 hw2 hw3 hw4 k).2 E f5)
      isplitl [HT]; · iexact HT
      isplitl [H2]; · iexact H2
      isplitl [H3]; · iexact H3
      isplitl [H4]; · iexact H4
      iexact H5
    · iintro %yld ⟨HT, H2, H3, H4, H5⟩
      isplitl [HT]; · iexact HT
      isplitl [H2]; · iexact H2
      isplitl [H3]; · iexact H3
      isplitl [H4]; · iexact H4
      rw [pcs_k0_t1_succ]
      iexists _; isplitl [H5]; · iexact H5
      ipureintro; rw [h5, ← View.writes_append]

end Cert.Kernel.Hand

end
-- ==== Proof.KBRun.lean ====
/-
  The kernel body on any staging memrefs, run once: the grid coordinate's base index, then the loop of sixteen
  trips by its invariant. The input buffers are held at their contents and come back as they were; the table is
  held at half its share; the result's buffer, whatever it held, ends with the loop's pieces written. Those
  pieces are the witness the run finds.
-/
import proofs.«421429_j32667521254078_3_alg».proof.Proof.KBKit
import proofs.«421429_j32667521254078_3_alg».proof.Proof.KBLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result's staging memref, as pieces (last first), with the proof that the
    body runs to the continuation holding the inputs as they were and the result's buffer with those pieces written. -/
noncomputable def kernelRun0 (c : Dev nD) (i : grid0.Coords) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole)
    (x0 : Vec F S64x64x256 .f32) (x1 : Vec F S64x256x256 .bf16) (x2 : Vec F S64x1x256 .f32) (xt0 : TbBuf0 (F := F) c tbM0_0)
    (hw1 : ∀ r x, k0_chk1 (tbM0_0.view.readAt (Elt F) r xt0 x)) (hw2 : ∀ r x, k0_chk2 (tbM0_0.view.readAt (Elt F) r xt0 x)) (hw3 : ∀ r x, k0_chk3 (tbM0_0.view.readAt (Elt F) r xt0 x)) (hw4 : ∀ r x, k0_chk4 (tbM0_0.view.readAt (Elt F) r xt0 x)) :
    { L3 : List (View.Piece (Elt F) S64x64x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ tbPt0 c tbM0_0 xt0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ tbPt0 c tbM0_0 xt0) -∗ K ⟨⟩))
          ⊢ wp frame (wpE (defs₀ (F := F)) Variants.none c none) E (cc0__kernel i tbM0_0 htbM0_0 arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, HT0, Hk⟩
    obtain rfl := harg2.eq_unread hf0
    obtain rfl := harg3.eq_unread hf1
    obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexact HT0

end Cert.Kernel.Hand

end
-- ==== Proof.Spec.lean ====
/-
  The function both programs compute, stated once over literal shapes, with no program imported.

  Sample `s` of the batch carries an integer word `idx s`; read as a signed integer and clamped into
  the table, `expert (idx s)` names one of the 64 experts. The result at `(s, t, o)` is the inner
  product of row `t` of sample `s` with row `o` of that expert's matrix, plus entry `o` of that
  expert's bias:

      G x idx W b (s, t, o) = (∑ k, x (s, t, k) * W (e, o, k)) + b (e, o),   e = expert (idx s).

  The sum is over the extended reals, in the index order `k = 0 … 255`; nothing here needs finiteness.
-/
import Idealize.ShloMosaic.PureOps.Ideal
import Idealize.ShloMosaic.Lib.ValueIdx

noncomputable section

namespace Cert.Spec

open Idealize.ShloMosaic Idealize.ShloMosaic.ValueIdx

/-- The batch of samples, `[2048, 64, 256]`: sample, row, feature. -/
abbrev SX : Shape := ⟨3, ![2048, 64, 256]⟩
/-- The experts' matrices, `[64, 256, 256]`: expert, output feature, input feature. -/
abbrev SW : Shape := ⟨3, ![64, 256, 256]⟩
/-- The experts' biases, `[64, 256]`: expert, output feature. -/
abbrev SB : Shape := ⟨2, ![64, 256]⟩
/-- One index word per sample, `[2048]`. -/
abbrev SI : Shape := ⟨1, ![2048]⟩

/-- The expert a signed 32-bit word selects: the word read as an integer, negatives taken to `0`,
    anything past the last expert taken to `63`. -/
def expert (w : BitVec 32) : Fin 64 := ⟨min w.toInt.toNat 63, by omega⟩

theorem expert_val (w : BitVec 32) : (expert w).val = min w.toInt.toNat 63 := rfl

/-- A word already inside the table selects itself. -/
theorem expert_of_lt {w : BitVec 32} (h0 : 0 ≤ w.toInt) (h1 : w.toInt < 64) : (expert w).val = w.toNat := by
  rw [expert_val]
  have hc := BitVec.toInt_eq_toNat_cond w
  have hlt := w.isLt
  split at hc <;> omega

/-- The common value of the two programs. -/
def G (x : SX.Idx → EReal) (idx : SI.Idx → BitVec 32) (W : SW.Idx → EReal) (b : SB.Idx → EReal) : SX.Idx → EReal :=
  fun j => (∑ k : Fin 256, x (ix3 (j 0) (j 1) k) * W (ix3 (expert (idx (ix1 (j 0)))) (j 2) k))
    + b (ix2 (expert (idx (ix1 (j 0)))) (j 2))

theorem G_apply (x : SX.Idx → EReal) (idx : SI.Idx → BitVec 32) (W : SW.Idx → EReal) (b : SB.Idx → EReal)
    (s : Fin 2048) (t : Fin 64) (o : Fin 256) :
    G x idx W b (ix3 s t o) = (∑ k : Fin 256, x (ix3 s t k) * W (ix3 (expert (idx (ix1 s))) o k))
      + b (ix2 (expert (idx (ix1 s))) o) := rfl

end Cert.Spec

end
-- ==== Proof.KBWords.lean ====
/-
  The index words of the kernel, in closed form.

  Before the launch each index word `w` is clamped: first the larger of `0` and `w` (signed), then the
  smaller of `63` and that. `clipw w` is this clamp of one word. Read as a natural number it is
  `min w.toInt.toNat 63`, the expert the word selects, for every word, negative ones included. So at a
  clamped word every leading offset into the experts' matrices and biases is in range and equals the
  expert's number; and the rows the trips touch are `4 k + u` of the point's block.
-/
import proofs.«421429_j32667521254078_3_alg».proof.Proof.Gen.Kernel.Launch
import proofs.«421429_j32667521254078_3_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KBWords

open Cert.Kernel Cert.Kernel.Gen Idealize.ShloMosaic Idealize.ShloMosaic.ValueIdx Idealize.ShloMosaic.TcCoe
open Idealize.SL.Sem

variable {F : FTy → Type} [FloatOps F]

/-! ## One word clamped -/

/-- The clamp of one word: the signed maximum of `0` and `w`, then the signed minimum of `63` and that. -/
def clipw (w : BitVec 32) : BitVec 32 := IntOp.minsi 63#32 (IntOp.maxsi 0#32 w)

theorem toInt_zero32 : (0#32 : BitVec 32).toInt = 0 := by decide
theorem toInt_63 : (63#32 : BitVec 32).toInt = 63 := by decide

/-- The clamped word, as a natural number, is the expert the word selects. -/
theorem clipw_toNat (w : BitVec 32) : (clipw w).toNat = (Cert.Spec.expert w).val := by
  rw [Cert.Spec.expert_val]
  have hc := BitVec.toInt_eq_toNat_cond w
  have hlt := w.isLt
  unfold clipw IntOp.minsi IntOp.maxsi
  by_cases h0 : w.toInt < 0
  · -- a negative word: the maximum is 0, and 63 is not below 0
    have e1 : w.slt 0#32 = true := by simp only [BitVec.slt, toInt_zero32, decide_eq_true_eq]; exact h0
    rw [if_pos e1]
    have e2 : ¬ ((63#32 : BitVec 32).slt 0#32 = true) := by decide
    rw [if_neg e2]
    show (0 : Nat) = _
    omega
  · have e1 : ¬ (w.slt 0#32 = true) := by simp only [BitVec.slt, toInt_zero32, decide_eq_true_eq]; exact h0
    rw [if_neg e1]
    by_cases h1 : 63 < w.toInt
    · have e2 : (63#32 : BitVec 32).slt w = true := by simp only [BitVec.slt, toInt_63, decide_eq_true_eq]; exact h1
      rw [if_pos e2]
      show (63 : Nat) = _
      omega
    · have e2 : ¬ ((63#32 : BitVec 32).slt w = true) := by simp only [BitVec.slt, toInt_63, decide_eq_true_eq]; exact h1
      rw [if_neg e2]
      split at hc <;> omega

theorem clipw_lt (w : BitVec 32) : (clipw w).toNat < 64 := by
  rw [clipw_toNat]; exact (Cert.Spec.expert w).isLt

/-! ## The side conditions and the leading offsets at a clamped word -/

/-- The offsets into the experts' matrices and biases are the word itself, then `0, 0`. -/
theorem off3_word (v : BitVec 32) : k0_off3 v = ![v.toNat, 0, 0] := rfl
theorem off4_word (v : BitVec 32) : k0_off4 v = ![v.toNat, 0, 0] := rfl

theorem off3_clipw (w : BitVec 32) (a : Fin 3) : k0_off3 (clipw w) a = (![(Cert.Spec.expert w).val, 0, 0] : Fin 3 → Nat) a := by
  rw [off3_word, clipw_toNat]
theorem off4_clipw (w : BitVec 32) (a : Fin 3) : k0_off4 (clipw w) a = (![(Cert.Spec.expert w).val, 0, 0] : Fin 3 → Nat) a := by
  rw [off4_word, clipw_toNat]

/-- A clamped word is below 64, so one matrix and one bias row at it lie inside the 64 experts'. -/
theorem chk1_clipw (w : BitVec 32) : k0_chk1 (clipw w) := by
  have h := clipw_lt w
  refine ⟨fun (a : Fin 3) => ?_, fun (a : Fin 3) => ?_⟩
  · rw [off3_word]
    fin_cases a
    · show (clipw w).toNat + 1 ≤ 64
      omega
    · show 0 + 256 ≤ 256
      omega
    · show 0 + 256 ≤ 256
      omega
  · rw [off4_word]
    fin_cases a
    · show (clipw w).toNat + 1 ≤ 64
      omega
    · show 0 + 1 ≤ 1
      omega
    · show 0 + 256 ≤ 256
      omega

/-- The offsets into the experts' matrices and biases are the word itself, then `0, 0`. -/
theorem off7_word (v : BitVec 32) : k0_off7 v = ![v.toNat, 0, 0] := rfl
theorem off8_word (v : BitVec 32) : k0_off8 v = ![v.toNat, 0, 0] := rfl

theorem off7_clipw (w : BitVec 32) (a : Fin 3) : k0_off7 (clipw w) a = (![(Cert.Spec.expert w).val, 0, 0] : Fin 3 → Nat) a := by
  rw [off7_word, clipw_toNat]
theorem off8_clipw (w : BitVec 32) (a : Fin 3) : k0_off8 (clipw w) a = (![(Cert.Spec.expert w).val, 0, 0] : Fin 3 → Nat) a := by
  rw [off8_word, clipw_toNat]

/-- A clamped word is below 64, so one matrix and one bias row at it lie inside the 64 experts'. -/
theorem chk2_clipw (w : BitVec 32) : k0_chk2 (clipw w) := by
  have h := clipw_lt w
  refine ⟨fun (a : Fin 3) => ?_, fun (a : Fin 3) => ?_⟩
  · rw [off7_word]
    fin_cases a
    · show (clipw w).toNat + 1 ≤ 64
      omega
    · show 0 + 256 ≤ 256
      omega
    · show 0 + 256 ≤ 256
      omega
  · rw [off8_word]
    fin_cases a
    · show (clipw w).toNat + 1 ≤ 64
      omega
    · show 0 + 1 ≤ 1
      omega
    · show 0 + 256 ≤ 256
      omega

/-- The offsets into the experts' matrices and biases are the word itself, then `0, 0`. -/
theorem off11_word (v : BitVec 32) : k0_off11 v = ![v.toNat, 0, 0] := rfl
theorem off12_word (v : BitVec 32) : k0_off12 v = ![v.toNat, 0, 0] := rfl

theorem off11_clipw (w : BitVec 32) (a : Fin 3) : k0_off11 (clipw w) a = (![(Cert.Spec.expert w).val, 0, 0] : Fin 3 → Nat) a := by
  rw [off11_word, clipw_toNat]
theorem off12_clipw (w : BitVec 32) (a : Fin 3) : k0_off12 (clipw w) a = (![(Cert.Spec.expert w).val, 0, 0] : Fin 3 → Nat) a := by
  rw [off12_word, clipw_toNat]

/-- A clamped word is below 64, so one matrix and one bias row at it lie inside the 64 experts'. -/
theorem chk3_clipw (w : BitVec 32) : k0_chk3 (clipw w) := by
  have h := clipw_lt w
  refine ⟨fun (a : Fin 3) => ?_, fun (a : Fin 3) => ?_⟩
  · rw [off11_word]
    fin_cases a
    · show (clipw w).toNat + 1 ≤ 64
      omega
    · show 0 + 256 ≤ 256
      omega
    · show 0 + 256 ≤ 256
      omega
  · rw [off12_word]
    fin_cases a
    · show (clipw w).toNat + 1 ≤ 64
      omega
    · show 0 + 1 ≤ 1
      omega
    · show 0 + 256 ≤ 256
      omega

/-- The offsets into the experts' matrices and biases are the word itself, then `0, 0`. -/
theorem off15_word (v : BitVec 32) : k0_off15 v = ![v.toNat, 0, 0] := rfl
theorem off16_word (v : BitVec 32) : k0_off16 v = ![v.toNat, 0, 0] := rfl

theorem off15_clipw (w : BitVec 32) (a : Fin 3) : k0_off15 (clipw w) a = (![(Cert.Spec.expert w).val, 0, 0] : Fin 3 → Nat) a := by
  rw [off15_word, clipw_toNat]
theorem off16_clipw (w : BitVec 32) (a : Fin 3) : k0_off16 (clipw w) a = (![(Cert.Spec.expert w).val, 0, 0] : Fin 3 → Nat) a := by
  rw [off16_word, clipw_toNat]

/-- A clamped word is below 64, so one matrix and one bias row at it lie inside the 64 experts'. -/
theorem chk4_clipw (w : BitVec 32) : k0_chk4 (clipw w) := by
  have h := clipw_lt w
  refine ⟨fun (a : Fin 3) => ?_, fun (a : Fin 3) => ?_⟩
  · rw [off15_word]
    fin_cases a
    · show (clipw w).toNat + 1 ≤ 64
      omega
    · show 0 + 256 ≤ 256
      omega
    · show 0 + 256 ≤ 256
      omega
  · rw [off16_word]
    fin_cases a
    · show (clipw w).toNat + 1 ≤ 64
      omega
    · show 0 + 1 ≤ 1
      omega
    · show 0 + 256 ≤ 256
      omega

/-! ## The trips' offsets -/

/-- Trip `k` of point `i` reads word `64 i + 4 k + u` of the table, `u = 0, 1, 2, 3`. -/
theorem off1_eq (i : grid0.Coords) (k : Fin k0_t1_loop.trips) (a : Fin 1) : k0_off1 i k a = 64 * (i 0).val + 4 * k.val := by
  rw [k0_off1_eq]; fin_cases a; rfl
theorem off6_eq (i : grid0.Coords) (k : Fin k0_t1_loop.trips) (a : Fin 1) : k0_off6 i k a = 64 * (i 0).val + 4 * k.val + 1 := by
  rw [k0_off6_eq]; fin_cases a; rfl
theorem off10_eq (i : grid0.Coords) (k : Fin k0_t1_loop.trips) (a : Fin 1) : k0_off10 i k a = 64 * (i 0).val + 4 * k.val + 2 := by
  rw [k0_off10_eq]; fin_cases a; rfl
theorem off14_eq (i : grid0.Coords) (k : Fin k0_t1_loop.trips) (a : Fin 1) : k0_off14 i k a = 64 * (i 0).val + 4 * k.val + 3 := by
  rw [k0_off14_eq]; fin_cases a; rfl

/-- Trip `k` touches rows `4 k + u` of the point's block of samples and of the output. -/
theorem off2_eq (k : Fin k0_t1_loop.trips) : k0_off2 k = ![4 * k.val, 0, 0] := k0_off2_eq k
theorem off5_eq0 (k : Fin k0_t1_loop.trips) : k0_off5 k 0#32 = ![4 * k.val, 0, 0] := k0_off5_eq k ⟨0, by decide⟩
theorem off5_eq1 (k : Fin k0_t1_loop.trips) : k0_off5 k 1#32 = ![4 * k.val + 1, 0, 0] := k0_off5_eq k ⟨1, by decide⟩
theorem off9_eq1 (k : Fin k0_t1_loop.trips) : k0_off9 k 1#32 = ![4 * k.val + 1, 0, 0] := k0_off9_eq k ⟨0, by decide⟩
theorem off9_eq2 (k : Fin k0_t1_loop.trips) : k0_off9 k 2#32 = ![4 * k.val + 2, 0, 0] := k0_off9_eq k ⟨1, by decide⟩
theorem off13_eq2 (k : Fin k0_t1_loop.trips) : k0_off13 k 2#32 = ![4 * k.val + 2, 0, 0] := k0_off13_eq k ⟨0, by decide⟩
theorem off13_eq3 (k : Fin k0_t1_loop.trips) : k0_off13 k 3#32 = ![4 * k.val + 3, 0, 0] := k0_off13_eq k ⟨1, by decide⟩
theorem off17_eq (k : Fin k0_t1_loop.trips) : k0_off17 k = ![4 * k.val + 3, 0, 0] := k0_off17_eq k

/-! ## The buffers the region finds -/

/-- A scalar constant broadcast to the 2048 words, read at any of them, is the constant. -/
theorem bcast_const_apply (b : BitVec 32) (i : S2048.Idx) :
    broadcastInDim S2048 ![] bcast_S_S2048 (constantI S_ 32 b) i = b :=
  broadcastInDim_apply _ bcast_S_S2048 (constantI S_ 32 b) i (fun a => a.elim0) (fun a => a.elim0)

/-- The prefetched table after the host operations: every word of the index argument, clamped. -/
theorem after_v0 (m : (ℓ : Loc nD τ sig) → Buf (Elt F) ℓ) (c : Dev nD) (s : Fin 2048) :
    (StableHlo.after (List.flatten [hostOps0, hostOps0_1, hostOps0_2]) (fun b => m (c, b)) (Proc.devRef .tc main_v0) : S2048.Idx → BitVec 32) (ix1 s)
      = clipw ((m ((c : Thread nD τ).loc main_arg1) : S2048.Idx → BitVec 32) (ix1 s)) := by
  have e : (StableHlo.after (List.flatten [hostOps0, hostOps0_1, hostOps0_2]) (fun b => m (c, b)) (Proc.devRef .tc main_v0) : S2048.Idx → BitVec 32)
      = minsi (broadcastInDim S2048 ![] bcast_S_S2048 (constantI S_ 32 63#32))
          (maxsi (broadcastInDim S2048 ![] bcast_S_S2048 (constantI S_ 32 0#32)) (m ((c : Thread nD τ).loc main_arg1) : S2048.Idx → BitVec 32)) := by
    simp only [hostOps0, hostOps0_1, hostOps0_2, List.flatten_cons, List.flatten_nil, List.append_nil, List.cons_append, List.nil_append]
    after_results
    rfl
  rw [e]
  show IntOp.minsi (broadcastInDim S2048 ![] bcast_S_S2048 (constantI S_ 32 63#32) (ix1 s))
      (IntOp.maxsi (broadcastInDim S2048 ![] bcast_S_S2048 (constantI S_ 32 0#32) (ix1 s)) _) = _
  rw [bcast_const_apply, bcast_const_apply]
  rfl

/-- The experts' matrices after the host operations: the matrices argument rounded to bf16. -/
theorem after_v1 (m : (ℓ : Loc nD τ sig) → Buf (Elt F) ℓ) (c : Dev nD) :
    (StableHlo.after (List.flatten [hostOps0, hostOps0_1, hostOps0_2]) (fun b => m (c, b)) (Proc.devRef .tc main_v1) : S64x256x256.Idx → Elt F .bf16)
      = truncf .bf16 (m ((c : Thread nD τ).loc main_arg2) : S64x256x256.Idx → Elt F .f32) bitsLt_bf16_f32 := by
  simp only [hostOps0, hostOps0_1, hostOps0_2, List.flatten_cons, List.flatten_nil, List.append_nil, List.cons_append, List.nil_append]
  after_results

/-- The experts' biases after the host operations, as a whole: the bias argument recast to `[64, 1, 256]`. -/
theorem after_v2_cast (m : (ℓ : Loc nD τ sig) → Buf (Elt F) ℓ) (c : Dev nD) :
    (StableHlo.after (List.flatten [hostOps0, hostOps0_1, hostOps0_2]) (fun b => m (c, b)) (Proc.devRef .tc main_v2) : S64x1x256.Idx → Elt F .f32)
      = shapeCast S64x1x256 (m ((c : Thread nD τ).loc main_arg3) : S64x256.Idx → Elt F .f32) shapeCasts_S64x256_S64x1x256 := by
  simp only [hostOps0, hostOps0_1, hostOps0_2, List.flatten_cons, List.flatten_nil, List.append_nil, List.cons_append, List.nil_append]
  after_results
  rfl

/-- Entry `(e, 0, o)` of the recast biases is entry `(e, o)` of the bias argument: both sit at row-major
    position `256 e + o`. -/
theorem after_v2 (m : (ℓ : Loc nD τ sig) → Buf (Elt F) ℓ) (c : Dev nD) (e : Fin 64) (o : Fin 256) :
    (StableHlo.after (List.flatten [hostOps0, hostOps0_1, hostOps0_2]) (fun b => m (c, b)) (Proc.devRef .tc main_v2) : S64x1x256.Idx → Elt F .f32) (ix3 e (0 : Fin 1) o)
      = (m ((c : Thread nD τ).loc main_arg3) : S64x256.Idx → Elt F .f32) (ix2 e o) := by
  rw [after_v2_cast]
  refine shapeCast_apply _ _ (ix3 e (0 : Fin 1) o) (ix2 e o) ?_
  rw [Shape.rowMajor_val_two, Shape.rowMajor_val_three]
  show e.val * 256 + o.val = (e.val * 1 + 0) * 256 + o.val
  omega

/-- No host operation writes argument 0: the region finds it as launched. -/
theorem after_arg0 (m : (ℓ : Loc nD τ sig) → Buf (Elt F) ℓ) (c : Dev nD) :
    StableHlo.after (List.flatten [hostOps0, hostOps0_1, hostOps0_2]) (fun b => m (c, b)) (Proc.devRef .tc main_arg0) = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation writes argument 1: the region finds it as launched. -/
theorem after_arg1 (m : (ℓ : Loc nD τ sig) → Buf (Elt F) ℓ) (c : Dev nD) :
    StableHlo.after (List.flatten [hostOps0, hostOps0_1, hostOps0_2]) (fun b => m (c, b)) (Proc.devRef .tc main_arg1) = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation writes argument 2: the region finds it as launched. -/
theorem after_arg2 (m : (ℓ : Loc nD τ sig) → Buf (Elt F) ℓ) (c : Dev nD) :
    StableHlo.after (List.flatten [hostOps0, hostOps0_1, hostOps0_2]) (fun b => m (c, b)) (Proc.devRef .tc main_arg2) = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation writes argument 3: the region finds it as launched. -/
theorem after_arg3 (m : (ℓ : Loc nD τ sig) → Buf (Elt F) ℓ) (c : Dev nD) :
    StableHlo.after (List.flatten [hostOps0, hostOps0_1, hostOps0_2]) (fun b => m (c, b)) (Proc.devRef .tc main_arg3) = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

end Cert.KBWords

end
-- ==== Proof.KBPieces.lean ====
/-
  The pieces the loop writes, made explicit, and that they cover the result's block.

  Trip `k` writes four pieces, one per sample `u = 0, 1, 2, 3`: rows `4k + u` of the block receive the payload
  of rows `4k + u` of the samples' block and of the matrix and the bias row that the table's word
  `64 i + 4k + u` addresses. The four spellings of the payload are one function. After sixteen trips the
  pieces' rows are `0 … 63`: every element of the block lies in one of them.
-/
import proofs.«421429_j32667521254078_3_alg».proof.Proof.KBRun
import proofs.«421429_j32667521254078_3_alg».proof.Proof.KBWords

set_option maxRecDepth 16384
set_option maxHeartbeats 4000000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The table's word at offset `off`, as a load of one word reads it. -/
def wordAt (c : Dev nD) (arg1 : Memref sig .tc .smem S2048 .i32) (X1 : Buf (Elt F) (arg1.view.loc (c : Thread nD τ)))
    (off : Fin 1 → ℕ) (inb : ∀ a, off a + S1.size a ≤ S2048.size a) : BitVec 32 :=
  arg1.view.readAt (Elt F) (Rect.unit (s := S2048) off S1.size inb).toLoadRect X1 (Shape.Idx.first (numel1_S1.symm ▸ Nat.one_pos))

/-- One sample's piece: rows `offo` of the result's block receive the payload of the samples' rows `offx`, the
    matrix at `offw` and the bias row at `offb`. -/
def samplePiece (arg2 : Memref sig .tc .vmem S64x64x256 .f32) (arg3 : Memref sig .tc .vmem S64x256x256 .bf16) (arg4 : Memref sig .tc .vmem S64x1x256 .f32)
    (X2 : BufTy.Contents (Elt F) arg2.view.ty) (X3 : BufTy.Contents (Elt F) arg3.view.ty) (X4 : BufTy.Contents (Elt F) arg4.view.ty)
    (offo : Fin 3 → ℕ) (inbo : ∀ a, offo a + S1x64x256.size a ≤ S64x64x256.size a)
    (offx : Fin 3 → ℕ) (inbx : ∀ a, offx a + S1x64x256.size a ≤ S64x64x256.size a)
    (offw : Fin 3 → ℕ) (inbw : ∀ a, offw a + S1x256x256.size a ≤ S64x256x256.size a)
    (offb : Fin 3 → ℕ) (inbb : ∀ a, offb a + S1x1x256.size a ≤ S64x1x256.size a) : View.Piece (Elt F) S64x64x256 .f32 :=
  ⟨Rect.unit (s := S64x64x256) offo S1x64x256.size inbo,
    k0_pay2 (arg2.view.readAt (Elt F) (Rect.unit (s := S64x64x256) offx S1x64x256.size inbx).toLoadRect X2)
      (arg3.view.readAt (Elt F) (Rect.unit (s := S64x256x256) offw S1x256x256.size inbw).toLoadRect X3)
      (arg4.view.readAt (Elt F) (Rect.unit (s := S64x1x256) offb S1x1x256.size inbb).toLoadRect X4)⟩

/-- Trip `k`'s pieces, the last sample's first. -/
theorem tripL_k0_t1_eq (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : Fin k0_t1_loop.trips) :
    tripL_k0_t1 (F := F) 𝒱 c bd i arg1 harg1 arg2 harg2 arg3 harg3 arg4 harg4 arg5 harg5 v0 X1 X2 X3 X4 hw1 hw2 hw3 hw4 k =
      [ samplePiece arg2 arg3 arg4 X2 X3 X4 (k0_off17 k) (Gen.k0_off17_inb k) (k0_off13 k 3#32) (Gen.k0_off13_inb k 1)
          (k0_off15 (wordAt (F := F) c arg1 X1 (k0_off14 i k) (Gen.k0_off14_inb i k))) (k0_off15_inb _ (hw4 _ _)) (k0_off16 (wordAt (F := F) c arg1 X1 (k0_off14 i k) (Gen.k0_off14_inb i k))) (k0_off16_inb _ (hw4 _ _)),
        samplePiece arg2 arg3 arg4 X2 X3 X4 (k0_off13 k 2#32) (Gen.k0_off13_inb k 0) (k0_off9 k 2#32) (Gen.k0_off9_inb k 1)
          (k0_off11 (wordAt (F := F) c arg1 X1 (k0_off10 i k) (Gen.k0_off10_inb i k))) (k0_off11_inb _ (hw3 _ _)) (k0_off12 (wordAt (F := F) c arg1 X1 (k0_off10 i k) (Gen.k0_off10_inb i k))) (k0_off12_inb _ (hw3 _ _)),
        samplePiece arg2 arg3 arg4 X2 X3 X4 (k0_off9 k 1#32) (Gen.k0_off9_inb k 0) (k0_off5 k 1#32) (Gen.k0_off5_inb k 1)
          (k0_off7 (wordAt (F := F) c arg1 X1 (k0_off6 i k) (Gen.k0_off6_inb i k))) (k0_off7_inb _ (hw2 _ _)) (k0_off8 (wordAt (F := F) c arg1 X1 (k0_off6 i k) (Gen.k0_off6_inb i k))) (k0_off8_inb _ (hw2 _ _)),
        samplePiece arg2 arg3 arg4 X2 X3 X4 (k0_off5 k 0#32) (Gen.k0_off5_inb k 0) (k0_off2 k) (Gen.k0_off2_inb k)
          (k0_off3 (wordAt (F := F) c arg1 X1 (k0_off1 i k) (Gen.k0_off1_inb i k))) (k0_off3_inb _ (hw1 _ _)) (k0_off4 (wordAt (F := F) c arg1 X1 (k0_off1 i k) (Gen.k0_off1_inb i k))) (k0_off4_inb _ (hw1 _ _)) ] := by
  unfold tripL_k0_t1 trip_k0_t1
  rfl

/-- The loop has sixteen trips. -/
theorem trips_eq : k0_t1_loop.trips = 16 := by decide

/-- A row of the block between `4k` and `4k + 3` lies in one of trip `k`'s pieces. -/
theorem trip_cover (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : Fin k0_t1_loop.trips) (s : Fin 64) (r : Fin 64) (o : Fin 256)
    (h1 : 4 * k.val ≤ s.val) (h2 : s.val < 4 * k.val + 4) :
    ∃ p ∈ tripL_k0_t1 (F := F) 𝒱 c bd i arg1 harg1 arg2 harg2 arg3 harg3 arg4 harg4 arg5 harg5 v0 X1 X2 X3 X4 hw1 hw2 hw3 hw4 k, (ix3 s r o : S64x64x256.Idx) ∈ p.1.set := by
  rw [tripL_k0_t1_eq]
  have hs : s.val = 4 * k.val + 3 ∨ s.val = 4 * k.val + 2 ∨ s.val = 4 * k.val + 1 ∨ s.val = 4 * k.val := by omega
  rcases hs with hs | hs | hs | hs
  · refine ⟨_, List.mem_cons_self, ?_⟩
    unfold samplePiece; dsimp only
    rw [Rect.mem_set_unit, Cert.KBWords.off17_eq]
    intro a; match a with
    | ⟨0, _⟩ => exact ⟨by show 4 * k.val + 3 ≤ s.val; omega, by show s.val < 4 * k.val + 3 + 1; omega⟩
    | ⟨1, _⟩ => exact ⟨Nat.zero_le _, by show r.val < 0 + 64; omega⟩
    | ⟨2, _⟩ => exact ⟨Nat.zero_le _, by show o.val < 0 + 256; omega⟩
  · refine ⟨_, List.mem_cons_of_mem _ List.mem_cons_self, ?_⟩
    unfold samplePiece; dsimp only
    rw [Rect.mem_set_unit, Cert.KBWords.off13_eq2]
    intro a; match a with
    | ⟨0, _⟩ => exact ⟨by show 4 * k.val + 2 ≤ s.val; omega, by show s.val < 4 * k.val + 2 + 1; omega⟩
    | ⟨1, _⟩ => exact ⟨Nat.zero_le _, by show r.val < 0 + 64; omega⟩
    | ⟨2, _⟩ => exact ⟨Nat.zero_le _, by show o.val < 0 + 256; omega⟩
  · refine ⟨_, List.mem_cons_of_mem _ (List.mem_cons_of_mem _ List.mem_cons_self), ?_⟩
    unfold samplePiece; dsimp only
    rw [Rect.mem_set_unit, Cert.KBWords.off9_eq1]
    intro a; match a with
    | ⟨0, _⟩ => exact ⟨by show 4 * k.val + 1 ≤ s.val; omega, by show s.val < 4 * k.val + 1 + 1; omega⟩
    | ⟨1, _⟩ => exact ⟨Nat.zero_le _, by show r.val < 0 + 64; omega⟩
    | ⟨2, _⟩ => exact ⟨Nat.zero_le _, by show o.val < 0 + 256; omega⟩
  · refine ⟨_, List.mem_cons_of_mem _ (List.mem_cons_of_mem _ (List.mem_cons_of_mem _ List.mem_cons_self)), ?_⟩
    unfold samplePiece; dsimp only
    rw [Rect.mem_set_unit, Cert.KBWords.off5_eq0]
    intro a; match a with
    | ⟨0, _⟩ => exact ⟨by show 4 * k.val ≤ s.val; omega, by show s.val < 4 * k.val + 1; omega⟩
    | ⟨1, _⟩ => exact ⟨Nat.zero_le _, by show r.val < 0 + 64; omega⟩
    | ⟨2, _⟩ => exact ⟨Nat.zero_le _, by show o.val < 0 + 256; omega⟩

/-- The pieces of the trips before `n` cover the rows below `4n`. -/
theorem pcs_cover (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) :
    ∀ n, n ≤ 16 → ∀ (s : Fin 64) (r : Fin 64) (o : Fin 256), s.val < 4 * n →
      ∃ p ∈ pcs_k0_t1 (F := F) 𝒱 c bd i arg1 harg1 arg2 harg2 arg3 harg3 arg4 harg4 arg5 harg5 v0 X1 X2 X3 X4 hw1 hw2 hw3 hw4 n, (ix3 s r o : S64x64x256.Idx) ∈ p.1.set
  | 0, _, s, _, _, h => absurd h (by omega)
  | n + 1, hn, s, r, o, h => by
    have hk : n < k0_t1_loop.trips := by rw [trips_eq]; omega
    rw [show n + 1 = (⟨n, hk⟩ : Fin k0_t1_loop.trips).val + 1 from rfl, pcs_k0_t1_succ]
    by_cases hy : s.val < 4 * n
    · obtain ⟨p, hp, hm⟩ := pcs_cover 𝒱 c bd i arg1 harg1 arg2 harg2 arg3 harg3 arg4 harg4 arg5 harg5 v0 X1 X2 X3 X4 hw1 hw2 hw3 hw4 n (by omega) s r o hy
      exact ⟨p, List.mem_append_right _ hp, hm⟩
    · obtain ⟨p, hp, hm⟩ := trip_cover 𝒱 c bd i arg1 harg1 arg2 harg2 arg3 harg3 arg4 harg4 arg5 harg5 v0 X1 X2 X3 X4 hw1 hw2 hw3 hw4 ⟨n, hk⟩ s r o (by show 4 * n ≤ s.val; omega) (by show s.val < 4 * n + 4; omega)
      exact ⟨p, List.mem_append_left _ hp, hm⟩

end Cert.Kernel.Hand

end
-- ==== Proof.KBBody.lean ====
/-
  The region's proof data, the body obligation at every point, the launch and the frame.

  After the body at point `t` each input window's buffer holds its block, as before, and the result window's buffer
  holds the loop's pieces read back (they cover the block, so what the buffer held before does not matter). The
  body obligation is the whole-body run at the point's memrefs and blocks; it needs the side conditions the body
  assumes of the table's words (`Hyps`), which hold of every word the clip leaves in the table. The launch then
  gives the run of @main: every window's array at what the proof data compute, every other buffer as the region
  found it; read at the arguments, that is the frame.
-/
import proofs.«421429_j32667521254078_3_alg».proof.Proof.KBPieces

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The side conditions the body assumes, of every word the table may hold when the region is entered. -/
structure Hyps : Prop where
  h1 : ∀ (c : Dev nD) r x, k0_chk1 (tbM0_0.view.readAt (Elt F) r (tbl m 0 : TbBuf0 (F := F) c tbM0_0) x)
  h2 : ∀ (c : Dev nD) r x, k0_chk2 (tbM0_0.view.readAt (Elt F) r (tbl m 0 : TbBuf0 (F := F) c tbM0_0) x)
  h3 : ∀ (c : Dev nD) r x, k0_chk3 (tbM0_0.view.readAt (Elt F) r (tbl m 0 : TbBuf0 (F := F) c tbM0_0) x)
  h4 : ∀ (c : Dev nD) r x, k0_chk4 (tbM0_0.view.readAt (Elt F) r (tbl m 0 : TbBuf0 (F := F) c tbM0_0) x)

/-- The whole-body run's pieces are the loop's after its sixteen trips. -/
theorem kernelRun0_pieces (c : Dev nD) (i : grid0.Coords) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole)
    (x0 : Vec F S64x64x256 .f32) (x1 : Vec F S64x256x256 .bf16) (x2 : Vec F S64x1x256 .f32) (xt0 : TbBuf0 (F := F) c tbM0_0)
    (hw1 : ∀ r x, k0_chk1 (tbM0_0.view.readAt (Elt F) r xt0 x)) (hw2 : ∀ r x, k0_chk2 (tbM0_0.view.readAt (Elt F) r xt0 x)) (hw3 : ∀ r x, k0_chk3 (tbM0_0.view.readAt (Elt F) r xt0 x)) (hw4 : ∀ r x, k0_chk4 (tbM0_0.view.readAt (Elt F) r xt0 x)) :
    (kernelRun0 c i arg2 harg2 arg3 harg3 arg4 harg4 arg5 harg5 x0 x1 x2 xt0 hw1 hw2 hw3 hw4).1
      = pcs_k0_t1 (F := F) Variants.none c none i tbM0_0 htbM0_0 arg2 harg2 arg3 harg3 arg4 harg4 arg5 harg5 (Scalar.muli (BitVec.ofNat 32 (i 0).val) 64#32) xt0 (harg2.unread x0) (harg3.unread x1) (harg4.unread x2) hw1 hw2 hw3 hw4 k0_t1_loop.trips := by
  unfold kernelRun0
  rfl

/-- The run's pieces cover the result's block. -/
theorem cover0_3 (c : Dev nD) (i : grid0.Coords) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole)
    (x0 : Vec F S64x64x256 .f32) (x1 : Vec F S64x256x256 .bf16) (x2 : Vec F S64x1x256 .f32) (xt0 : TbBuf0 (F := F) c tbM0_0)
    (hw1 : ∀ r x, k0_chk1 (tbM0_0.view.readAt (Elt F) r xt0 x)) (hw2 : ∀ r x, k0_chk2 (tbM0_0.view.readAt (Elt F) r xt0 x)) (hw3 : ∀ r x, k0_chk3 (tbM0_0.view.readAt (Elt F) r xt0 x)) (hw4 : ∀ r x, k0_chk4 (tbM0_0.view.readAt (Elt F) r xt0 x)) (y : S64x64x256.Idx) :
    ∃ pc ∈ (kernelRun0 c i arg2 harg2 arg3 harg3 arg4 harg4 arg5 harg5 x0 x1 x2 xt0 hw1 hw2 hw3 hw4).1, y ∈ pc.1.set := by
  rw [kernelRun0_pieces, trips_eq, eq_ix3 y]
  exact pcs_cover _ _ _ _ _ _ _ _ _ _ _ _ _ _ _ _ _ _ _ _ _ _ _ 16 (Nat.le_refl _) (y 0) (y 1) (y 2) (by have h : (y 0).val < 64 := (y 0).isLt; show (y 0).val < 4 * 16; omega)

/-- What the run leaves in the result's staging buffer: its pieces read back over arbitrary contents. -/
def out0_3 (c : Dev nD) (i : grid0.Coords) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole)
    (x0 : Vec F S64x64x256 .f32) (x1 : Vec F S64x256x256 .bf16) (x2 : Vec F S64x1x256 .f32) (xt0 : TbBuf0 (F := F) c tbM0_0)
    (hw1 : ∀ r x, k0_chk1 (tbM0_0.view.readAt (Elt F) r xt0 x)) (hw2 : ∀ r x, k0_chk2 (tbM0_0.view.readAt (Elt F) r xt0 x)) (hw3 : ∀ r x, k0_chk3 (tbM0_0.view.readAt (Elt F) r xt0 x)) (hw4 : ∀ r x, k0_chk4 (tbM0_0.view.readAt (Elt F) r xt0 x)) : Vec F S64x64x256 .f32 :=
  VO0_3.read (Elt F) (VO0_3.writes (Elt F) VO0_3.junk (kernelRun0 c i arg2 harg2 arg3 harg3 arg4 harg4 arg5 harg5 x0 x1 x2 xt0 hw1 hw2 hw3 hw4).1)

/-- What the result's staging buffer holds after the body at point `t`. -/
def outsAt0 (hH : Hyps m) (c : Dev nD) (t : Fin (cfgM m).N) : Vec F S64x64x256 .f32 :=
  out0_3 c (grid0.coords t) (ms0_0 m t) (hs0_0 m t) (ms0_1 m t) (hs0_1 m t) (ms0_2 m t) (hs0_2 m t) (ms0_3 m t) (hs0_3 m t) (iblk m c 0 t) (iblk m c 1 t) (iblk m c 2 t) (tbl m 0) (hH.h1 c) (hH.h2 c) (hH.h3 c) (hH.h4 c)

/-- The proof data of the pipeline on core `c`. -/
def dats (hH : Hyps m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m hH c t)
  Φ _ := iprop(Pipeline.ΦA spec0 c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0_0 (hH : Hyps m) (c : Dev nD) (t : Fin (cfgM m).N) : (dats m hH 0 c).after 0 t = iblk m c 0 t := by dsimp only [dats]; try rfl
theorem after0_1 (hH : Hyps m) (c : Dev nD) (t : Fin (cfgM m).N) : (dats m hH 0 c).after 1 t = iblk m c 1 t := by dsimp only [dats]; try rfl
theorem after0_2 (hH : Hyps m) (c : Dev nD) (t : Fin (cfgM m).N) : (dats m hH 0 c).after 2 t = iblk m c 2 t := by dsimp only [dats]; try rfl
theorem after0_3 (hH : Hyps m) (c : Dev nD) (t : Fin (cfgM m).N) : (dats m hH 0 c).after 3 t = (outsAt0 m hH c t) := by dsimp only [dats]; try rfl

theorem before0_0 (hH : Hyps m) (c : Dev nD) (t : Fin (cfgM m).N) (d) : (dats m hH 0 c).before 0 t d = iblk m c 0 t :=
  before0_0_of m (dats m hH 0 c) (A_eq m hH c 0) (after0_0 m hH c) t d
theorem before0_1 (hH : Hyps m) (c : Dev nD) (t : Fin (cfgM m).N) (d) : (dats m hH 0 c).before 1 t d = iblk m c 1 t :=
  before0_1_of m (dats m hH 0 c) (A_eq m hH c 1) (after0_1 m hH c) t d
theorem before0_2 (hH : Hyps m) (c : Dev nD) (t : Fin (cfgM m).N) (d) : (dats m hH 0 c).before 2 t d = iblk m c 2 t :=
  before0_2_of m (dats m hH 0 c) (A_eq m hH c 2) (after0_2 m hH c) t d

/-- What the body is called with at point `t`, -/
def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d))
    ∗ (∃ d, owns (c : Thread nD τ) (ms0_1 m t) fullShare ((dats m hH 0 c).before 1 t d))
    ∗ (∃ d, owns (c : Thread nD τ) (ms0_2 m t) fullShare ((dats m hH 0 c).before 2 t d))
    ∗ (∃ d, owns (c : Thread nD τ) (ms0_3 m t) fullShare ((dats m hH 0 c).before 3 t d)))

/-- and what it returns. -/
def bodyPost (hH : Hyps m) (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t)
    ∗ owns (c : Thread nD τ) (ms0_1 m t) fullShare ((dats m hH 0 c).after 1 t)
    ∗ owns (c : Thread nD τ) (ms0_2 m t) fullShare ((dats m hH 0 c).after 2 t)
    ∗ owns (c : Thread nD τ) (ms0_3 m t) fullShare ((dats m hH 0 c).after 3 t))

/-- The body at any point: the inputs' memrefs hold their blocks, so the run applies; the invariant passes through;
    the core owes nothing throughout. -/
theorem sound_body (hH : Hyps m) (c : Dev nD) (t : Fin (cfgM m).N) :
    bodyPre m hH c t ⊢ wp frame (wpE (defs₀ (F := F)) Variants.none c none) Set.univ (bodyAt0 (adm m) t) (fun _ => bodyPost m hH c t) := by
  unfold bodyPre bodyPost bodyAt0
  simp only [before0_0, before0_1, before0_2]
  rw [show (dats m hH 0 c).Φ t.succ = (dats m hH 0 c).Φ t.castSucc from rfl,
    show (dats m hH 0 c).owesAt () t.succ = (dats m hH 0 c).owesAt () t.castSucc from rfl,
    after0_0, after0_1, after0_2, after0_3]
  rw [show (dats m hH 0 c).Φ t.castSucc = iprop(Pipeline.ΦA spec0 c ∗ Pipeline.ΦT pre0 (tbl m) c) from rfl, PhiT0_eq]
  unfold outsAt0
  unfold out0_3
  iintro ⟨⟨HΦ, HT0⟩, Ho, ⟨%d0, H0⟩, ⟨%d1, H1⟩, ⟨%d2, H2⟩, ⟨%d3, H3⟩⟩
  iapply ((kernelRun0 c (grid0.coords t) _ _ _ _ _ _ _ _ (iblk m c 0 t) (iblk m c 1 t) (iblk m c 2 t) (tbl m 0) (hH.h1 c) (hH.h2 c) (hH.h3 c) (hH.h4 c)).2 Set.univ _)
  isplitl [H0]; · iexact H0
  isplitl [H1]; · iexact H1
  isplitl [H2]; · iexact H2
  isplitl [H3]; · iexists _; iexact H3
  isplitl [HT0]; · iexact HT0
  iintro ⟨H0, H1, H2, ⟨%e3, H3⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _ _)

/-- The library's body obligation, at every point. -/
theorem body_obligation (hH : Hyps m) (c : Dev nD) : BodyObligation (dats (F := F) m hH 0 c) (defs₀ (F := F)) Variants.none () Set.univ := fun t => by
  rw [bigSep_W0, bigSep_W0]
  exact sound_body m hH c t

set_option backward.isDefEq.respectTransparency.types false in
/-- From any memory with zero counters every weakly fair execution of @main terminates, every window's array at what
    the proof data compute and every other unscoped buffer as the region found it. -/
theorem run_main (hH : Hyps m) : θ_run defs (onTc (τ := τ) (main (F := F))) (s₀ m ρ) (Pipeline.FramePost (Pipeline.pin pcfgs fun _ => adm m) (dats m hH) 0 (V m)) :=
  Pipeline.θ_run_frameP pcfgs (fun _ => adm m) (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hpf := V_pre m)
    (hΦ := fun _ _ => rfl)

/-- THE FRAME: @main runs to the end, faults nowhere, and leaves its arguments unchanged. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m hH) (A_eq m hH) (run_main m ρ hH)

end Cert.Kernel.Hand

end
-- ==== Proof.KBHyps.lean ====
/-
  The side conditions the body assumes hold of every word of the table: the host's clip leaves each word in
  `[0, 63]`, so the matrix and the bias row it addresses lie inside their tables.
-/
import proofs.«421429_j32667521254078_3_alg».proof.Proof.KBBody

set_option maxRecDepth 16384

noncomputable section

namespace Cert.Kernel.Hand

open Cert.Kernel Cert.Kernel.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-- Every word a load may read off the table is the clip of an index word. -/
theorem tbl_word (c : Dev nD) (r : LoadRect S2048) (x : r.shape.Idx) :
    ∃ w : BitVec 32, tbM0_0.view.readAt (Elt F) r (tbl m 0 : TbBuf0 (F := F) c tbM0_0) x = Cert.KBWords.clipw w := by
  obtain rfl : c = 0 := Subsingleton.elim _ _
  refine ⟨(m (((0 : Dev nD) : Thread nD τ).loc main_arg1) : S2048.Idx → BitVec 32) (ix1 (r.idx x 0)), ?_⟩
  show (tbl m 0 : S2048.Idx → BitVec 32) (r.idx x) = _
  rw [eq_ix1 (r.idx x)]
  exact Cert.KBWords.after_v0 m 0 _

theorem hyps : Hyps m where
  h1 c r x := by obtain ⟨w, hw⟩ := tbl_word m c r x; rw [hw]; exact Cert.KBWords.chk1_clipw w
  h2 c r x := by obtain ⟨w, hw⟩ := tbl_word m c r x; rw [hw]; exact Cert.KBWords.chk2_clipw w
  h3 c r x := by obtain ⟨w, hw⟩ := tbl_word m c r x; rw [hw]; exact Cert.KBWords.chk3_clipw w
  h4 c r x := by obtain ⟨w, hw⟩ := tbl_word m c r x; rw [hw]; exact Cert.KBWords.chk4_clipw w

end Cert.Kernel.Hand

end
-- ==== Proof.KIKit.lean ====
/-
  The launch side of the kernel's run, stated once for any float instance.

  @main is three stretches of host operations — two integer constants; the clip of the index words into
  `[0, 63]`, written to the table the kernel reads in scalar memory; the experts' matrices narrowed and
  the biases laid out as `[64, 1, 256]` — and then one pipelined region on a grid of 32 points. `V` is
  what each buffer holds when the region is entered; `tbl` the table's contents there. The pipeline has
  four windows: the samples (64 per point, moving with the point), the matrices and the biases (whole,
  fetched once), and the result (64 samples per point, written back at every point). An input window's
  staging buffer holds its block at every point, fetched there or not; the frame claim's post is read off
  the region's post, the arguments being either a window's array or bypassing the region.
-/
import proofs.«421429_j32667521254078_3_alg».proof.Proof.Gen.KernelIdeal.Launch
import proofs.«421429_j32667521254078_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the three stretches of
    host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main reduces to the region, holding the buffers at `V`: the host stretches run one after the other. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The table of clipped index words -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so every contents of it is admissible. -/
abbrev adm : (pcfg0 (F := F)).Adm := ⟨tbl m, trivial⟩
/-- The pipeline at those contents. -/
abbrev cfgM : Pipeline.Cfg sig Λ₀ := cfg0 (adm m)

/-- The table as the body is handed it: its whole buffer as a memref. -/
abbrev tbM0_0 : Memref sig .tc .smem S2048 .i32 := Memref.whole main_v0
abbrev htbM0_0 : tbM0_0.IsWhole := Memref.isWhole_whole _
/-- The table's buffer on core `c`, and it held at half the full share (read-only: the pipeline keeps the other half). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f
/-- The half of the table the region hands the body. -/
theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Each input window's current staging buffer holds its block at every point, fetched there or not (where it is not
    fetched the block index has not moved), for any proof data whose array is `V`'s and whose body leaves the block in
    place. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's -/

/-- For any proof data whose arrays are the region-entry contents, a run to the region's post, read at the argument
    arrays — the samples an input window's array, the index words, the matrices and the biases bypassing the region —
    is the frame claim's post. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-! ## The staging memrefs at a point, and the body as the pipeline calls it -/

/-- One staging buffer of the result window, through which its contents are stated. -/
abbrev VO0_3 : View sig .tc .vmem S64x64x256 .f32 := (Memref.whole cc0_stg3_0 : Memref sig .tc .vmem S64x64x256 .f32).view
abbrev ms0_0 (t : Fin (cfgM m).N) : Memref sig .tc .vmem S64x64x256 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S64x256x256 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S64x1x256 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S64x64x256 .f32 := spec0_3.stage ((cfgM m).slots t 3)
abbrev hs0_3 (t : Fin (cfgM m).N) : (ms0_3 m t).IsWhole := hstage0_3 (((cfgM m).slots t 3).cast nbuf0_3)

/-- The kernel body at point `t`, on what the pipeline calls it with. -/
abbrev bodyAt0 (a : (pcfg0 (F := F)).Adm) (t : Fin (cfg0 a).N) : Prog (TpuEff nD τ sig (Elt F) Λ₀ .tc) PUnit :=
  cc0__kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

end Cert.KernelIdeal.Hand

end
-- ==== Proof.KILoop.lean ====
/-
  The kernel's counted loop, gone through by its invariant.

  A trip handles four samples. For sample `u` of trip `k` it reads one word of the table of clipped index
  words, the rows `4k + u` of the point's block of samples, that word's matrix and bias row, and stores the
  product plus the bias into rows `4k + u` of the result's block. The table, the samples, the matrices and
  the biases are only read; the result's buffer is written. Every word of the table is assumed to address an
  expert inside the tables (`hw1 … hw4`: the side conditions the body assumes, of every word the table may
  hold). The invariant before trip `k`: the read buffers at their contents, the result's buffer at the
  pieces of the trips before `k` written over what it held at loop entry.
-/
import proofs.«421429_j32667521254078_3_alg».proof.Proof.Gen.KernelIdeal.Loops

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One trip's resources: the table at half its share and the three input buffers at their contents, the result's
    buffer at any. -/
abbrev Trip_k0_t1 (c : Dev nD) (arg1 : Memref sig .tc .smem S2048 .i32) (arg2 : Memref sig .tc .vmem S64x64x256 .f32) (arg3 : Memref sig .tc .vmem S64x256x256 .bf16) (arg4 : Memref sig .tc .vmem S64x1x256 .f32) (arg5 : Memref sig .tc .vmem S64x64x256 .f32)
    (X1 : Buf (Elt F) (arg1.view.loc (c : Thread nD τ))) (X2 : BufTy.Contents (Elt F) arg2.view.ty) (X3 : BufTy.Contents (Elt F) arg3.view.ty) (X4 : BufTy.Contents (Elt F) arg4.view.ty) (f5 : BufTy.Contents (Elt F) arg5.view.ty) : sProp 𝕄G :=
  iprop((arg1.view.loc (c : Thread nD τ) ↦{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5))

/-- ONE TRIP at a symbolic `k`: run once; the four pieces it writes into the result's buffer are what the run finds. -/
@[irreducible] def trip_k0_t1 (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : Fin k0_t1_loop.trips) :
    { L5 : List (View.Piece (Elt F) S64x64x256 .f32) // ∀ (E : Set ℕ) (f5 : BufTy.Contents (Elt F) arg5.view.ty),
      Trip_k0_t1 (F := F) c arg1 arg2 arg3 arg4 arg5 X1 X2 X3 X4 f5
      ⊢ wp frame (wpE (defs₀ (F := F)) 𝒱 (c : Thread nD τ) bd) E (k0_t1_body (F := F) i arg1 harg1 arg2 harg2 arg3 harg3 arg4 harg4 arg5 harg5 v0 k ())
          (fun _ => Trip_k0_t1 (F := F) c arg1 arg2 arg3 arg4 arg5 X1 X2 X3 X4 (arg5.view.writes (Elt F) f5 L5)) } := by
  refine ⟨?_, fun E f5 => ?run⟩
  case run =>
    unfold k0_t1_body
    simp only [k0_part1_eq_skeleton, k0_part2_eq_skeleton]
    iintro ⟨HT, H2, H3, H4, H5⟩
    sl_exec (disch := first | sl_exact (hw1 _ _) | sl_exact (hw2 _ _) | sl_exact (hw3 _ _) | sl_exact (hw4 _ _))
    sl_step
    sl_close

/-- The trip's pieces (the plain projection, for the recursion below to cite). -/
abbrev tripL_k0_t1 (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : Fin k0_t1_loop.trips) : List (View.Piece (Elt F) S64x64x256 .f32) :=
  (trip_k0_t1 (F := F) 𝒱 c bd i arg1 harg1 arg2 harg2 arg3 harg3 arg4 harg4 arg5 harg5 v0 X1 X2 X3 X4 hw1 hw2 hw3 hw4 k).1

/-- Trip `k`'s pieces in front of those of the trips before it; past the last trip, those alone. -/
@[irreducible] def pcs_k0_t1Step (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : ℕ) (prev : List (View.Piece (Elt F) S64x64x256 .f32)) : List (View.Piece (Elt F) S64x64x256 .f32) :=
  if h : k < k0_t1_loop.trips then
    (tripL_k0_t1 (F := F) 𝒱 c bd i arg1 harg1 arg2 harg2 arg3 harg3 arg4 harg4 arg5 harg5 v0 X1 X2 X3 X4 hw1 hw2 hw3 hw4 ⟨k, h⟩) ++ prev
  else prev

/-- The pieces of the trips before `k`, last first. -/
def pcs_k0_t1 (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) : ℕ → List (View.Piece (Elt F) S64x64x256 .f32)
  | 0 => []
  | k + 1 => pcs_k0_t1Step 𝒱 c bd i arg1 harg1 arg2 harg2 arg3 harg3 arg4 harg4 arg5 harg5 v0 X1 X2 X3 X4 hw1 hw2 hw3 hw4 k (pcs_k0_t1 𝒱 c bd i arg1 harg1 arg2 harg2 arg3 harg3 arg4 harg4 arg5 harg5 v0 X1 X2 X3 X4 hw1 hw2 hw3 hw4 k)

theorem pcs_k0_t1_succ (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : Fin k0_t1_loop.trips) :
    pcs_k0_t1 (F := F) 𝒱 c bd i arg1 harg1 arg2 harg2 arg3 harg3 arg4 harg4 arg5 harg5 v0 X1 X2 X3 X4 hw1 hw2 hw3 hw4 (k.val + 1)
      = (tripL_k0_t1 (F := F) 𝒱 c bd i arg1 harg1 arg2 harg2 arg3 harg3 arg4 harg4 arg5 harg5 v0 X1 X2 X3 X4 hw1 hw2 hw3 hw4 k) ++ (pcs_k0_t1 (F := F) 𝒱 c bd i arg1 harg1 arg2 harg2 arg3 harg3 arg4 harg4 arg5 harg5 v0 X1 X2 X3 X4 hw1 hw2 hw3 hw4 k.val) := by
  rw [pcs_k0_t1.eq_2]; unfold pcs_k0_t1Step; exact dif_pos k.isLt

/-- THE INVARIANT before trip `k`. -/
abbrev inv_k0_t1 (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty) (G5 : BufTy.Contents (Elt F) arg5.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : ℕ) (acc : Unit) : sProp 𝕄G :=
  iprop((arg1.view.loc (c : Thread nD τ) ↦{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg5.view.loc (c : Thread nD τ) ↦[arg5.view.set]{fullShare} f) ∗ ⌜f = arg5.view.writes (Elt F) G5 (pcs_k0_t1 (F := F) 𝒱 c bd i arg1 harg1 arg2 harg2 arg3 harg3 arg4 harg4 arg5 harg5 v0 X1 X2 X3 X4 hw1 hw2 hw3 hw4 k)⌝))

set_option warn.classDefReducibility false in
/-- THE LOOP BY ITS INVARIANT: a trip takes the invariant before it to the invariant after it, the trip's pieces
    written over the earlier ones. -/
@[sl_loop] def loopInv_k0_t1 (𝒱 : Variants) (c : Dev nD) (bd : Option 𝒱.V) (E : Set ℕ) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty) (G5 : BufTy.Contents (Elt F) arg5.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) :
    LoopInvTy_k0_t1 (F := F) Unit ℕ (UR sig nD τ) ℕ 𝒱 c bd E i arg1 harg1 arg2 harg2 arg3 harg3 arg4 harg4 arg5 harg5 v0 where
  inv := inv_k0_t1 (F := F) 𝒱 c bd i arg1 harg1 arg2 harg2 arg3 harg3 arg4 harg4 arg5 harg5 v0 X1 X2 X3 X4 G5 hw1 hw2 hw3 hw4
  step k acc := by
    iintro ⟨HT, H2, H3, H4, ⟨%f5, H5, %h5⟩⟩
    iapply (wp_wand_r Idealize.ShloMosaic.frame (wpE (defs₀ (F := F)) 𝒱 (c : Thread nD τ) bd) E)
    isplitl [HT H2 H3 H4 H5]
    · iapply ((trip_k0_t1 (F := F) 𝒱 c bd i arg1 harg1 arg2 harg2 arg3 harg3 arg4 harg4 arg5 harg5 v0 X1 X2 X3 X4 hw1 hw2 hw3 hw4 k).2 E f5)
      isplitl [HT]; · iexact HT
      isplitl [H2]; · iexact H2
      isplitl [H3]; · iexact H3
      isplitl [H4]; · iexact H4
      iexact H5
    · iintro %yld ⟨HT, H2, H3, H4, H5⟩
      isplitl [HT]; · iexact HT
      isplitl [H2]; · iexact H2
      isplitl [H3]; · iexact H3
      isplitl [H4]; · iexact H4
      rw [pcs_k0_t1_succ]
      iexists _; isplitl [H5]; · iexact H5
      ipureintro; rw [h5, ← View.writes_append]

end Cert.KernelIdeal.Hand

end
-- ==== Proof.KIRun.lean ====
/-
  The kernel body on any staging memrefs, run once: the grid coordinate's base index, then the loop of sixteen
  trips by its invariant. The input buffers are held at their contents and come back as they were; the table is
  held at half its share; the result's buffer, whatever it held, ends with the loop's pieces written. Those
  pieces are the witness the run finds.
-/
import proofs.«421429_j32667521254078_3_alg».proof.Proof.KIKit
import proofs.«421429_j32667521254078_3_alg».proof.Proof.KILoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result's staging memref, as pieces (last first), with the proof that the
    body runs to the continuation holding the inputs as they were and the result's buffer with those pieces written. -/
noncomputable def kernelRun0 (c : Dev nD) (i : grid0.Coords) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole)
    (x0 : Vec F S64x64x256 .f32) (x1 : Vec F S64x256x256 .bf16) (x2 : Vec F S64x1x256 .f32) (xt0 : TbBuf0 (F := F) c tbM0_0)
    (hw1 : ∀ r x, k0_chk1 (tbM0_0.view.readAt (Elt F) r xt0 x)) (hw2 : ∀ r x, k0_chk2 (tbM0_0.view.readAt (Elt F) r xt0 x)) (hw3 : ∀ r x, k0_chk3 (tbM0_0.view.readAt (Elt F) r xt0 x)) (hw4 : ∀ r x, k0_chk4 (tbM0_0.view.readAt (Elt F) r xt0 x)) :
    { L3 : List (View.Piece (Elt F) S64x64x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ tbPt0 c tbM0_0 xt0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ tbPt0 c tbM0_0 xt0) -∗ K ⟨⟩))
          ⊢ wp frame (wpE (defs₀ (F := F)) Variants.none c none) E (cc0__kernel i tbM0_0 htbM0_0 arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, HT0, Hk⟩
    obtain rfl := harg2.eq_unread hf0
    obtain rfl := harg3.eq_unread hf1
    obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexact HT0

end Cert.KernelIdeal.Hand

end
-- ==== Proof.KWords.lean ====
/-
  The index words of the kernel, in closed form.

  Before the launch each index word `w` is clamped: first the larger of `0` and `w` (signed), then the
  smaller of `63` and that. `clipw w` is this clamp of one word. Read as a natural number it is
  `min w.toInt.toNat 63`, the expert the word selects, for every word, negative ones included. So at a
  clamped word every leading offset into the experts' matrices and biases is in range and equals the
  expert's number; and the rows the trips touch are `4 k + u` of the point's block.
-/
import proofs.«421429_j32667521254078_3_alg».proof.Proof.Gen.KernelIdeal.Launch
import proofs.«421429_j32667521254078_3_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KWords

open Cert.KernelIdeal Cert.KernelIdeal.Gen Idealize.ShloMosaic Idealize.ShloMosaic.ValueIdx Idealize.ShloMosaic.TcCoe
open Idealize.SL.Sem

variable {F : FTy → Type} [FloatOps F]

/-! ## One word clamped -/

/-- The clamp of one word: the signed maximum of `0` and `w`, then the signed minimum of `63` and that. -/
def clipw (w : BitVec 32) : BitVec 32 := IntOp.minsi 63#32 (IntOp.maxsi 0#32 w)

theorem toInt_zero32 : (0#32 : BitVec 32).toInt = 0 := by decide
theorem toInt_63 : (63#32 : BitVec 32).toInt = 63 := by decide

/-- The clamped word, as a natural number, is the expert the word selects. -/
theorem clipw_toNat (w : BitVec 32) : (clipw w).toNat = (Cert.Spec.expert w).val := by
  rw [Cert.Spec.expert_val]
  have hc := BitVec.toInt_eq_toNat_cond w
  have hlt := w.isLt
  unfold clipw IntOp.minsi IntOp.maxsi
  by_cases h0 : w.toInt < 0
  · -- a negative word: the maximum is 0, and 63 is not below 0
    have e1 : w.slt 0#32 = true := by simp only [BitVec.slt, toInt_zero32, decide_eq_true_eq]; exact h0
    rw [if_pos e1]
    have e2 : ¬ ((63#32 : BitVec 32).slt 0#32 = true) := by decide
    rw [if_neg e2]
    show (0 : Nat) = _
    omega
  · have e1 : ¬ (w.slt 0#32 = true) := by simp only [BitVec.slt, toInt_zero32, decide_eq_true_eq]; exact h0
    rw [if_neg e1]
    by_cases h1 : 63 < w.toInt
    · have e2 : (63#32 : BitVec 32).slt w = true := by simp only [BitVec.slt, toInt_63, decide_eq_true_eq]; exact h1
      rw [if_pos e2]
      show (63 : Nat) = _
      omega
    · have e2 : ¬ ((63#32 : BitVec 32).slt w = true) := by simp only [BitVec.slt, toInt_63, decide_eq_true_eq]; exact h1
      rw [if_neg e2]
      split at hc <;> omega

theorem clipw_lt (w : BitVec 32) : (clipw w).toNat < 64 := by
  rw [clipw_toNat]; exact (Cert.Spec.expert w).isLt

/-! ## The side conditions and the leading offsets at a clamped word -/

/-- The offsets into the experts' matrices and biases are the word itself, then `0, 0`. -/
theorem off3_word (v : BitVec 32) : k0_off3 v = ![v.toNat, 0, 0] := rfl
theorem off4_word (v : BitVec 32) : k0_off4 v = ![v.toNat, 0, 0] := rfl

theorem off3_clipw (w : BitVec 32) (a : Fin 3) : k0_off3 (clipw w) a = (![(Cert.Spec.expert w).val, 0, 0] : Fin 3 → Nat) a := by
  rw [off3_word, clipw_toNat]
theorem off4_clipw (w : BitVec 32) (a : Fin 3) : k0_off4 (clipw w) a = (![(Cert.Spec.expert w).val, 0, 0] : Fin 3 → Nat) a := by
  rw [off4_word, clipw_toNat]

/-- A clamped word is below 64, so one matrix and one bias row at it lie inside the 64 experts'. -/
theorem chk1_clipw (w : BitVec 32) : k0_chk1 (clipw w) := by
  have h := clipw_lt w
  refine ⟨fun (a : Fin 3) => ?_, fun (a : Fin 3) => ?_⟩
  · rw [off3_word]
    fin_cases a
    · show (clipw w).toNat + 1 ≤ 64
      omega
    · show 0 + 256 ≤ 256
      omega
    · show 0 + 256 ≤ 256
      omega
  · rw [off4_word]
    fin_cases a
    · show (clipw w).toNat + 1 ≤ 64
      omega
    · show 0 + 1 ≤ 1
      omega
    · show 0 + 256 ≤ 256
      omega

/-- The offsets into the experts' matrices and biases are the word itself, then `0, 0`. -/
theorem off7_word (v : BitVec 32) : k0_off7 v = ![v.toNat, 0, 0] := rfl
theorem off8_word (v : BitVec 32) : k0_off8 v = ![v.toNat, 0, 0] := rfl

theorem off7_clipw (w : BitVec 32) (a : Fin 3) : k0_off7 (clipw w) a = (![(Cert.Spec.expert w).val, 0, 0] : Fin 3 → Nat) a := by
  rw [off7_word, clipw_toNat]
theorem off8_clipw (w : BitVec 32) (a : Fin 3) : k0_off8 (clipw w) a = (![(Cert.Spec.expert w).val, 0, 0] : Fin 3 → Nat) a := by
  rw [off8_word, clipw_toNat]

/-- A clamped word is below 64, so one matrix and one bias row at it lie inside the 64 experts'. -/
theorem chk2_clipw (w : BitVec 32) : k0_chk2 (clipw w) := by
  have h := clipw_lt w
  refine ⟨fun (a : Fin 3) => ?_, fun (a : Fin 3) => ?_⟩
  · rw [off7_word]
    fin_cases a
    · show (clipw w).toNat + 1 ≤ 64
      omega
    · show 0 + 256 ≤ 256
      omega
    · show 0 + 256 ≤ 256
      omega
  · rw [off8_word]
    fin_cases a
    · show (clipw w).toNat + 1 ≤ 64
      omega
    · show 0 + 1 ≤ 1
      omega
    · show 0 + 256 ≤ 256
      omega

/-- The offsets into the experts' matrices and biases are the word itself, then `0, 0`. -/
theorem off11_word (v : BitVec 32) : k0_off11 v = ![v.toNat, 0, 0] := rfl
theorem off12_word (v : BitVec 32) : k0_off12 v = ![v.toNat, 0, 0] := rfl

theorem off11_clipw (w : BitVec 32) (a : Fin 3) : k0_off11 (clipw w) a = (![(Cert.Spec.expert w).val, 0, 0] : Fin 3 → Nat) a := by
  rw [off11_word, clipw_toNat]
theorem off12_clipw (w : BitVec 32) (a : Fin 3) : k0_off12 (clipw w) a = (![(Cert.Spec.expert w).val, 0, 0] : Fin 3 → Nat) a := by
  rw [off12_word, clipw_toNat]

/-- A clamped word is below 64, so one matrix and one bias row at it lie inside the 64 experts'. -/
theorem chk3_clipw (w : BitVec 32) : k0_chk3 (clipw w) := by
  have h := clipw_lt w
  refine ⟨fun (a : Fin 3) => ?_, fun (a : Fin 3) => ?_⟩
  · rw [off11_word]
    fin_cases a
    · show (clipw w).toNat + 1 ≤ 64
      omega
    · show 0 + 256 ≤ 256
      omega
    · show 0 + 256 ≤ 256
      omega
  · rw [off12_word]
    fin_cases a
    · show (clipw w).toNat + 1 ≤ 64
      omega
    · show 0 + 1 ≤ 1
      omega
    · show 0 + 256 ≤ 256
      omega

/-- The offsets into the experts' matrices and biases are the word itself, then `0, 0`. -/
theorem off15_word (v : BitVec 32) : k0_off15 v = ![v.toNat, 0, 0] := rfl
theorem off16_word (v : BitVec 32) : k0_off16 v = ![v.toNat, 0, 0] := rfl

theorem off15_clipw (w : BitVec 32) (a : Fin 3) : k0_off15 (clipw w) a = (![(Cert.Spec.expert w).val, 0, 0] : Fin 3 → Nat) a := by
  rw [off15_word, clipw_toNat]
theorem off16_clipw (w : BitVec 32) (a : Fin 3) : k0_off16 (clipw w) a = (![(Cert.Spec.expert w).val, 0, 0] : Fin 3 → Nat) a := by
  rw [off16_word, clipw_toNat]

/-- A clamped word is below 64, so one matrix and one bias row at it lie inside the 64 experts'. -/
theorem chk4_clipw (w : BitVec 32) : k0_chk4 (clipw w) := by
  have h := clipw_lt w
  refine ⟨fun (a : Fin 3) => ?_, fun (a : Fin 3) => ?_⟩
  · rw [off15_word]
    fin_cases a
    · show (clipw w).toNat + 1 ≤ 64
      omega
    · show 0 + 256 ≤ 256
      omega
    · show 0 + 256 ≤ 256
      omega
  · rw [off16_word]
    fin_cases a
    · show (clipw w).toNat + 1 ≤ 64
      omega
    · show 0 + 1 ≤ 1
      omega
    · show 0 + 256 ≤ 256
      omega

/-! ## The trips' offsets -/

/-- Trip `k` of point `i` reads word `64 i + 4 k + u` of the table, `u = 0, 1, 2, 3`. -/
theorem off1_eq (i : grid0.Coords) (k : Fin k0_t1_loop.trips) (a : Fin 1) : k0_off1 i k a = 64 * (i 0).val + 4 * k.val := by
  rw [k0_off1_eq]; fin_cases a; rfl
theorem off6_eq (i : grid0.Coords) (k : Fin k0_t1_loop.trips) (a : Fin 1) : k0_off6 i k a = 64 * (i 0).val + 4 * k.val + 1 := by
  rw [k0_off6_eq]; fin_cases a; rfl
theorem off10_eq (i : grid0.Coords) (k : Fin k0_t1_loop.trips) (a : Fin 1) : k0_off10 i k a = 64 * (i 0).val + 4 * k.val + 2 := by
  rw [k0_off10_eq]; fin_cases a; rfl
theorem off14_eq (i : grid0.Coords) (k : Fin k0_t1_loop.trips) (a : Fin 1) : k0_off14 i k a = 64 * (i 0).val + 4 * k.val + 3 := by
  rw [k0_off14_eq]; fin_cases a; rfl

/-- Trip `k` touches rows `4 k + u` of the point's block of samples and of the output. -/
theorem off2_eq (k : Fin k0_t1_loop.trips) : k0_off2 k = ![4 * k.val, 0, 0] := k0_off2_eq k
theorem off5_eq0 (k : Fin k0_t1_loop.trips) : k0_off5 k 0#32 = ![4 * k.val, 0, 0] := k0_off5_eq k ⟨0, by decide⟩
theorem off5_eq1 (k : Fin k0_t1_loop.trips) : k0_off5 k 1#32 = ![4 * k.val + 1, 0, 0] := k0_off5_eq k ⟨1, by decide⟩
theorem off9_eq1 (k : Fin k0_t1_loop.trips) : k0_off9 k 1#32 = ![4 * k.val + 1, 0, 0] := k0_off9_eq k ⟨0, by decide⟩
theorem off9_eq2 (k : Fin k0_t1_loop.trips) : k0_off9 k 2#32 = ![4 * k.val + 2, 0, 0] := k0_off9_eq k ⟨1, by decide⟩
theorem off13_eq2 (k : Fin k0_t1_loop.trips) : k0_off13 k 2#32 = ![4 * k.val + 2, 0, 0] := k0_off13_eq k ⟨0, by decide⟩
theorem off13_eq3 (k : Fin k0_t1_loop.trips) : k0_off13 k 3#32 = ![4 * k.val + 3, 0, 0] := k0_off13_eq k ⟨1, by decide⟩
theorem off17_eq (k : Fin k0_t1_loop.trips) : k0_off17 k = ![4 * k.val + 3, 0, 0] := k0_off17_eq k

/-! ## The buffers the region finds -/

/-- A scalar constant broadcast to the 2048 words, read at any of them, is the constant. -/
theorem bcast_const_apply (b : BitVec 32) (i : S2048.Idx) :
    broadcastInDim S2048 ![] bcast_S_S2048 (constantI S_ 32 b) i = b :=
  broadcastInDim_apply _ bcast_S_S2048 (constantI S_ 32 b) i (fun a => a.elim0) (fun a => a.elim0)

/-- The prefetched table after the host operations: every word of the index argument, clamped. -/
theorem after_v0 (m : (ℓ : Loc nD τ sig) → Buf (Elt F) ℓ) (c : Dev nD) (s : Fin 2048) :
    (StableHlo.after (List.flatten [hostOps0, hostOps0_1, hostOps0_2]) (fun b => m (c, b)) (Proc.devRef .tc main_v0) : S2048.Idx → BitVec 32) (ix1 s)
      = clipw ((m ((c : Thread nD τ).loc main_arg1) : S2048.Idx → BitVec 32) (ix1 s)) := by
  have e : (StableHlo.after (List.flatten [hostOps0, hostOps0_1, hostOps0_2]) (fun b => m (c, b)) (Proc.devRef .tc main_v0) : S2048.Idx → BitVec 32)
      = minsi (broadcastInDim S2048 ![] bcast_S_S2048 (constantI S_ 32 63#32))
          (maxsi (broadcastInDim S2048 ![] bcast_S_S2048 (constantI S_ 32 0#32)) (m ((c : Thread nD τ).loc main_arg1) : S2048.Idx → BitVec 32)) := by
    simp only [hostOps0, hostOps0_1, hostOps0_2, List.flatten_cons, List.flatten_nil, List.append_nil, List.cons_append, List.nil_append]
    after_results
    rfl
  rw [e]
  show IntOp.minsi (broadcastInDim S2048 ![] bcast_S_S2048 (constantI S_ 32 63#32) (ix1 s))
      (IntOp.maxsi (broadcastInDim S2048 ![] bcast_S_S2048 (constantI S_ 32 0#32) (ix1 s)) _) = _
  rw [bcast_const_apply, bcast_const_apply]
  rfl

/-- The experts' matrices after the host operations: the matrices argument rounded to bf16. -/
theorem after_v1 (m : (ℓ : Loc nD τ sig) → Buf (Elt F) ℓ) (c : Dev nD) :
    (StableHlo.after (List.flatten [hostOps0, hostOps0_1, hostOps0_2]) (fun b => m (c, b)) (Proc.devRef .tc main_v1) : S64x256x256.Idx → Elt F .bf16)
      = truncf .bf16 (m ((c : Thread nD τ).loc main_arg2) : S64x256x256.Idx → Elt F .f32) bitsLt_bf16_f32 := by
  simp only [hostOps0, hostOps0_1, hostOps0_2, List.flatten_cons, List.flatten_nil, List.append_nil, List.cons_append, List.nil_append]
  after_results

/-- The experts' biases after the host operations, as a whole: the bias argument recast to `[64, 1, 256]`. -/
theorem after_v2_cast (m : (ℓ : Loc nD τ sig) → Buf (Elt F) ℓ) (c : Dev nD) :
    (StableHlo.after (List.flatten [hostOps0, hostOps0_1, hostOps0_2]) (fun b => m (c, b)) (Proc.devRef .tc main_v2) : S64x1x256.Idx → Elt F .f32)
      = shapeCast S64x1x256 (m ((c : Thread nD τ).loc main_arg3) : S64x256.Idx → Elt F .f32) shapeCasts_S64x256_S64x1x256 := by
  simp only [hostOps0, hostOps0_1, hostOps0_2, List.flatten_cons, List.flatten_nil, List.append_nil, List.cons_append, List.nil_append]
  after_results
  rfl

/-- Entry `(e, 0, o)` of the recast biases is entry `(e, o)` of the bias argument: both sit at row-major
    position `256 e + o`. -/
theorem after_v2 (m : (ℓ : Loc nD τ sig) → Buf (Elt F) ℓ) (c : Dev nD) (e : Fin 64) (o : Fin 256) :
    (StableHlo.after (List.flatten [hostOps0, hostOps0_1, hostOps0_2]) (fun b => m (c, b)) (Proc.devRef .tc main_v2) : S64x1x256.Idx → Elt F .f32) (ix3 e (0 : Fin 1) o)
      = (m ((c : Thread nD τ).loc main_arg3) : S64x256.Idx → Elt F .f32) (ix2 e o) := by
  rw [after_v2_cast]
  refine shapeCast_apply _ _ (ix3 e (0 : Fin 1) o) (ix2 e o) ?_
  rw [Shape.rowMajor_val_two, Shape.rowMajor_val_three]
  show e.val * 256 + o.val = (e.val * 1 + 0) * 256 + o.val
  omega

/-- No host operation writes argument 0: the region finds it as launched. -/
theorem after_arg0 (m : (ℓ : Loc nD τ sig) → Buf (Elt F) ℓ) (c : Dev nD) :
    StableHlo.after (List.flatten [hostOps0, hostOps0_1, hostOps0_2]) (fun b => m (c, b)) (Proc.devRef .tc main_arg0) = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation writes argument 1: the region finds it as launched. -/
theorem after_arg1 (m : (ℓ : Loc nD τ sig) → Buf (Elt F) ℓ) (c : Dev nD) :
    StableHlo.after (List.flatten [hostOps0, hostOps0_1, hostOps0_2]) (fun b => m (c, b)) (Proc.devRef .tc main_arg1) = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation writes argument 2: the region finds it as launched. -/
theorem after_arg2 (m : (ℓ : Loc nD τ sig) → Buf (Elt F) ℓ) (c : Dev nD) :
    StableHlo.after (List.flatten [hostOps0, hostOps0_1, hostOps0_2]) (fun b => m (c, b)) (Proc.devRef .tc main_arg2) = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation writes argument 3: the region finds it as launched. -/
theorem after_arg3 (m : (ℓ : Loc nD τ sig) → Buf (Elt F) ℓ) (c : Dev nD) :
    StableHlo.after (List.flatten [hostOps0, hostOps0_1, hostOps0_2]) (fun b => m (c, b)) (Proc.devRef .tc main_arg3) = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

end Cert.KWords

end
-- ==== Proof.KIPieces.lean ====
/-
  The pieces the loop writes, made explicit, and that they cover the result's block.

  Trip `k` writes four pieces, one per sample `u = 0, 1, 2, 3`: rows `4k + u` of the block receive the payload
  of rows `4k + u` of the samples' block and of the matrix and the bias row that the table's word
  `64 i + 4k + u` addresses. The four spellings of the payload are one function. After sixteen trips the
  pieces' rows are `0 … 63`: every element of the block lies in one of them.
-/
import proofs.«421429_j32667521254078_3_alg».proof.Proof.KIRun
import proofs.«421429_j32667521254078_3_alg».proof.Proof.KWords

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The table's word at offset `off`, as a load of one word reads it. -/
def wordAt (c : Dev nD) (arg1 : Memref sig .tc .smem S2048 .i32) (X1 : Buf (Elt F) (arg1.view.loc (c : Thread nD τ)))
    (off : Fin 1 → ℕ) (inb : ∀ a, off a + S1.size a ≤ S2048.size a) : BitVec 32 :=
  arg1.view.readAt (Elt F) (Rect.unit (s := S2048) off S1.size inb).toLoadRect X1 (Shape.Idx.first (numel1_S1.symm ▸ Nat.one_pos))

/-- One sample's piece: rows `offo` of the result's block receive the payload of the samples' rows `offx`, the
    matrix at `offw` and the bias row at `offb`. -/
def samplePiece (arg2 : Memref sig .tc .vmem S64x64x256 .f32) (arg3 : Memref sig .tc .vmem S64x256x256 .bf16) (arg4 : Memref sig .tc .vmem S64x1x256 .f32)
    (X2 : BufTy.Contents (Elt F) arg2.view.ty) (X3 : BufTy.Contents (Elt F) arg3.view.ty) (X4 : BufTy.Contents (Elt F) arg4.view.ty)
    (offo : Fin 3 → ℕ) (inbo : ∀ a, offo a + S1x64x256.size a ≤ S64x64x256.size a)
    (offx : Fin 3 → ℕ) (inbx : ∀ a, offx a + S1x64x256.size a ≤ S64x64x256.size a)
    (offw : Fin 3 → ℕ) (inbw : ∀ a, offw a + S1x256x256.size a ≤ S64x256x256.size a)
    (offb : Fin 3 → ℕ) (inbb : ∀ a, offb a + S1x1x256.size a ≤ S64x1x256.size a) : View.Piece (Elt F) S64x64x256 .f32 :=
  ⟨Rect.unit (s := S64x64x256) offo S1x64x256.size inbo,
    k0_pay2 (arg2.view.readAt (Elt F) (Rect.unit (s := S64x64x256) offx S1x64x256.size inbx).toLoadRect X2)
      (arg3.view.readAt (Elt F) (Rect.unit (s := S64x256x256) offw S1x256x256.size inbw).toLoadRect X3)
      (arg4.view.readAt (Elt F) (Rect.unit (s := S64x1x256) offb S1x1x256.size inbb).toLoadRect X4)⟩

/-- Trip `k`'s pieces, the last sample's first. -/
theorem tripL_k0_t1_eq (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : Fin k0_t1_loop.trips) :
    tripL_k0_t1 (F := F) 𝒱 c bd i arg1 harg1 arg2 harg2 arg3 harg3 arg4 harg4 arg5 harg5 v0 X1 X2 X3 X4 hw1 hw2 hw3 hw4 k =
      [ samplePiece arg2 arg3 arg4 X2 X3 X4 (k0_off17 k) (Gen.k0_off17_inb k) (k0_off13 k 3#32) (Gen.k0_off13_inb k 1)
          (k0_off15 (wordAt (F := F) c arg1 X1 (k0_off14 i k) (Gen.k0_off14_inb i k))) (k0_off15_inb _ (hw4 _ _)) (k0_off16 (wordAt (F := F) c arg1 X1 (k0_off14 i k) (Gen.k0_off14_inb i k))) (k0_off16_inb _ (hw4 _ _)),
        samplePiece arg2 arg3 arg4 X2 X3 X4 (k0_off13 k 2#32) (Gen.k0_off13_inb k 0) (k0_off9 k 2#32) (Gen.k0_off9_inb k 1)
          (k0_off11 (wordAt (F := F) c arg1 X1 (k0_off10 i k) (Gen.k0_off10_inb i k))) (k0_off11_inb _ (hw3 _ _)) (k0_off12 (wordAt (F := F) c arg1 X1 (k0_off10 i k) (Gen.k0_off10_inb i k))) (k0_off12_inb _ (hw3 _ _)),
        samplePiece arg2 arg3 arg4 X2 X3 X4 (k0_off9 k 1#32) (Gen.k0_off9_inb k 0) (k0_off5 k 1#32) (Gen.k0_off5_inb k 1)
          (k0_off7 (wordAt (F := F) c arg1 X1 (k0_off6 i k) (Gen.k0_off6_inb i k))) (k0_off7_inb _ (hw2 _ _)) (k0_off8 (wordAt (F := F) c arg1 X1 (k0_off6 i k) (Gen.k0_off6_inb i k))) (k0_off8_inb _ (hw2 _ _)),
        samplePiece arg2 arg3 arg4 X2 X3 X4 (k0_off5 k 0#32) (Gen.k0_off5_inb k 0) (k0_off2 k) (Gen.k0_off2_inb k)
          (k0_off3 (wordAt (F := F) c arg1 X1 (k0_off1 i k) (Gen.k0_off1_inb i k))) (k0_off3_inb _ (hw1 _ _)) (k0_off4 (wordAt (F := F) c arg1 X1 (k0_off1 i k) (Gen.k0_off1_inb i k))) (k0_off4_inb _ (hw1 _ _)) ] := by
  unfold tripL_k0_t1 trip_k0_t1
  rfl

/-- The loop has sixteen trips. -/
theorem trips_eq : k0_t1_loop.trips = 16 := by decide

/-- A row of the block between `4k` and `4k + 3` lies in one of trip `k`'s pieces. -/
theorem trip_cover (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) (k : Fin k0_t1_loop.trips) (s : Fin 64) (r : Fin 64) (o : Fin 256)
    (h1 : 4 * k.val ≤ s.val) (h2 : s.val < 4 * k.val + 4) :
    ∃ p ∈ tripL_k0_t1 (F := F) 𝒱 c bd i arg1 harg1 arg2 harg2 arg3 harg3 arg4 harg4 arg5 harg5 v0 X1 X2 X3 X4 hw1 hw2 hw3 hw4 k, (ix3 s r o : S64x64x256.Idx) ∈ p.1.set := by
  rw [tripL_k0_t1_eq]
  have hs : s.val = 4 * k.val + 3 ∨ s.val = 4 * k.val + 2 ∨ s.val = 4 * k.val + 1 ∨ s.val = 4 * k.val := by omega
  rcases hs with hs | hs | hs | hs
  · refine ⟨_, List.mem_cons_self, ?_⟩
    unfold samplePiece; dsimp only
    rw [Rect.mem_set_unit, Cert.KWords.off17_eq]
    intro a; match a with
    | ⟨0, _⟩ => exact ⟨by show 4 * k.val + 3 ≤ s.val; omega, by show s.val < 4 * k.val + 3 + 1; omega⟩
    | ⟨1, _⟩ => exact ⟨Nat.zero_le _, by show r.val < 0 + 64; omega⟩
    | ⟨2, _⟩ => exact ⟨Nat.zero_le _, by show o.val < 0 + 256; omega⟩
  · refine ⟨_, List.mem_cons_of_mem _ List.mem_cons_self, ?_⟩
    unfold samplePiece; dsimp only
    rw [Rect.mem_set_unit, Cert.KWords.off13_eq2]
    intro a; match a with
    | ⟨0, _⟩ => exact ⟨by show 4 * k.val + 2 ≤ s.val; omega, by show s.val < 4 * k.val + 2 + 1; omega⟩
    | ⟨1, _⟩ => exact ⟨Nat.zero_le _, by show r.val < 0 + 64; omega⟩
    | ⟨2, _⟩ => exact ⟨Nat.zero_le _, by show o.val < 0 + 256; omega⟩
  · refine ⟨_, List.mem_cons_of_mem _ (List.mem_cons_of_mem _ List.mem_cons_self), ?_⟩
    unfold samplePiece; dsimp only
    rw [Rect.mem_set_unit, Cert.KWords.off9_eq1]
    intro a; match a with
    | ⟨0, _⟩ => exact ⟨by show 4 * k.val + 1 ≤ s.val; omega, by show s.val < 4 * k.val + 1 + 1; omega⟩
    | ⟨1, _⟩ => exact ⟨Nat.zero_le _, by show r.val < 0 + 64; omega⟩
    | ⟨2, _⟩ => exact ⟨Nat.zero_le _, by show o.val < 0 + 256; omega⟩
  · refine ⟨_, List.mem_cons_of_mem _ (List.mem_cons_of_mem _ (List.mem_cons_of_mem _ List.mem_cons_self)), ?_⟩
    unfold samplePiece; dsimp only
    rw [Rect.mem_set_unit, Cert.KWords.off5_eq0]
    intro a; match a with
    | ⟨0, _⟩ => exact ⟨by show 4 * k.val ≤ s.val; omega, by show s.val < 4 * k.val + 1; omega⟩
    | ⟨1, _⟩ => exact ⟨Nat.zero_le _, by show r.val < 0 + 64; omega⟩
    | ⟨2, _⟩ => exact ⟨Nat.zero_le _, by show o.val < 0 + 256; omega⟩

/-- The pieces of the trips before `n` cover the rows below `4n`. -/
theorem pcs_cover (𝒱 : Variants) (c : Dev nD) (bd : Option 𝒱.V) (i : grid0.Coords) (arg1 : Memref sig .tc .smem S2048 .i32) (harg1 : arg1.IsWhole) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole) (v0 : BitVec 32)
    (X1 : Buf (Elt F) (arg1.view.loc (c : Thread nD τ))) (X2 : BufTy.Contents (Elt F) arg2.view.ty) (X3 : BufTy.Contents (Elt F) arg3.view.ty) (X4 : BufTy.Contents (Elt F) arg4.view.ty)
    (hw1 : ∀ r x, k0_chk1 (arg1.view.readAt (Elt F) r X1 x)) (hw2 : ∀ r x, k0_chk2 (arg1.view.readAt (Elt F) r X1 x)) (hw3 : ∀ r x, k0_chk3 (arg1.view.readAt (Elt F) r X1 x)) (hw4 : ∀ r x, k0_chk4 (arg1.view.readAt (Elt F) r X1 x)) :
    ∀ n, n ≤ 16 → ∀ (s : Fin 64) (r : Fin 64) (o : Fin 256), s.val < 4 * n →
      ∃ p ∈ pcs_k0_t1 (F := F) 𝒱 c bd i arg1 harg1 arg2 harg2 arg3 harg3 arg4 harg4 arg5 harg5 v0 X1 X2 X3 X4 hw1 hw2 hw3 hw4 n, (ix3 s r o : S64x64x256.Idx) ∈ p.1.set
  | 0, _, s, _, _, h => absurd h (by omega)
  | n + 1, hn, s, r, o, h => by
    have hk : n < k0_t1_loop.trips := by rw [trips_eq]; omega
    rw [show n + 1 = (⟨n, hk⟩ : Fin k0_t1_loop.trips).val + 1 from rfl, pcs_k0_t1_succ]
    by_cases hy : s.val < 4 * n
    · obtain ⟨p, hp, hm⟩ := pcs_cover 𝒱 c bd i arg1 harg1 arg2 harg2 arg3 harg3 arg4 harg4 arg5 harg5 v0 X1 X2 X3 X4 hw1 hw2 hw3 hw4 n (by omega) s r o hy
      exact ⟨p, List.mem_append_right _ hp, hm⟩
    · obtain ⟨p, hp, hm⟩ := trip_cover 𝒱 c bd i arg1 harg1 arg2 harg2 arg3 harg3 arg4 harg4 arg5 harg5 v0 X1 X2 X3 X4 hw1 hw2 hw3 hw4 ⟨n, hk⟩ s r o (by show 4 * n ≤ s.val; omega) (by show s.val < 4 * n + 4; omega)
      exact ⟨p, List.mem_append_left _ hp, hm⟩

end Cert.KernelIdeal.Hand

end
-- ==== Proof.KIBody.lean ====
/-
  The region's proof data, the body obligation at every point, the launch and the frame.

  After the body at point `t` each input window's buffer holds its block, as before, and the result window's buffer
  holds the loop's pieces read back (they cover the block, so what the buffer held before does not matter). The
  body obligation is the whole-body run at the point's memrefs and blocks; it needs the side conditions the body
  assumes of the table's words (`Hyps`), which hold of every word the clip leaves in the table. The launch then
  gives the run of @main: every window's array at what the proof data compute, every other buffer as the region
  found it; read at the arguments, that is the frame.
-/
import proofs.«421429_j32667521254078_3_alg».proof.Proof.KIPieces

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The side conditions the body assumes, of every word the table may hold when the region is entered. -/
structure Hyps : Prop where
  h1 : ∀ (c : Dev nD) r x, k0_chk1 (tbM0_0.view.readAt (Elt F) r (tbl m 0 : TbBuf0 (F := F) c tbM0_0) x)
  h2 : ∀ (c : Dev nD) r x, k0_chk2 (tbM0_0.view.readAt (Elt F) r (tbl m 0 : TbBuf0 (F := F) c tbM0_0) x)
  h3 : ∀ (c : Dev nD) r x, k0_chk3 (tbM0_0.view.readAt (Elt F) r (tbl m 0 : TbBuf0 (F := F) c tbM0_0) x)
  h4 : ∀ (c : Dev nD) r x, k0_chk4 (tbM0_0.view.readAt (Elt F) r (tbl m 0 : TbBuf0 (F := F) c tbM0_0) x)

/-- The whole-body run's pieces are the loop's after its sixteen trips. -/
theorem kernelRun0_pieces (c : Dev nD) (i : grid0.Coords) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole)
    (x0 : Vec F S64x64x256 .f32) (x1 : Vec F S64x256x256 .bf16) (x2 : Vec F S64x1x256 .f32) (xt0 : TbBuf0 (F := F) c tbM0_0)
    (hw1 : ∀ r x, k0_chk1 (tbM0_0.view.readAt (Elt F) r xt0 x)) (hw2 : ∀ r x, k0_chk2 (tbM0_0.view.readAt (Elt F) r xt0 x)) (hw3 : ∀ r x, k0_chk3 (tbM0_0.view.readAt (Elt F) r xt0 x)) (hw4 : ∀ r x, k0_chk4 (tbM0_0.view.readAt (Elt F) r xt0 x)) :
    (kernelRun0 c i arg2 harg2 arg3 harg3 arg4 harg4 arg5 harg5 x0 x1 x2 xt0 hw1 hw2 hw3 hw4).1
      = pcs_k0_t1 (F := F) Variants.none c none i tbM0_0 htbM0_0 arg2 harg2 arg3 harg3 arg4 harg4 arg5 harg5 (Scalar.muli (BitVec.ofNat 32 (i 0).val) 64#32) xt0 (harg2.unread x0) (harg3.unread x1) (harg4.unread x2) hw1 hw2 hw3 hw4 k0_t1_loop.trips := by
  unfold kernelRun0
  rfl

/-- The run's pieces cover the result's block. -/
theorem cover0_3 (c : Dev nD) (i : grid0.Coords) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole)
    (x0 : Vec F S64x64x256 .f32) (x1 : Vec F S64x256x256 .bf16) (x2 : Vec F S64x1x256 .f32) (xt0 : TbBuf0 (F := F) c tbM0_0)
    (hw1 : ∀ r x, k0_chk1 (tbM0_0.view.readAt (Elt F) r xt0 x)) (hw2 : ∀ r x, k0_chk2 (tbM0_0.view.readAt (Elt F) r xt0 x)) (hw3 : ∀ r x, k0_chk3 (tbM0_0.view.readAt (Elt F) r xt0 x)) (hw4 : ∀ r x, k0_chk4 (tbM0_0.view.readAt (Elt F) r xt0 x)) (y : S64x64x256.Idx) :
    ∃ pc ∈ (kernelRun0 c i arg2 harg2 arg3 harg3 arg4 harg4 arg5 harg5 x0 x1 x2 xt0 hw1 hw2 hw3 hw4).1, y ∈ pc.1.set := by
  rw [kernelRun0_pieces, trips_eq, eq_ix3 y]
  exact pcs_cover _ _ _ _ _ _ _ _ _ _ _ _ _ _ _ _ _ _ _ _ _ _ _ 16 (Nat.le_refl _) (y 0) (y 1) (y 2) (by have h : (y 0).val < 64 := (y 0).isLt; show (y 0).val < 4 * 16; omega)

/-- What the run leaves in the result's staging buffer: its pieces read back over arbitrary contents. -/
def out0_3 (c : Dev nD) (i : grid0.Coords) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole)
    (x0 : Vec F S64x64x256 .f32) (x1 : Vec F S64x256x256 .bf16) (x2 : Vec F S64x1x256 .f32) (xt0 : TbBuf0 (F := F) c tbM0_0)
    (hw1 : ∀ r x, k0_chk1 (tbM0_0.view.readAt (Elt F) r xt0 x)) (hw2 : ∀ r x, k0_chk2 (tbM0_0.view.readAt (Elt F) r xt0 x)) (hw3 : ∀ r x, k0_chk3 (tbM0_0.view.readAt (Elt F) r xt0 x)) (hw4 : ∀ r x, k0_chk4 (tbM0_0.view.readAt (Elt F) r xt0 x)) : Vec F S64x64x256 .f32 :=
  VO0_3.read (Elt F) (VO0_3.writes (Elt F) VO0_3.junk (kernelRun0 c i arg2 harg2 arg3 harg3 arg4 harg4 arg5 harg5 x0 x1 x2 xt0 hw1 hw2 hw3 hw4).1)

/-- What the result's staging buffer holds after the body at point `t`. -/
def outsAt0 (hH : Hyps m) (c : Dev nD) (t : Fin (cfgM m).N) : Vec F S64x64x256 .f32 :=
  out0_3 c (grid0.coords t) (ms0_0 m t) (hs0_0 m t) (ms0_1 m t) (hs0_1 m t) (ms0_2 m t) (hs0_2 m t) (ms0_3 m t) (hs0_3 m t) (iblk m c 0 t) (iblk m c 1 t) (iblk m c 2 t) (tbl m 0) (hH.h1 c) (hH.h2 c) (hH.h3 c) (hH.h4 c)

/-- The proof data of the pipeline on core `c`. -/
def dats (hH : Hyps m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m hH c t)
  Φ _ := iprop(Pipeline.ΦA spec0 c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0_0 (hH : Hyps m) (c : Dev nD) (t : Fin (cfgM m).N) : (dats m hH 0 c).after 0 t = iblk m c 0 t := by dsimp only [dats]; try rfl
theorem after0_1 (hH : Hyps m) (c : Dev nD) (t : Fin (cfgM m).N) : (dats m hH 0 c).after 1 t = iblk m c 1 t := by dsimp only [dats]; try rfl
theorem after0_2 (hH : Hyps m) (c : Dev nD) (t : Fin (cfgM m).N) : (dats m hH 0 c).after 2 t = iblk m c 2 t := by dsimp only [dats]; try rfl
theorem after0_3 (hH : Hyps m) (c : Dev nD) (t : Fin (cfgM m).N) : (dats m hH 0 c).after 3 t = (outsAt0 m hH c t) := by dsimp only [dats]; try rfl

theorem before0_0 (hH : Hyps m) (c : Dev nD) (t : Fin (cfgM m).N) (d) : (dats m hH 0 c).before 0 t d = iblk m c 0 t :=
  before0_0_of m (dats m hH 0 c) (A_eq m hH c 0) (after0_0 m hH c) t d
theorem before0_1 (hH : Hyps m) (c : Dev nD) (t : Fin (cfgM m).N) (d) : (dats m hH 0 c).before 1 t d = iblk m c 1 t :=
  before0_1_of m (dats m hH 0 c) (A_eq m hH c 1) (after0_1 m hH c) t d
theorem before0_2 (hH : Hyps m) (c : Dev nD) (t : Fin (cfgM m).N) (d) : (dats m hH 0 c).before 2 t d = iblk m c 2 t :=
  before0_2_of m (dats m hH 0 c) (A_eq m hH c 2) (after0_2 m hH c) t d

/-- What the body is called with at point `t`, -/
def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d))
    ∗ (∃ d, owns (c : Thread nD τ) (ms0_1 m t) fullShare ((dats m hH 0 c).before 1 t d))
    ∗ (∃ d, owns (c : Thread nD τ) (ms0_2 m t) fullShare ((dats m hH 0 c).before 2 t d))
    ∗ (∃ d, owns (c : Thread nD τ) (ms0_3 m t) fullShare ((dats m hH 0 c).before 3 t d)))

/-- and what it returns. -/
def bodyPost (hH : Hyps m) (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t)
    ∗ owns (c : Thread nD τ) (ms0_1 m t) fullShare ((dats m hH 0 c).after 1 t)
    ∗ owns (c : Thread nD τ) (ms0_2 m t) fullShare ((dats m hH 0 c).after 2 t)
    ∗ owns (c : Thread nD τ) (ms0_3 m t) fullShare ((dats m hH 0 c).after 3 t))

/-- The body at any point: the inputs' memrefs hold their blocks, so the run applies; the invariant passes through;
    the core owes nothing throughout. -/
theorem sound_body (hH : Hyps m) (c : Dev nD) (t : Fin (cfgM m).N) :
    bodyPre m hH c t ⊢ wp frame (wpE (defs₀ (F := F)) Variants.none c none) Set.univ (bodyAt0 (adm m) t) (fun _ => bodyPost m hH c t) := by
  unfold bodyPre bodyPost bodyAt0
  simp only [before0_0, before0_1, before0_2]
  rw [show (dats m hH 0 c).Φ t.succ = (dats m hH 0 c).Φ t.castSucc from rfl,
    show (dats m hH 0 c).owesAt () t.succ = (dats m hH 0 c).owesAt () t.castSucc from rfl,
    after0_0, after0_1, after0_2, after0_3]
  rw [show (dats m hH 0 c).Φ t.castSucc = iprop(Pipeline.ΦA spec0 c ∗ Pipeline.ΦT pre0 (tbl m) c) from rfl, PhiT0_eq]
  unfold outsAt0
  unfold out0_3
  iintro ⟨⟨HΦ, HT0⟩, Ho, ⟨%d0, H0⟩, ⟨%d1, H1⟩, ⟨%d2, H2⟩, ⟨%d3, H3⟩⟩
  iapply ((kernelRun0 c (grid0.coords t) _ _ _ _ _ _ _ _ (iblk m c 0 t) (iblk m c 1 t) (iblk m c 2 t) (tbl m 0) (hH.h1 c) (hH.h2 c) (hH.h3 c) (hH.h4 c)).2 Set.univ _)
  isplitl [H0]; · iexact H0
  isplitl [H1]; · iexact H1
  isplitl [H2]; · iexact H2
  isplitl [H3]; · iexists _; iexact H3
  isplitl [HT0]; · iexact HT0
  iintro ⟨H0, H1, H2, ⟨%e3, H3⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _ _)

/-- The library's body obligation, at every point. -/
theorem body_obligation (hH : Hyps m) (c : Dev nD) : BodyObligation (dats (F := F) m hH 0 c) (defs₀ (F := F)) Variants.none () Set.univ := fun t => by
  rw [bigSep_W0, bigSep_W0]
  exact sound_body m hH c t

set_option backward.isDefEq.respectTransparency.types false in
/-- From any memory with zero counters every weakly fair execution of @main terminates, every window's array at what
    the proof data compute and every other unscoped buffer as the region found it. -/
theorem run_main (hH : Hyps m) : θ_run defs (onTc (τ := τ) (main (F := F))) (s₀ m ρ) (Pipeline.FramePost (Pipeline.pin pcfgs fun _ => adm m) (dats m hH) 0 (V m)) :=
  Pipeline.θ_run_frameP pcfgs (fun _ => adm m) (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hpf := V_pre m)
    (hΦ := fun _ _ => rfl)

/-- THE FRAME: @main runs to the end, faults nowhere, and leaves its arguments unchanged. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m hH) (A_eq m hH) (run_main m ρ hH)

end Cert.KernelIdeal.Hand

end
-- ==== Proof.KIHyps.lean ====
/-
  The side conditions the body assumes hold of every word of the table: the host's clip leaves each word in
  `[0, 63]`, so the matrix and the bias row it addresses lie inside their tables.
-/
import proofs.«421429_j32667521254078_3_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-- Every word a load may read off the table is the clip of an index word. -/
theorem tbl_word (c : Dev nD) (r : LoadRect S2048) (x : r.shape.Idx) :
    ∃ w : BitVec 32, tbM0_0.view.readAt (Elt F) r (tbl m 0 : TbBuf0 (F := F) c tbM0_0) x = Cert.KWords.clipw w := by
  obtain rfl : c = 0 := Subsingleton.elim _ _
  refine ⟨(m (((0 : Dev nD) : Thread nD τ).loc main_arg1) : S2048.Idx → BitVec 32) (ix1 (r.idx x 0)), ?_⟩
  show (tbl m 0 : S2048.Idx → BitVec 32) (r.idx x) = _
  rw [eq_ix1 (r.idx x)]
  exact Cert.KWords.after_v0 m 0 _

theorem hyps : Hyps m where
  h1 c r x := by obtain ⟨w, hw⟩ := tbl_word m c r x; rw [hw]; exact Cert.KWords.chk1_clipw w
  h2 c r x := by obtain ⟨w, hw⟩ := tbl_word m c r x; rw [hw]; exact Cert.KWords.chk2_clipw w
  h3 c r x := by obtain ⟨w, hw⟩ := tbl_word m c r x; rw [hw]; exact Cert.KWords.chk3_clipw w
  h4 c r x := by obtain ⟨w, hw⟩ := tbl_word m c r x; rw [hw]; exact Cert.KWords.chk4_clipw w

end Cert.KernelIdeal.Hand

end
-- ==== Proof.KIGblk.lean ====
/-
  What the result's block holds after the body at grid coordinate `i`, as one function of the block's index.

  Row `j` of the block belongs to sample `64 i + j` of the batch; the table's word for that sample, read as a
  natural number (and kept below 64), names the expert `e`; entry `(j, r, o)` is the inner product of row `r` of
  the sample with row `o` of expert `e`'s matrix, plus entry `o` of expert `e`'s bias row.
-/
import proofs.«421429_j32667521254078_3_alg».proof.KernelIdeal
import Idealize.ShloMosaic.PureOps.Ideal
import Idealize.ShloMosaic.Lib.ValueIdx

noncomputable section

namespace Cert.KernelIdeal.Hand

open Cert.KernelIdeal Idealize.ShloMosaic Idealize.ShloMosaic.ValueIdx

/-- The batch index of row `j` of the block at grid coordinate `i`. -/
def sampleOf (i : grid0.Coords) (j : Fin 64) : Fin 2048 :=
  ⟨64 * (i 0).val + j.val, by have h : (i 0).val < 32 := (i 0).isLt; have := j.isLt; omega⟩

/-- The expert the table's word for row `j` names. -/
def expertOf (T : S2048.Idx → BitVec 32) (i : grid0.Coords) (j : Fin 64) : Fin 64 :=
  ⟨min (T (ix1 (sampleOf i j))).toNat 63, by omega⟩

/-- The block of results at grid coordinate `i`, from the samples' block `x0`, the experts' matrices `x1`, their
    bias rows `x2` and the table `T`. -/
def Gblk (i : grid0.Coords) (x0 : S64x64x256.Idx → EReal) (x1 : S64x256x256.Idx → EReal) (x2 : S64x1x256.Idx → EReal)
    (T : S2048.Idx → BitVec 32) : S64x64x256.Idx → EReal :=
  fun y => (∑ k : Fin 256, x0 (ix3 (y 0) (y 1) k) * x1 (ix3 (expertOf T i (y 0)) (y 2) k))
    + x2 (ix3 (expertOf T i (y 0)) (0 : Fin 1) (y 2))

theorem Gblk_apply (i : grid0.Coords) (x0 : S64x64x256.Idx → EReal) (x1 : S64x256x256.Idx → EReal) (x2 : S64x1x256.Idx → EReal)
    (T : S2048.Idx → BitVec 32) (j : Fin 64) (r : Fin 64) (o : Fin 256) :
    Gblk i x0 x1 x2 T (ix3 j r o) = (∑ k : Fin 256, x0 (ix3 j r k) * x1 (ix3 (expertOf T i j) o k))
      + x2 (ix3 (expertOf T i j) (0 : Fin 1) o) := rfl

end Cert.KernelIdeal.Hand

end
-- ==== Proof.KPay.lean ====
/-
  The kernel's arithmetic, read at one element.

  Each trip of the kernel's loop handles four samples, and for every one of them stores the same
  function of what it loaded: rows `x : [1, 64, 256]` of one sample, one expert's matrix
  `w : [1, 256, 256]` and its bias row `b : [1, 1, 256]`,

      pay x w b = addUnit (matmul (dropUnit x) (dropUnit w) 0 + rows (dropUnit b)),

  where the product contracts the second axis of both operands into a zero accumulator. The four
  samples' terms are spelled through differently cut definitions; the first part says they are one
  function (for every float instance, by unfolding). The second part reads that function at an
  element `(0, r, o)` at the ideal instance, where a change of float format is the identity and the
  product into a zero accumulator is the plain sum:

      pay x w b (0, r, o) = (∑ k, x (0, r, k) * w (0, o, k)) + b (0, 0, o),

  the sum over the contraction coordinate `k = 0 … 255` in that order.
-/
import proofs.«421429_j32667521254078_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KPay

open Cert.KernelIdeal Cert.KernelIdeal.Gen Idealize.ShloMosaic Idealize.ShloMosaic.ValueIdx

/-! ## The four samples' terms are one function -/

section AnyInstance
variable {F : FTy → Type} [FloatOps F]

/-- Sample 1: the bias row and the product are computed before the cut, the sum and the added unit
    axis after it. Together they are sample 0's term. -/
theorem pay5_eq (v29 : Vec F S1x64x256 .f32) (v33 : Vec F S1x256x256 .bf16) (v36 : Vec F S1x1x256 .f32) :
    k0_pay5 (k0_pay3 v36) (k0_pay4 v29 v33) = k0_pay2 v29 v33 v36 := rfl

/-- Sample 2: the same term under other names. -/
theorem pay6_eq (v50 : Vec F S1x64x256 .f32) (v54 : Vec F S1x256x256 .bf16) (v57 : Vec F S1x1x256 .f32) :
    k0_pay6 v50 v54 v57 = k0_pay2 v50 v54 v57 := rfl

/-- Sample 3: the two operands of the product are prepared before the cut, the rest after it. -/
theorem pay1_eq (v71 : Vec F S1x64x256 .f32) (v75 : Vec F S1x256x256 .bf16) (v78 : Vec F S1x1x256 .f32) :
    k0_pay1 (k0_pay7 v71) (k0_pay8 v75) v78 = k0_pay2 v71 v75 v78 := rfl

end AnyInstance

/-! ## The product's operand indices, axis by axis

The product `[64, 256] × [256, 256] → [64, 256]` contracts axis 1 of both operands: at result element
`(r, o)` and contraction coordinate `k` the left operand is read at `(r, k)` and the right at `(o, k)`. -/

/-- The left operand's row is the result's row. -/
theorem lhs_axis0 (i : S64x256.Idx) (q : dot_S64x256_S256x256_S64x256_1_1_0_0_n_n.contr.Idx) :
    (dot_S64x256_S256x256_S64x256_1_1_0_0_n_n.lhsIdx i q 0).val = (i 0).val := by
  unfold DotDims.lhsIdx
  rw [dif_neg (show ¬(0 : Fin S64x256.rank) ∈ dot_S64x256_S256x256_S64x256_1_1_0_0_n_n.lhsBatch by decide), dif_pos (show (0 : Fin S64x256.rank) ∈ dot_S64x256_S256x256_S64x256_1_1_0_0_n_n.lhsNonContracting by decide)]
  rfl

/-- The left operand's column is the contraction coordinate. -/
theorem lhs_axis1 (i : S64x256.Idx) (q : dot_S64x256_S256x256_S64x256_1_1_0_0_n_n.contr.Idx) :
    (dot_S64x256_S256x256_S64x256_1_1_0_0_n_n.lhsIdx i q 1).val = (q ⟨0, by decide⟩).val :=
  dot_S64x256_S256x256_S64x256_1_1_0_0_n_n.lhsIdx_val_of_single rfl i q

/-- The right operand's row is the result's column. -/
theorem rhs_axis0 (i : S64x256.Idx) (q : dot_S64x256_S256x256_S64x256_1_1_0_0_n_n.contr.Idx) :
    (dot_S64x256_S256x256_S64x256_1_1_0_0_n_n.rhsIdx i q 0).val = (i 1).val := by
  unfold DotDims.rhsIdx
  rw [dif_neg (show ¬(0 : Fin S256x256.rank) ∈ dot_S64x256_S256x256_S64x256_1_1_0_0_n_n.rhsBatch by decide), dif_pos (show (0 : Fin S256x256.rank) ∈ dot_S64x256_S256x256_S64x256_1_1_0_0_n_n.rhsNonContracting by decide)]
  rfl

/-- The right operand's column is the contraction coordinate. -/
theorem rhs_axis1 (i : S64x256.Idx) (q : dot_S64x256_S256x256_S64x256_1_1_0_0_n_n.contr.Idx) :
    (dot_S64x256_S256x256_S64x256_1_1_0_0_n_n.rhsIdx i q 1).val = (q ⟨0, by decide⟩).val :=
  dot_S64x256_S256x256_S64x256_1_1_0_0_n_n.rhsIdx_val_of_single rfl i q

/-! ## The product at an element -/

/-- Into a zero accumulator the product at `(r, o)` is the inner product of row `r` of the left
    operand with row `o` of the right, summed over `k = 0 … 255`. -/
theorem matmul_zero_apply (lhs : FVec Ideal S64x256 .bf16) (rhs : FVec Ideal S256x256 .bf16) (r : Fin 64) (o : Fin 256) :
    matmul (F := Ideal) dot_S64x256_S256x256_S64x256_1_1_0_0_n_n none lhs rhs (constant (F := Ideal) S64x256 .f32 0x00000000#32) (ix2 r o)
      = ∑ k : Fin 256, lhs (ix2 r k) * rhs (ix2 o k) := by
  show FloatOps.matmul dot_S64x256_S256x256_S64x256_1_1_0_0_n_n none lhs rhs (constant (F := Ideal) S64x256 .f32 0x00000000#32) (ix2 r o) = _
  rw [Ideal.matmul_constant_zero_apply, ← Equiv.sum_comp (contrEquiv1 dot_S64x256_S256x256_S64x256_1_1_0_0_n_n 256 rfl rfl).symm]
  refine Finset.sum_congr rfl fun k _ => ?_
  have hk := contrEquiv1_symm_val dot_S64x256_S256x256_S64x256_1_1_0_0_n_n 256 rfl rfl k
  have el : dot_S64x256_S256x256_S64x256_1_1_0_0_n_n.lhsIdx (ix2 r o) ((contrEquiv1 dot_S64x256_S256x256_S64x256_1_1_0_0_n_n 256 rfl rfl).symm k) = ix2 r k := funext fun a => Fin.ext (by
    match a with
    | ⟨0, _⟩ => exact lhs_axis0 _ _
    | ⟨1, _⟩ => exact (lhs_axis1 _ _).trans hk)
  have er : dot_S64x256_S256x256_S64x256_1_1_0_0_n_n.rhsIdx (ix2 r o) ((contrEquiv1 dot_S64x256_S256x256_S64x256_1_1_0_0_n_n 256 rfl rfl).symm k) = ix2 o k := funext fun a => Fin.ext (by
    match a with
    | ⟨0, _⟩ => exact rhs_axis0 _ _
    | ⟨1, _⟩ => exact (rhs_axis1 _ _).trans hk)
  rw [el, er]

/-! ## The payload at an element -/

/-- Sample 0's term at `(0, r, o)`: the inner product of row `r` of the sample with row `o` of the
    expert's matrix, over `k = 0 … 255`, plus entry `o` of the expert's bias. -/
theorem pay2_apply (xr : Vec Ideal S1x64x256 .f32) (wr : Vec Ideal S1x256x256 .bf16) (br : Vec Ideal S1x1x256 .f32)
    (r : Fin 64) (o : Fin 256) :
    k0_pay2 (F := Ideal) xr wr br (ix3 (0 : Fin 1) r o)
      = (∑ k : Fin 256, xr (ix3 (0 : Fin 1) r k) * wr (ix3 (0 : Fin 1) o k)) + br (ix3 (0 : Fin 1) (0 : Fin 1) o) := by
  unfold k0_pay2
  -- the added unit axis: the element `(0, r, o)` of the result is the element `(r, o)` of the sum
  refine (shapeCast_ab_1ab_apply _ shapeCasts_S64x256_S1x64x256 (0 : Fin 1) r o).trans ?_
  -- the sum of the product and the broadcast bias row, elementwise
  refine (addf_apply _ _ (ix2 r o)).trans ?_
  refine congrArg₂ (· + ·) ?_ ?_
  · -- the product into the zero accumulator; each operand read through its format change and dropped unit axis
    refine (matmul_zero_apply _ _ r o).trans ?_
    refine Finset.sum_congr rfl fun k _ => ?_
    refine congrArg₂ (· * ·) ?_ ?_
    · exact shapeCast_1ab_ab_apply xr shapeCasts_S1x64x256_S64x256 r k
    · exact shapeCast_1ab_ab_apply wr shapeCasts_S1x256x256_S256x256 o k
  · -- the bias row, the same on every row of the block
    refine (broadcastTo_1b_ab_apply _ broadcasts_S1x256_S64x256 r o).trans ?_
    exact shapeCast_1ab_ab_apply br shapeCasts_S1x1x256_S1x256 (0 : Fin 1) o

end Cert.KPay

end
-- ==== Proof.KIBlock.lean ====
/-
  Every piece the loop writes agrees with the one block function.

  Trip `k` of the loop writes four pieces into the result's block, one per sample `u = 0, 1, 2, 3`: rows
  `j = 4k + u` receive the payload of rows `j` of the samples' block and of the matrix and the bias row
  of the expert `w` that the table's word for sample `64 i + j` names. A side condition on every word of the
  table says `w < 64`, so clamping `w` into the table of experts changes nothing. At the ideal instance the
  payload at `(0, r, o)` is `(∑ k, x (0, r, k) * W (0, o, k)) + b (0, 0, o)`; read through the one-row blocks at
  row offsets `j`, `w`, `w` this is

      (∑ k, x0 (j, r, k) * x1 (w, o, k)) + x2 (w, 0, o),

  which is the block function at `(j, r, o)`, the place the piece's own index `(0, r, o)` has in the block.
  The first part states this for one piece over arbitrary row offsets; the second runs through the trips.
-/
import proofs.«421429_j32667521254078_3_alg».proof.Proof.KIPieces
import proofs.«421429_j32667521254078_3_alg».proof.Proof.KIGblk
import proofs.«421429_j32667521254078_3_alg».proof.Proof.KPay
import proofs.«421429_j32667521254078_3_alg».proof.Proof.KWords
import Idealize.ShloMosaic.Lib.ValueIdx

set_option maxRecDepth 16384
set_option maxHeartbeats 4000000

noncomputable section

namespace Cert.KernelIdeal.Hand

open Cert.KernelIdeal Cert.KernelIdeal.Gen Idealize.ShloMosaic Idealize.ShloMosaic.TcCoe Idealize.ShloMosaic.ValueIdx Idealize.SL.Sem

/-! ## One-row blocks read at an element -/

/-- An index of a one-row block of samples is `(u, r, o)`. -/
theorem exists_ix3_rows (x : S1x64x256.Idx) : ∃ (u : Fin 1) (r : Fin 64) (o : Fin 256), x = ix3 u r o :=
  ⟨x 0, x 1, x 2, eq_ix3 x⟩

/-- Rows `e` of the samples' block, read at `(0, r, k)`, are the block at `(e, r, k)`. -/
theorem read_rows (arg2 : Memref sig .tc .vmem S64x64x256 .f32) (harg2 : arg2.IsWhole) (x0 : Vec Ideal S64x64x256 .f32)
    (e : Fin 64) (inb : ∀ a, (![e.val, 0, 0] : Fin 3 → ℕ) a + S1x64x256.size a ≤ S64x64x256.size a) (r : Fin 64) (k : Fin 256) :
    arg2.view.readAt (Elt Ideal) (Rect.unit (s := S64x64x256) ![e.val, 0, 0] S1x64x256.size inb).toLoadRect (harg2.unread x0) (ix3 (0 : Fin 1) r k)
      = x0 (ix3 e r k) := by
  rw [View.readAt_apply, harg2.read_unread]
  refine congrArg x0 (funext fun a => Fin.ext ?_)
  match a with
  | ⟨0, _⟩ => show e.val + 1 * 0 = e.val; rfl
  | ⟨1, _⟩ => show 0 + 1 * r.val = r.val; omega
  | ⟨2, _⟩ => show 0 + 1 * k.val = k.val; omega

/-- Expert `e`'s matrix, read at `(0, o, k)`, is the experts' matrices at `(e, o, k)`. -/
theorem read_mat (arg3 : Memref sig .tc .vmem S64x256x256 .bf16) (harg3 : arg3.IsWhole) (x1 : Vec Ideal S64x256x256 .bf16)
    (e : Fin 64) (inb : ∀ a, (![e.val, 0, 0] : Fin 3 → ℕ) a + S1x256x256.size a ≤ S64x256x256.size a) (o : Fin 256) (k : Fin 256) :
    arg3.view.readAt (Elt Ideal) (Rect.unit (s := S64x256x256) ![e.val, 0, 0] S1x256x256.size inb).toLoadRect (harg3.unread x1) (ix3 (0 : Fin 1) o k)
      = x1 (ix3 e o k) := by
  rw [View.readAt_apply, harg3.read_unread]
  refine congrArg x1 (funext fun a => Fin.ext ?_)
  match a with
  | ⟨0, _⟩ => show e.val + 1 * 0 = e.val; rfl
  | ⟨1, _⟩ => show 0 + 1 * o.val = o.val; omega
  | ⟨2, _⟩ => show 0 + 1 * k.val = k.val; omega

/-- Expert `e`'s bias row, read at `(0, 0, o)`, is the experts' bias rows at `(e, 0, o)`. -/
theorem read_bias (arg4 : Memref sig .tc .vmem S64x1x256 .f32) (harg4 : arg4.IsWhole) (x2 : Vec Ideal S64x1x256 .f32)
    (e : Fin 64) (inb : ∀ a, (![e.val, 0, 0] : Fin 3 → ℕ) a + S1x1x256.size a ≤ S64x1x256.size a) (o : Fin 256) :
    arg4.view.readAt (Elt Ideal) (Rect.unit (s := S64x1x256) ![e.val, 0, 0] S1x1x256.size inb).toLoadRect (harg4.unread x2) (ix3 (0 : Fin 1) (0 : Fin 1) o)
      = x2 (ix3 e (0 : Fin 1) o) := by
  rw [View.readAt_apply, harg4.read_unread]
  refine congrArg x2 (funext fun a => Fin.ext ?_)
  match a with
  | ⟨0, _⟩ => show e.val + 1 * 0 = e.val; rfl
  | ⟨1, _⟩ => rfl
  | ⟨2, _⟩ => show 0 + 1 * o.val = o.val; omega

/-! ## One piece -/

/-- A piece that writes rows `j` from rows `j` of the samples and the matrix and bias row at offset `w`, where `w`
    is the table's word for row `j` and names an expert of the table, agrees with the block function. -/
theorem samplePiece_agree (i : grid0.Coords)
    (arg2 : Memref sig .tc .vmem S64x64x256 .f32) (arg3 : Memref sig .tc .vmem S64x256x256 .bf16) (arg4 : Memref sig .tc .vmem S64x1x256 .f32)
    (harg2 : arg2.IsWhole) (harg3 : arg3.IsWhole) (harg4 : arg4.IsWhole)
    (x0 : Vec Ideal S64x64x256 .f32) (x1 : Vec Ideal S64x256x256 .bf16) (x2 : Vec Ideal S64x1x256 .f32) (T : S2048.Idx → BitVec 32)
    (j : Fin 64) (w : BitVec 32) (hw : w.toNat < 64) (hT : T (ix1 (sampleOf i j)) = w)
    (offo offx offw offb : Fin 3 → ℕ)
    (inbo : ∀ a, offo a + S1x64x256.size a ≤ S64x64x256.size a) (inbx : ∀ a, offx a + S1x64x256.size a ≤ S64x64x256.size a)
    (inbw : ∀ a, offw a + S1x256x256.size a ≤ S64x256x256.size a) (inbb : ∀ a, offb a + S1x1x256.size a ≤ S64x1x256.size a)
    (ho : offo = ![j.val, 0, 0]) (hx : offx = ![j.val, 0, 0]) (hwo : offw = ![w.toNat, 0, 0]) (hb : offb = ![w.toNat, 0, 0]) :
    ∀ x, (samplePiece (F := Ideal) arg2 arg3 arg4 (harg2.unread x0) (harg3.unread x1) (harg4.unread x2) offo inbo offx inbx offw inbw offb inbb).2 x
      = Gblk i x0 x1 x2 T ((samplePiece (F := Ideal) arg2 arg3 arg4 (harg2.unread x0) (harg3.unread x1) (harg4.unread x2) offo inbo offx inbx offw inbw offb inbb).1.emb x) := by
  subst ho hx hwo hb
  intro x
  obtain ⟨u, r, o, rfl⟩ := exists_ix3_rows x
  obtain rfl : u = 0 := Subsingleton.elim _ _
  -- the table's word is below 64: the expert it names is itself
  have hE : expertOf T i j = ⟨w.toNat, hw⟩ := Fin.ext (by
    show min (T (ix1 (sampleOf i j))).toNat 63 = w.toNat
    rw [hT]; omega)
  -- the piece's index `(0, r, o)` sits at `(j, r, o)` of the block
  have hemb : (Rect.unit (s := S64x64x256) ![j.val, 0, 0] S1x64x256.size inbo).emb (ix3 (0 : Fin 1) r o) = ix3 j r o :=
    funext fun a => Fin.ext (by
      match a with
      | ⟨0, _⟩ => show j.val + 1 * 0 = j.val; rfl
      | ⟨1, _⟩ => show 0 + 1 * r.val = r.val; omega
      | ⟨2, _⟩ => show 0 + 1 * o.val = o.val; omega)
  show k0_pay2 (F := Ideal) _ _ _ (ix3 (0 : Fin 1) r o)
    = Gblk i x0 x1 x2 T ((Rect.unit (s := S64x64x256) ![j.val, 0, 0] S1x64x256.size inbo).emb (ix3 (0 : Fin 1) r o))
  rw [hemb, Gblk_apply, hE]
  refine (Cert.KPay.pay2_apply _ _ _ r o).trans ?_
  refine congrArg₂ (· + ·) (Finset.sum_congr rfl fun k _ => congrArg₂ (· * ·) ?_ ?_) ?_
  · exact read_rows arg2 harg2 x0 j inbx r k
  · exact read_mat arg3 harg3 x1 ⟨w.toNat, hw⟩ inbw o k
  · exact read_bias arg4 harg4 x2 ⟨w.toNat, hw⟩ inbb o

/-! ## The table's word for a row -/

/-- The word a one-word load reads at offset `64 i + j` of the table is the table's entry for row `j` of the block. -/
theorem wordAt_eq (c : Dev nD) (i : grid0.Coords) (xt0 : TbBuf0 (F := Ideal) c tbM0_0) (j : Fin 64)
    (off : Fin 1 → ℕ) (inb : ∀ a, off a + S1.size a ≤ S2048.size a) (h : off 0 = 64 * (i 0).val + j.val) :
    (xt0 : S2048.Idx → BitVec 32) (ix1 (sampleOf i j)) = wordAt (F := Ideal) c tbM0_0 xt0 off inb := by
  unfold wordAt
  rw [View.readAt_apply]
  show (xt0 : S2048.Idx → BitVec 32) _ = (xt0 : S2048.Idx → BitVec 32) _
  refine congrArg (xt0 : S2048.Idx → BitVec 32) (funext fun a => Fin.ext ?_)
  match a with
  | ⟨0, _⟩ => show 64 * (i 0).val + j.val = off 0 + 1 * 0; omega

/-! ## The side conditions bound the table's words

Each side condition says that the one-expert blocks at offset `w` lie inside the experts' tables; on the experts' axis
that is `w + 1 ≤ 64`. -/

theorem word_lt1 (w : BitVec 32) (h : k0_chk1 w) : w.toNat < 64 := by
  have h0 : w.toNat + 1 ≤ 64 := h.1 0
  omega
theorem word_lt2 (w : BitVec 32) (h : k0_chk2 w) : w.toNat < 64 := by
  have h0 : w.toNat + 1 ≤ 64 := h.1 0
  omega
theorem word_lt3 (w : BitVec 32) (h : k0_chk3 w) : w.toNat < 64 := by
  have h0 : w.toNat + 1 ≤ 64 := h.1 0
  omega
theorem word_lt4 (w : BitVec 32) (h : k0_chk4 w) : w.toNat < 64 := by
  have h0 : w.toNat + 1 ≤ 64 := h.1 0
  omega

/-! ## Every piece of every trip -/

/-- The pieces of the trips before `n` all agree with the block function. -/
theorem pcs_agree (c : Dev nD) (i : grid0.Coords)
    (arg2 : Memref sig .tc .vmem S64x64x256 .f32) (harg2 : arg2.IsWhole) (arg3 : Memref sig .tc .vmem S64x256x256 .bf16) (harg3 : arg3.IsWhole)
    (arg4 : Memref sig .tc .vmem S64x1x256 .f32) (harg4 : arg4.IsWhole) (arg5 : Memref sig .tc .vmem S64x64x256 .f32) (harg5 : arg5.IsWhole) (v0 : BitVec 32)
    (x0 : Vec Ideal S64x64x256 .f32) (x1 : Vec Ideal S64x256x256 .bf16) (x2 : Vec Ideal S64x1x256 .f32)
    (xt0 : TbBuf0 (F := Ideal) c tbM0_0)
    (hw1 : ∀ r x, k0_chk1 (tbM0_0.view.readAt (Elt Ideal) r xt0 x)) (hw2 : ∀ r x, k0_chk2 (tbM0_0.view.readAt (Elt Ideal) r xt0 x))
    (hw3 : ∀ r x, k0_chk3 (tbM0_0.view.readAt (Elt Ideal) r xt0 x)) (hw4 : ∀ r x, k0_chk4 (tbM0_0.view.readAt (Elt Ideal) r xt0 x)) :
    ∀ n, n ≤ 16 → ∀ p ∈ pcs_k0_t1 (F := Ideal) Variants.none c none i tbM0_0 htbM0_0 arg2 harg2 arg3 harg3 arg4 harg4 arg5 harg5 v0 xt0 (harg2.unread x0) (harg3.unread x1) (harg4.unread x2) hw1 hw2 hw3 hw4 n,
      ∀ x, p.2 x = Gblk i x0 x1 x2 (xt0 : S2048.Idx → BitVec 32) (p.1.emb x)
  | 0, _, p, hp => absurd hp List.not_mem_nil
  | n + 1, hn, p, hp => by
    have hk : n < k0_t1_loop.trips := by rw [trips_eq]; omega
    rw [show n + 1 = (⟨n, hk⟩ : Fin k0_t1_loop.trips).val + 1 from rfl, pcs_k0_t1_succ] at hp
    rcases List.mem_append.mp hp with hp | hp
    · -- the new trip's four pieces, the last sample's first
      rw [tripL_k0_t1_eq] at hp
      simp only [List.mem_cons, List.not_mem_nil, or_false] at hp
      rcases hp with rfl | rfl | rfl | rfl
      · exact samplePiece_agree i arg2 arg3 arg4 harg2 harg3 harg4 x0 x1 x2 xt0 ⟨4 * n + 3, by omega⟩
          (wordAt (F := Ideal) c tbM0_0 xt0 (k0_off14 i ⟨n, hk⟩) (Gen.k0_off14_inb i ⟨n, hk⟩)) (word_lt4 _ (hw4 _ _))
          (wordAt_eq c i xt0 ⟨4 * n + 3, by omega⟩ _ _ (by rw [Cert.KWords.off14_eq]; show 64 * (i 0).val + 4 * n + 3 = 64 * (i 0).val + (4 * n + 3); omega))
          _ _ _ _ _ _ _ _ (Cert.KWords.off17_eq _) (Cert.KWords.off13_eq3 _) (Cert.KWords.off15_word _) (Cert.KWords.off16_word _)
      · exact samplePiece_agree i arg2 arg3 arg4 harg2 harg3 harg4 x0 x1 x2 xt0 ⟨4 * n + 2, by omega⟩
          (wordAt (F := Ideal) c tbM0_0 xt0 (k0_off10 i ⟨n, hk⟩) (Gen.k0_off10_inb i ⟨n, hk⟩)) (word_lt3 _ (hw3 _ _))
          (wordAt_eq c i xt0 ⟨4 * n + 2, by omega⟩ _ _ (by rw [Cert.KWords.off10_eq]; show 64 * (i 0).val + 4 * n + 2 = 64 * (i 0).val + (4 * n + 2); omega))
          _ _ _ _ _ _ _ _ (Cert.KWords.off13_eq2 _) (Cert.KWords.off9_eq2 _) (Cert.KWords.off11_word _) (Cert.KWords.off12_word _)
      · exact samplePiece_agree i arg2 arg3 arg4 harg2 harg3 harg4 x0 x1 x2 xt0 ⟨4 * n + 1, by omega⟩
          (wordAt (F := Ideal) c tbM0_0 xt0 (k0_off6 i ⟨n, hk⟩) (Gen.k0_off6_inb i ⟨n, hk⟩)) (word_lt2 _ (hw2 _ _))
          (wordAt_eq c i xt0 ⟨4 * n + 1, by omega⟩ _ _ (by rw [Cert.KWords.off6_eq]; show 64 * (i 0).val + 4 * n + 1 = 64 * (i 0).val + (4 * n + 1); omega))
          _ _ _ _ _ _ _ _ (Cert.KWords.off9_eq1 _) (Cert.KWords.off5_eq1 _) (Cert.KWords.off7_word _) (Cert.KWords.off8_word _)
      · exact samplePiece_agree i arg2 arg3 arg4 harg2 harg3 harg4 x0 x1 x2 xt0 ⟨4 * n, by omega⟩
          (wordAt (F := Ideal) c tbM0_0 xt0 (k0_off1 i ⟨n, hk⟩) (Gen.k0_off1_inb i ⟨n, hk⟩)) (word_lt1 _ (hw1 _ _))
          (wordAt_eq c i xt0 ⟨4 * n, by omega⟩ _ _ (by rw [Cert.KWords.off1_eq]))
          _ _ _ _ _ _ _ _ (Cert.KWords.off5_eq0 _) (Cert.KWords.off2_eq _) (Cert.KWords.off3_word _) (Cert.KWords.off4_word _)
    · exact pcs_agree c i arg2 harg2 arg3 harg3 arg4 harg4 arg5 harg5 v0 x0 x1 x2 xt0 hw1 hw2 hw3 hw4 n (by omega) p hp

end Cert.KernelIdeal.Hand

end
-- ==== Proof.KIValue.lean ====
/-
  The result array after the run is the specification's function of the arguments.

  At grid point `t` the result window's block starts at sample `64 t`; the samples' window moves with it, the
  matrices' and biases' windows are their whole arrays. The body leaves in the block, at `(j, r, o)`, the inner
  product of row `r` of sample `64 t + j` with row `o` of the matrix of the expert that sample's clamped word
  names, plus entry `o` of that expert's bias: the specification's value at `(64 t + j, r, o)`. The 32 blocks
  tile the 2048 samples, every point writes its block back, so the array ends holding the specification's
  function everywhere.
-/
import proofs.«421429_j32667521254078_3_alg».proof.Proof.KIHyps
import proofs.«421429_j32667521254078_3_alg».proof.Proof.KIBlock
import proofs.«421429_j32667521254078_3_alg».proof.Proof.KIGblk
import proofs.«421429_j32667521254078_3_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The index maps over the grid -/

/-- The grid has one axis: point `t` has coordinate `t`. -/
theorem coords_val : ∀ t : Fin grid0.N, ((grid0.coords t) 0).val = t.val := by decide +kernel

/-- The samples' and the result's block index at a point is `(t, 0, 0)`; the matrices' and the biases' is `(0, 0, 0)`. -/
theorem transform0_at : ∀ t : Fin grid0.N, cc0_transform_0 (grid0.coords t) = ![t.val, 0, 0] := by decide +kernel
theorem transform3_at : ∀ t : Fin grid0.N, cc0_transform_3 (grid0.coords t) = ![t.val, 0, 0] := by decide +kernel
theorem transform1_at (i : grid0.Coords) : cc0_transform_1 i = ![0, 0, 0] := rfl
theorem transform2_at (i : grid0.Coords) : cc0_transform_2 i = ![0, 0, 0] := rfl

theorem index0_at (t : Fin (cfgM m).N) : ((cfgM m).win 0).index t = ![t.val, 0, 0] := transform0_at t
theorem index3_at (t : Fin (cfgM m).N) : ((cfgM m).win 3).index t = ![t.val, 0, 0] := transform3_at t
theorem index1_at (t : Fin (cfgM m).N) : ((cfgM m).win 1).index t = ![0, 0, 0] := rfl
theorem index2_at (t : Fin (cfgM m).N) : ((cfgM m).win 2).index t = ![0, 0, 0] := rfl

/-- The result's block index moves at every point, so every point writes its block back. -/
theorem flush3 (t : Fin (cfgM m).N) : ((cfgM m).win 3).flush t = true := by
  unfold Pipeline.Window.flush
  have hout : ((cfgM m).win 3).isOut = true := rfl
  rw [hout, Bool.true_and, Bool.or_eq_true, decide_eq_true_eq, decide_eq_true_eq]
  by_cases hl : t.val + 1 = (cfgM m).grid.N
  · exact Or.inl hl
  · have ht : t.val < 32 := t.isLt
    have hN : (cfgM m).grid.N = 32 := rfl
    refine Or.inr ⟨by omega, fun he => ?_⟩
    rw [index3_at, index3_at] at he
    have h0 := congrFun he 0
    have h1 : t.val + 1 = t.val := h0
    omega

/-! ## One block, over variables of the literal types -/

/-- The expert the table's clamped word names is the expert the sample's own word selects. -/
theorem expertOf_clip (i : grid0.Coords) (A1 T : S2048.Idx → BitVec 32)
    (hT : ∀ s : Fin 2048, T (ix1 s) = Cert.KWords.clipw (A1 (ix1 s))) (j : Fin 64) :
    expertOf T i j = Cert.Spec.expert (A1 (ix1 (sampleOf i j))) := by
  apply Fin.ext
  show min (T (ix1 (sampleOf i j))).toNat 63 = (Cert.Spec.expert (A1 (ix1 (sampleOf i j)))).val
  rw [hT, Cert.KWords.clipw_toNat]
  have h := (Cert.Spec.expert (A1 (ix1 (sampleOf i j)))).isLt
  omega

/-- The block's value at `(j, r, o)` is the specification's at `(64 i + j, r, o)`, when the samples' block is the
    samples' rows `64 i + j`, the matrices' block is the matrices, the biases' block at `(e, 0, o)` is the bias
    `(e, o)`, and the table holds the clamped words. -/
theorem Gblk_eq_G (i : grid0.Coords) (A0 : S2048x64x256.Idx → EReal) (A1 : S2048.Idx → BitVec 32)
    (A2 : S64x256x256.Idx → EReal) (A3 : S64x256.Idx → EReal)
    (x0 : S64x64x256.Idx → EReal) (x1 : S64x256x256.Idx → EReal) (x2 : S64x1x256.Idx → EReal) (T : S2048.Idx → BitVec 32)
    (h0 : ∀ (j : Fin 64) (r : Fin 64) (k : Fin 256), x0 (ix3 j r k) = A0 (ix3 (sampleOf i j) r k))
    (h1 : x1 = A2)
    (h2 : ∀ (e : Fin 64) (o : Fin 256), x2 (ix3 e (0 : Fin 1) o) = A3 (ix2 e o))
    (hT : ∀ s : Fin 2048, T (ix1 s) = Cert.KWords.clipw (A1 (ix1 s)))
    (j : Fin 64) (r : Fin 64) (o : Fin 256) :
    Gblk i x0 x1 x2 T (ix3 j r o) = Cert.Spec.G A0 A1 A2 A3 (ix3 (sampleOf i j) r o) := by
  rw [Gblk_apply, Cert.Spec.G_apply, expertOf_clip i A1 T hT j, h1, h2]
  congr 1
  exact Finset.sum_congr rfl fun k _ => by rw [h0]

/-! ## The windows' blocks inside their arrays -/

/-- Entry `(j, r, k)` of the samples' block at point `t` is entry `(64 t + j, r, k)` of the samples argument. -/
theorem iblk0_apply (c : Dev nD) (t : Fin (cfgM m).N) (j : Fin 64) (r : Fin 64) (k : Fin 256) :
    (iblk m c 0 t : S64x64x256.Idx → EReal) (ix3 j r k)
      = (m ((c : Thread nD τ).loc main_arg0) : S2048x64x256.Idx → EReal) (ix3 (sampleOf (grid0.coords t) j) r k) := by
  unfold iblk
  show V m c main_arg0 ((((cfgM m).win 0).blk t).view.emb (ix3 j r k)) = _
  rw [V_main_arg0]
  refine congrArg _ ?_
  have e := index0_at m t
  have hc := coords_val t
  funext a; apply Fin.ext
  match a with
  | ⟨0, _⟩ =>
    show ((cfgM m).win 0).index t (0 : Fin 3) * 64 + 1 * j.val = 64 * ((grid0.coords t) 0).val + j.val
    rw [e, hc]; show t.val * 64 + 1 * j.val = 64 * t.val + j.val; omega
  | ⟨1, _⟩ =>
    show ((cfgM m).win 0).index t (1 : Fin 3) * 64 + 1 * r.val = r.val
    rw [e]; show 0 * 64 + 1 * r.val = r.val; omega
  | ⟨2, _⟩ =>
    show ((cfgM m).win 0).index t (2 : Fin 3) * 256 + 1 * k.val = k.val
    rw [e]; show 0 * 256 + 1 * k.val = k.val; omega

/-- The matrices' block at every point is the whole matrices argument (narrowing is the identity on the reals). -/
theorem iblk1_eq (c : Dev nD) (t : Fin (cfgM m).N) :
    (iblk m c 1 t : S64x256x256.Idx → EReal) = (m ((c : Thread nD τ).loc main_arg2) : S64x256x256.Idx → EReal) := by
  refine funext fun (y : S64x256x256.Idx) => ?_
  obtain ⟨a, b, d, rfl⟩ : ∃ (a : Fin 64) (b : Fin 256) (d : Fin 256), y = ix3 a b d := ⟨y 0, y 1, y 2, eq_ix3 y⟩
  unfold iblk
  show V m c main_v1 ((((cfgM m).win 1).blk t).view.emb (ix3 a b d)) = _
  have hy : (((cfgM m).win 1).blk t).view.emb (ix3 a b d) = ix3 a b d := by
    funext ax; apply Fin.ext
    match ax with
    | ⟨0, _⟩ => show 0 * 64 + 1 * a.val = a.val; omega
    | ⟨1, _⟩ => show 0 * 256 + 1 * b.val = b.val; omega
    | ⟨2, _⟩ => show 0 * 256 + 1 * d.val = d.val; omega
  rw [hy]
  exact congrFun (Cert.KWords.after_v1 (F := Ideal) m c) (ix3 a b d)

/-- Entry `(e, 0, o)` of the biases' block at every point is entry `(e, o)` of the bias argument. -/
theorem iblk2_apply (c : Dev nD) (t : Fin (cfgM m).N) (e : Fin 64) (o : Fin 256) :
    (iblk m c 2 t : S64x1x256.Idx → EReal) (ix3 e (0 : Fin 1) o)
      = (m ((c : Thread nD τ).loc main_arg3) : S64x256.Idx → EReal) (ix2 e o) := by
  unfold iblk
  show V m c main_v2 ((((cfgM m).win 2).blk t).view.emb (ix3 e (0 : Fin 1) o)) = _
  have hy : (((cfgM m).win 2).blk t).view.emb (ix3 e (0 : Fin 1) o) = ix3 e (0 : Fin 1) o := by
    funext a; apply Fin.ext
    match a with
    | ⟨0, _⟩ => show 0 * 64 + 1 * e.val = e.val; omega
    | ⟨1, _⟩ => show 0 * 1 + 1 * 0 = 0; omega
    | ⟨2, _⟩ => show 0 * 256 + 1 * o.val = o.val; omega
  rw [hy]
  exact Cert.KWords.after_v2 (F := Ideal) m c e o

/-- The table holds the clamped index words. -/
theorem tbl_clip (s : Fin 2048) :
    (tbl m 0 : S2048.Idx → BitVec 32) (ix1 s) = Cert.KWords.clipw ((m (((0 : Dev nD) : Thread nD τ).loc main_arg1) : S2048.Idx → BitVec 32) (ix1 s)) :=
  Cert.KWords.after_v0 (F := Ideal) m 0 s

/-- Entry `(j, r, o)` of the result's block at point `t`, read off any contents of the result's array, is their
    entry `(64 t + j, r, o)`. -/
theorem read_blk3 (t : Fin (cfgM m).N) (A : S2048x64x256.Idx → EReal) (j : Fin 64) (r : Fin 64) (o : Fin 256) :
    (((cfgM m).win 3).blk t).view.read (Elt Ideal) A (ix3 j r o) = A (ix3 (sampleOf (grid0.coords t) j) r o) := by
  show A ((((cfgM m).win 3).blk t).view.emb (ix3 j r o)) = _
  refine congrArg _ ?_
  have e := index3_at m t
  have hc := coords_val t
  funext a; apply Fin.ext
  match a with
  | ⟨0, _⟩ =>
    show ((cfgM m).win 3).index t (0 : Fin 3) * 64 + 1 * j.val = 64 * ((grid0.coords t) 0).val + j.val
    rw [e, hc]; show t.val * 64 + 1 * j.val = 64 * t.val + j.val; omega
  | ⟨1, _⟩ =>
    show ((cfgM m).win 3).index t (1 : Fin 3) * 64 + 1 * r.val = r.val
    rw [e]; show 0 * 64 + 1 * r.val = r.val; omega
  | ⟨2, _⟩ =>
    show ((cfgM m).win 3).index t (2 : Fin 3) * 256 + 1 * o.val = o.val
    rw [e]; show 0 * 256 + 1 * o.val = o.val; omega

/-! ## The 32 blocks tile the result's array -/

/-- An index of the result's array is in point `t`'s block iff each coordinate is in the block's range on its axis. -/
theorem mem_blk3 (t : Fin (cfgM m).N) (y : S2048x64x256.Idx) :
    y ∈ (((cfgM m).win 3).blk t).view.set ↔ ∀ a : Fin 3, ((cfgM m).win 3).index t a * S64x64x256.size a ≤ (y a).val ∧ (y a).val < ((cfgM m).win 3).index t a * S64x64x256.size a + S64x64x256.size a := by
  have h1 : (((cfgM m).win 3).blk t).view.set = (((cfgM m).win 3).rect t).set :=
    View.set_slice_whole main_v3 (((cfgM m).win 3).rect t)
  rw [h1]
  exact Rect.mem_set_unit

/-- Sample `s` lies in the block of point `s / 64`, which is written back. -/
theorem cover3 (y : S2048x64x256.Idx) :
    ∃ t : Fin (cfgM m).N, ((cfgM m).win 3).flush t = true ∧ y ∈ (((cfgM m).win 3).blk t).view.set := by
  have h0 : (y 0).val < 2048 := (y 0).isLt
  have h1 : (y 1).val < 64 := (y 1).isLt
  have h2 : (y 2).val < 256 := (y 2).isLt
  let t : Fin (cfgM m).N := ⟨(y 0).val / 64, by show (y 0).val / 64 < 32; omega⟩
  refine ⟨t, flush3 m t, ?_⟩
  rw [mem_blk3]
  have e := index3_at m t
  intro a
  match a with
  | ⟨0, _⟩ =>
    show ((cfgM m).win 3).index t (0 : Fin 3) * 64 ≤ (y 0).val ∧ (y 0).val < ((cfgM m).win 3).index t (0 : Fin 3) * 64 + 64
    rw [e]; show (y 0).val / 64 * 64 ≤ (y 0).val ∧ (y 0).val < (y 0).val / 64 * 64 + 64; omega
  | ⟨1, _⟩ =>
    show ((cfgM m).win 3).index t (1 : Fin 3) * 64 ≤ (y 1).val ∧ (y 1).val < ((cfgM m).win 3).index t (1 : Fin 3) * 64 + 64
    rw [e]; show 0 * 64 ≤ (y 1).val ∧ (y 1).val < 0 * 64 + 64; omega
  | ⟨2, _⟩ =>
    show ((cfgM m).win 3).index t (2 : Fin 3) * 256 ≤ (y 2).val ∧ (y 2).val < ((cfgM m).win 3).index t (2 : Fin 3) * 256 + 256
    rw [e]; show 0 * 256 ≤ (y 2).val ∧ (y 2).val < 0 * 256 + 256; omega

/-! ## What the body leaves in the result's block -/

/-- The run's pieces cover the block and each agrees with the block's function, so the buffer read back is that
    function, whatever it held before. -/
theorem out0_3_eq (c : Dev nD) (i : grid0.Coords) (arg2 : Memref sig .tc .vmem S64x64x256 .f32) (harg2 : arg2.IsWhole) (arg3 : Memref sig .tc .vmem S64x256x256 .bf16) (harg3 : arg3.IsWhole) (arg4 : Memref sig .tc .vmem S64x1x256 .f32) (harg4 : arg4.IsWhole) (arg5 : Memref sig .tc .vmem S64x64x256 .f32) (harg5 : arg5.IsWhole)
    (x0 : Vec Ideal S64x64x256 .f32) (x1 : Vec Ideal S64x256x256 .bf16) (x2 : Vec Ideal S64x1x256 .f32) (xt0 : TbBuf0 (F := Ideal) c tbM0_0)
    (hw1 : ∀ r x, k0_chk1 (tbM0_0.view.readAt (Elt Ideal) r xt0 x)) (hw2 : ∀ r x, k0_chk2 (tbM0_0.view.readAt (Elt Ideal) r xt0 x)) (hw3 : ∀ r x, k0_chk3 (tbM0_0.view.readAt (Elt Ideal) r xt0 x)) (hw4 : ∀ r x, k0_chk4 (tbM0_0.view.readAt (Elt Ideal) r xt0 x)) :
    out0_3 (F := Ideal) c i arg2 harg2 arg3 harg3 arg4 harg4 arg5 harg5 x0 x1 x2 xt0 hw1 hw2 hw3 hw4 = Gblk i x0 x1 x2 (xt0 : S2048.Idx → BitVec 32) := by
  funext y
  unfold out0_3
  refine VO0_3.read_writes_apply_of_pieces VO0_3.junk (Gblk i x0 x1 x2 (xt0 : S2048.Idx → BitVec 32)) _ ?_ y
    (cover0_3 c i arg2 harg2 arg3 harg3 arg4 harg4 arg5 harg5 x0 x1 x2 xt0 hw1 hw2 hw3 hw4 y)
  rw [kernelRun0_pieces, trips_eq]
  exact pcs_agree c i arg2 harg2 arg3 harg3 arg4 harg4 arg5 harg5 _ x0 x1 x2 xt0 hw1 hw2 hw3 hw4 16 (Nat.le_refl _)

/-! ## From the blocks to the array -/

/-- What point `t` writes back is block `t` of the specification's function of the arguments. -/
theorem flushed3_eq (c : Dev nD) (t : Fin (cfgM m).N) :
    (dats m (hyps m) 0 c).flushed 3 t = (((cfgM m).win 3).blk t).view.read (Elt Ideal)
      (Cert.Spec.G (m ((c : Thread nD τ).loc main_arg0)) (m ((c : Thread nD τ).loc main_arg1)) (m ((c : Thread nD τ).loc main_arg2)) (m ((c : Thread nD τ).loc main_arg3))) := by
  obtain rfl : c = 0 := Subsingleton.elim _ _
  have hout : outsAt0 m (hyps m) 0 t = Gblk (grid0.coords t) (iblk m 0 0 t) (iblk m 0 1 t) (iblk m 0 2 t) (tbl m 0) :=
    out0_3_eq 0 (grid0.coords t) (ms0_0 m t) (hs0_0 m t) (ms0_1 m t) (hs0_1 m t) (ms0_2 m t) (hs0_2 m t) (ms0_3 m t) (hs0_3 m t)
      (iblk m 0 0 t) (iblk m 0 1 t) (iblk m 0 2 t) (tbl m 0) ((hyps m).h1 0) ((hyps m).h2 0) ((hyps m).h3 0) ((hyps m).h4 0)
  show ((cfgM m).win 3).cut ((cfgM m).grid.coords t) ((dats m (hyps m) 0 0).after 3 t) = _
  rw [after0_3, hout]
  refine funext fun (y : S64x64x256.Idx) => ?_
  obtain ⟨j, r, o, rfl⟩ : ∃ (j : Fin 64) (r : Fin 64) (o : Fin 256), y = ix3 j r o := ⟨y 0, y 1, y 2, eq_ix3 y⟩
  refine Eq.trans ?_ (read_blk3 m t _ j r o).symm
  show Gblk (grid0.coords t) (iblk m 0 0 t) (iblk m 0 1 t) (iblk m 0 2 t) (tbl m 0) (ix3 j r o) = _
  exact Gblk_eq_G (grid0.coords t) _ _ _ _ (iblk m 0 0 t) (iblk m 0 1 t) (iblk m 0 2 t) (tbl m 0)
    (iblk0_apply m 0 t) (iblk1_eq m 0 t) (iblk2_apply m 0 t) (tbl_clip m) j r o

/-- The result's array after the run: the specification's function of the arguments, everywhere. -/
theorem final3 (c : Dev nD) :
    (dats m (hyps m) 0 c).arrAt 3 (cfgM m).N = (Cert.Spec.G (m ((c : Thread nD τ).loc main_arg0)) (m ((c : Thread nD τ).loc main_arg1)) (m ((c : Thread nD τ).loc main_arg2)) (m ((c : Thread nD τ).loc main_arg3))) :=
  (dats m (hyps m) 0 c).arrAt_eq_of_cover 3 (Cert.Spec.G (m ((c : Thread nD τ).loc main_arg0)) (m ((c : Thread nD τ).loc main_arg1)) (m ((c : Thread nD τ).loc main_arg2)) (m ((c : Thread nD τ).loc main_arg3)))
    (fun t _ => flushed3_eq m c t) (cover3 m)

/-! ## The run, read -/

/-- From any memory with zero counters every weakly fair execution of @main terminates with the result's array at
    the specification's function of the arguments, and the arguments as launched. -/
theorem kernel_run : θ_run defs (onTc (τ := τ) (main (F := Ideal))) ⟨m, fun _ => 0, ρ⟩ (fun r => ∀ c : Dev nD,
      r.2.mem ((c.tc : Thread nD τ).loc main_v3) = (Cert.Spec.G (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 3).trans (final3 m c),
      ((h c).1 0).trans (((dats m (hyps m) 0 c).arrAt_in 0 rfl _).trans ((A_eq m (hyps m) c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ (hyps m))

end Cert.KernelIdeal.Hand

end
-- ==== Proof.RefValue.lean ====
/-
  The reference program computes the common value `Spec.G`, on every input whose index words are nonnegative.

  The reference's last result is  dot_general(x, gather(W, idx')) + broadcast(broadcast(gather(b, idx'))),  where
  idx' = select(idx < 0, idx + 64, idx). Read at the element (s, t, o):

    * a nonnegative word is not below zero, so the select returns the word itself: idx' s = idx s;
    * the gather of the matrices at (s, o, k) reads the operand on axis 0 at the start index of sample s, read as a
      signed integer and clamped into [0, 63] — which is `Spec.expert` of the word — and on axes 1, 2 at the result's own
      coordinates o, k; the gather of the biases at (s, o) likewise reads (expert, o);
    * the dot_general, batched over s and contracting the last axis of both operands, is the sum over k = 0 … 255 of
      x (s, t, k) times the gathered matrix at (s, o, k), in that order of k;
    * the two broadcasts lay the gathered bias (s, o) along t.

  Together:  (∑ k, x (s, t, k) * W (e, o, k)) + b (e, o)  with  e = expert (idx s),  which is `Spec.G` by definition.
  The run of the reference then ends with its result buffer at `Spec.G` of the launch contents of its arguments, the
  arguments unchanged.
-/
import proofs.«421429_j32667521254078_3_alg».proof.Defs
import proofs.«421429_j32667521254078_3_alg».proof.Proof.Gen.ReferenceIdeal.Run
import proofs.«421429_j32667521254078_3_alg».proof.Proof.Gen.ReferenceIdeal.Read
import proofs.«421429_j32667521254078_3_alg».proof.Proof.Spec

noncomputable section

namespace Cert.RefSide

open Cert.ReferenceIdeal Cert.ReferenceIdeal.Gen Idealize.ShloMosaic Idealize.ShloMosaic.ValueIdx Idealize.SL.Sem Idealize.ShloMosaic.TcCoe

/-! ## The two gathers read at an index -/

/-- The dimension numbers of the gather of the experts' matrices: operand axis 0 collapsed and start-indexed, operand
    axes 1, 2 the result's offset axes 1, 2, the index vector on axis 1 of the [2048, 1] start indices. -/
abbrev dW : GatherDims S64x256x256 S2048x1 S2048x256x256 := gather_S64x256x256_S2048x1_S2048x256x256_12_0_n_n_0_1_1256256
/-- The dimension numbers of the gather of the experts' biases: operand axis 0 collapsed and start-indexed, operand
    axis 1 the result's offset axis 1. -/
abbrev dB : GatherDims S64x256 S2048x1 S2048x256 := gather_S64x256_S2048x1_S2048x256_1_0_n_n_0_1_1256

/-- The gather of the matrices at (s, o, k): the operand at (e, o, k), e the start index of sample s read signed and
    clamped into [0, 63]. -/
theorem gatherW_apply {α : Type} (x : S64x256x256.Idx → α) (idx : IVec S2048x1 32) (s : Fin 2048) (o k : Fin 256) :
    Host.gather dW x idx (ix3 s o k) = x (ix3 (Cert.Spec.expert (idx (ix2 s (0 : Fin 1)))) o k) := by
  unfold Host.gather
  congr 1
  funext a
  refine Fin.ext ?_
  match a with
  | ⟨0, _⟩ =>
    -- axis 0: the clamped start index; no batching coordinate, no offset coordinate (the axis is collapsed)
    show dW.start (ix3 s o k) idx (0 : Fin S64x256x256.rank) + dW.batchCoord (ix3 s o k) (0 : Fin S64x256x256.rank)
      + dW.offCoord (ix3 s o k) (0 : Fin S64x256x256.rank) = (Cert.Spec.expert (idx (ix2 s (0 : Fin 1)))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S64x256x256.rank) ∈ dW.startIndexMap from List.mem_singleton.mpr rfl)]
    have hsi : dW.siIdx (ix3 s o k) ⟨List.idxOf (0 : Fin S64x256x256.rank) dW.startIndexMap,
        List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    -- axis 1: not start-indexed, not batching; the result's offset coordinate o
    show dW.start (ix3 s o k) idx (1 : Fin S64x256x256.rank) + dW.batchCoord (ix3 s o k) (1 : Fin S64x256x256.rank)
      + dW.offCoord (ix3 s o k) (1 : Fin S64x256x256.rank) = o.val
    have hs : dW.start (ix3 s o k) idx (1 : Fin S64x256x256.rank) = 0 := by
      unfold GatherDims.start
      rw [dif_neg (show ¬(1 : Fin S64x256x256.rank) ∈ dW.startIndexMap by decide)]
    have ho : dW.offCoord (ix3 s o k) (1 : Fin S64x256x256.rank) = o.val := by
      unfold GatherDims.offCoord
      rw [dif_pos (show (1 : Fin S64x256x256.rank) ∈ dW.sKept by decide)]
      rfl
    rw [hs, GatherDims.batchCoord_eq_zero _ _ _ List.not_mem_nil, ho]
    omega
  | ⟨2, _⟩ =>
    -- axis 2: the result's offset coordinate k
    show dW.start (ix3 s o k) idx (2 : Fin S64x256x256.rank) + dW.batchCoord (ix3 s o k) (2 : Fin S64x256x256.rank)
      + dW.offCoord (ix3 s o k) (2 : Fin S64x256x256.rank) = k.val
    have hs : dW.start (ix3 s o k) idx (2 : Fin S64x256x256.rank) = 0 := by
      unfold GatherDims.start
      rw [dif_neg (show ¬(2 : Fin S64x256x256.rank) ∈ dW.startIndexMap by decide)]
    have ho : dW.offCoord (ix3 s o k) (2 : Fin S64x256x256.rank) = k.val := by
      unfold GatherDims.offCoord
      rw [dif_pos (show (2 : Fin S64x256x256.rank) ∈ dW.sKept by decide)]
      rfl
    rw [hs, GatherDims.batchCoord_eq_zero _ _ _ List.not_mem_nil, ho]
    omega

/-- The gather of the biases at (s, o): the operand at (e, o), e the start index of sample s read signed and clamped
    into [0, 63]. -/
theorem gatherB_apply {α : Type} (x : S64x256.Idx → α) (idx : IVec S2048x1 32) (s : Fin 2048) (o : Fin 256) :
    Host.gather dB x idx (ix2 s o) = x (ix2 (Cert.Spec.expert (idx (ix2 s (0 : Fin 1)))) o) := by
  unfold Host.gather
  congr 1
  funext a
  refine Fin.ext ?_
  match a with
  | ⟨0, _⟩ =>
    show dB.start (ix2 s o) idx (0 : Fin S64x256.rank) + dB.batchCoord (ix2 s o) (0 : Fin S64x256.rank)
      + dB.offCoord (ix2 s o) (0 : Fin S64x256.rank) = (Cert.Spec.expert (idx (ix2 s (0 : Fin 1)))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S64x256.rank) ∈ dB.startIndexMap from List.mem_singleton.mpr rfl)]
    have hsi : dB.siIdx (ix2 s o) ⟨List.idxOf (0 : Fin S64x256.rank) dB.startIndexMap,
        List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show dB.start (ix2 s o) idx (1 : Fin S64x256.rank) + dB.batchCoord (ix2 s o) (1 : Fin S64x256.rank)
      + dB.offCoord (ix2 s o) (1 : Fin S64x256.rank) = o.val
    have hs : dB.start (ix2 s o) idx (1 : Fin S64x256.rank) = 0 := by
      unfold GatherDims.start
      rw [dif_neg (show ¬(1 : Fin S64x256.rank) ∈ dB.startIndexMap by decide)]
    have ho : dB.offCoord (ix2 s o) (1 : Fin S64x256.rank) = o.val := by
      unfold GatherDims.offCoord
      rw [dif_pos (show (1 : Fin S64x256.rank) ∈ dB.sKept by decide)]
      rfl
    rw [hs, GatherDims.batchCoord_eq_zero _ _ _ List.not_mem_nil, ho]
    omega

/-! ## The index functions of the layout operations, at coordinates -/

/-- The left operand of the contraction at (s, t, o), term k: (s, t, k). -/
theorem lidx_eq (s : Fin 2048) (t : Fin 64) (o k : Fin 256) : Read.lidx_main_v14 (ix3 s t o) k = ix3 s t k := by
  funext a; match a with | ⟨0, _⟩ => rfl | ⟨1, _⟩ => rfl | ⟨2, _⟩ => rfl
/-- The right operand of the contraction at (s, t, o), term k: (s, o, k). -/
theorem ridx_eq (s : Fin 2048) (t : Fin 64) (o k : Fin 256) : Read.ridx_main_v14 (ix3 s t o) k = ix3 s o k := by
  funext a; match a with | ⟨0, _⟩ => rfl | ⟨1, _⟩ => rfl | ⟨2, _⟩ => rfl
/-- The two broadcasts of the bias read, at (s, t, o), the gathered bias at (s, o). -/
theorem bidx_eq (s : Fin 2048) (t : Fin 64) (o : Fin 256) : Read.idx_main_v15 (Read.idx_main_v16 (ix3 s t o)) = ix2 s o := by
  funext a; match a with | ⟨0, _⟩ => rfl | ⟨1, _⟩ => rfl
/-- The column of start indices reads, at row s, the index array at s (the matrices' gather). -/
theorem sidx5_eq (s : Fin 2048) : Read.idx_main_v5 (ix2 s (0 : Fin 1)) = ix1 s := by
  funext a; match a with | ⟨0, _⟩ => rfl
/-- The column of start indices reads, at row s, the index array at s (the biases' gather). -/
theorem sidx12_eq (s : Fin 2048) : Read.idx_main_v12 (ix2 s (0 : Fin 1)) = ix1 s := by
  funext a; match a with | ⟨0, _⟩ => rfl

/-! ## The wrapped index of a nonnegative word is the word -/

/-- A word that is nonnegative, read signed, is not below zero. -/
theorem slt_zero_of_nonneg {w : BitVec 32} (h : 0 ≤ w.toInt) : IntOp.cmpi .slt w 0#32 = 0#1 :=
  eq_zero_of_ne_one fun e => by
    have h1 := IntOp.cmpi_slt.1 e
    have hz : (0#32 : BitVec 32).toInt = 0 := by decide
    omega

/-- select(idx < 0, idx + 64, idx) at a sample whose word is nonnegative is the word (the matrices' gather). -/
theorem wrap4_eq (x1 : (⟨S2048, .i32⟩ : BufTy).Contents (Elt Ideal)) (s : Fin 2048) (h : 0 ≤ (x1 (ix1 s)).toInt) :
    Read.val_main_v4 (F := Ideal) x1 (ix1 s) = x1 (ix1 s) := by
  rw [Read.val_main_v4_apply, Read.val_main_v1_apply, Read.val_main_v0_apply, Read.val_main_c_apply,
    slt_zero_of_nonneg h, select_zero]

/-- select(idx < 0, idx + 64, idx) at a sample whose word is nonnegative is the word (the biases' gather). -/
theorem wrap11_eq (x1 : (⟨S2048, .i32⟩ : BufTy).Contents (Elt Ideal)) (s : Fin 2048) (h : 0 ≤ (x1 (ix1 s)).toInt) :
    Read.val_main_v11 (F := Ideal) x1 (ix1 s) = x1 (ix1 s) := by
  rw [Read.val_main_v11_apply, Read.val_main_v8_apply, Read.val_main_v7_apply, Read.val_main_c_1_apply,
    slt_zero_of_nonneg h, select_zero]

/-! ## The reference's value is G -/

/-- The reference's result, as a function of its four arguments, is `Spec.G` of them when every index word is
    nonnegative. -/
theorem val_eq_G (x0 : (⟨S2048x64x256, .f32⟩ : BufTy).Contents (Elt Ideal)) (x1 : (⟨S2048, .i32⟩ : BufTy).Contents (Elt Ideal))
    (x2 : (⟨S64x256x256, .f32⟩ : BufTy).Contents (Elt Ideal)) (x3 : (⟨S64x256, .f32⟩ : BufTy).Contents (Elt Ideal))
    (h : ∀ s : Fin 2048, 0 ≤ (x1 (ix1 s)).toInt) :
    Read.val_main_v17 (F := Ideal) x0 x1 x2 x3 = Cert.Spec.G x0 x1 x2 x3 := by
  funext j
  obtain ⟨s, t, o, rfl⟩ : ∃ (s : Fin 2048) (t : Fin 64) (o : Fin 256), j = ix3 s t o := ⟨j 0, j 1, j 2, eq_ix3 j⟩
  -- the gathered matrix at the contraction's right index
  have hW : ∀ k : Fin 256, Read.val_main_v6 (F := Ideal) x1 x2 (Read.ridx_main_v14 (ix3 s t o) k)
      = x2 (ix3 (Cert.Spec.expert (x1 (ix1 s))) o k) := fun k => by
    rw [ridx_eq]
    unfold Read.val_main_v6
    rw [gatherW_apply, Read.val_main_v5_apply, sidx5_eq, wrap4_eq x1 s (h s)]
  -- the gathered bias
  have hB : Read.val_main_v13 (F := Ideal) x1 x3 (ix2 s o) = x3 (ix2 (Cert.Spec.expert (x1 (ix1 s))) o) := by
    unfold Read.val_main_v13
    rw [gatherB_apply, Read.val_main_v12_apply, sidx12_eq, wrap11_eq x1 s (h s)]
  rw [Cert.Spec.G_apply, Read.val_main_v17_apply, Read.val_main_v14_apply, Read.val_main_v16_apply,
    Read.val_main_v15_apply, bidx_eq, hB]
  simp only [hW, lidx_eq]
  rfl

/-! ## The run -/

/-- Every weakly fair execution of the reference, from a memory whose index words are all nonnegative, terminates with
    its result at `Spec.G` of the launch contents of its arguments, and the arguments unchanged. -/
theorem ref_run
    (m' : (ℓ : Loc Cert.ReferenceIdeal.nD Cert.ReferenceIdeal.τ Cert.ReferenceIdeal.sig) → Buf (Elt Ideal) ℓ)
    (ρ' : Dev Cert.ReferenceIdeal.nD → PrngReg)
    (hidx : ∀ (c : Dev Cert.ReferenceIdeal.nD) (s : Fin 2048),
      0 ≤ ((m' ((c.tc : Thread Cert.ReferenceIdeal.nD Cert.ReferenceIdeal.τ).loc Cert.ReferenceIdeal.main_arg1)) (ix1 s)).toInt) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v17)
          = Cert.Spec.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans ((Read.val_main_v17_eq _ _ _ _).trans (val_eq_G _ _ _ _ (hidx c))), (h c).2⟩)
    (Cert.ReferenceIdeal.Value.run (F := Ideal) m' ρ')

/-- The reference runs and leaves its arguments unchanged, from any memory. -/
theorem frame_ri [hPre_finite_inputs : Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

end Cert.RefSide

end
-- ==== Proof.PreDecode.lean ====
/-
  The precondition, decoded. Its last conjunct is the conjunction, over the 2048 samples, of the signed
  comparison `idx s ≥ 0`; a conjunction of one-bit words that comes out 1 had a 1 at every place, and the
  signed comparison of a word with the zero word being 1 says the word, read as a signed integer, is
  nonnegative. The three float conjuncts are not needed here and are dropped.
-/
import proofs.«421429_j32667521254078_3_alg».proof.Pre_finite_inputs
import proofs.«421429_j32667521254078_3_alg».proof.Proof.Gen.Pre_finite_inputs
import Idealize.ShloMosaic.Lib.ReduceAll
import Idealize.ShloMosaic.Lib.ValueIdx

noncomputable section

namespace Cert.PreDecode

open Idealize.ShloMosaic Idealize.ShloMosaic.ValueIdx

/-- The scalar shape has one index. -/
instance subsingleton_scalar_idx : Subsingleton Cert.Pre_finite_inputs.S_.Idx :=
  ⟨fun _ _ => funext fun d => d.elim0⟩

/-- Every index word is nonnegative, read signed, when the precondition holds. -/
theorem idx_nonneg_of_pre {F : FTy → Type} [FloatOps F] [Cert.Pre_finite_inputs.Facts]
    (x : FVec F Cert.Pre_finite_inputs.S2048x64x256 .f32) (idx : IVec Cert.Pre_finite_inputs.S2048 32)
    (W : FVec F Cert.Pre_finite_inputs.S64x256x256 .f32) (b : FVec F Cert.Pre_finite_inputs.S64x256 .f32)
    (h : Cert.Pre_finite_inputs.fn (F := F) x idx W b = fun _ => 1#1) :
    ∀ s : Fin 2048, 0 ≤ (idx (Idealize.ShloMosaic.ValueIdx.ix1 s)).toInt := by
  intro s
  have e := congrFun h ix0
  dsimp only [Cert.Pre_finite_inputs.fn, Cert.Pre_finite_inputs.fn_part1] at e
  -- the outermost conjunction: its right conjunct is the conjunction over the words
  have e2 := (IntOp.andi_eq_one.1 e).2
  -- every place of that conjunction is 1
  have e3 := Host.reduce_andi_all _ _ _ _ _ e2 (ix1 s)
  -- the place of sample s is the signed comparison of its word with the zero word
  have e4 := IntOp.cmpi_sge.1 e3
  exact e4

end Cert.PreDecode

end
-- ==== Proof.lean ====
/-
  The certificate's five claims, assembled.

  The kernel: sixty-four samples per grid point; for each sample the table of index words, clipped by the host
  into `[0, 63]`, names an expert, and the sample's rows times that expert's matrix (contracted over the input
  features) plus that expert's bias row are stored into the sample's rows of the result. The reference: the
  experts' matrices and biases gathered at the index words (a negative word counted from the end of the table),
  one batched contraction, the bias broadcast over the rows and added.

  Under the precondition every index word is non-negative, so the reference's wrap is the identity and its
  gather's clamp selects expert `min w 63` — what the kernel's clip selects for every word. Both programs therefore
  end with the one function `Spec.G` of their arguments: entry `(s, t, o)` is
  `(∑ k, x (s, t, k) * W (e, o, k)) + b (e, o)` with `e` the expert of sample `s`, the sum over the extended reals in
  the same order on both sides; no finiteness is used. The narrowing of the matrices and of the samples to a
  shorter float format is the identity at the ideal instance.

  The three frames: each program runs to the end, faults nowhere and leaves its arguments unchanged — the two
  kernel programs by the pipelined region's launch over a body run once per grid point, its loop by an
  invariant, the side conditions the body assumes of the table's words holding of every clipped word; the
  reference by its run read back. The idealization rewrote nothing, so `preserves` is trivial.
-/
import proofs.«421429_j32667521254078_3_alg».proof.Defs
import proofs.«421429_j32667521254078_3_alg».proof.Proof.Gen.Kernel
import proofs.«421429_j32667521254078_3_alg».proof.Proof.Gen.KernelIdeal
import proofs.«421429_j32667521254078_3_alg».proof.Proof.Gen.ReferenceIdeal
import proofs.«421429_j32667521254078_3_alg».proof.Proof.Gen.Pre_finite_inputs
import proofs.«421429_j32667521254078_3_alg».proof.Proof.KBHyps
import proofs.«421429_j32667521254078_3_alg».proof.Proof.KIValue
import proofs.«421429_j32667521254078_3_alg».proof.Proof.RefValue
import proofs.«421429_j32667521254078_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end and leaves its arguments unchanged, for every index word. -/
theorem frame_k : Cert.frame_Kernel := fun m ρ _ => Cert.Kernel.Hand.frame m ρ (Cert.Kernel.Hand.hyps m)

/-- The same of its idealization. -/
theorem frame_ki : Cert.frame_KernelIdeal := fun m ρ _ => Cert.KernelIdeal.Hand.frame m ρ (Cert.KernelIdeal.Hand.hyps m)

/-- The reference's frame is its run with the result dropped. -/
theorem frame_ri : Cert.frame_ReferenceIdeal := Cert.RefSide.frame_ri

/-- The idealization rewrote no operation. -/
theorem preserves : Cert.preserves_Kernel_KernelIdeal := trivial

/-- From memories agreeing on the arguments, with every index word non-negative, both idealized programs end with
    `Spec.G` of the arguments. -/
theorem algebraic : Cert.algebraic_KernelIdeal_ReferenceIdeal := by
  intro m ρ m' ρ' hpre hagree
  have hidx : ∀ (c : Dev Cert.ReferenceIdeal.nD) (s : Fin 2048),
      0 ≤ ((m' ((c.tc : Thread Cert.ReferenceIdeal.nD Cert.ReferenceIdeal.τ).loc Cert.ReferenceIdeal.main_arg1)) (ix1 s)).toInt := by
    intro c s
    rw [(hagree c).2.1]
    exact Cert.PreDecode.idx_nonneg_of_pre (F := Ideal) _ _ _ _ (hpre c) s
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.kernel_run m ρ, ?_⟩
  refine (θ_run Cert.ReferenceIdeal.defs _ _).mono (fun r h c => ⟨?_, (h c).2⟩) (Cert.RefSide.ref_run m' ρ' hidx)
  rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
